-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16x16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S200x128 : Shape := ⟨2, ![200, 128]⟩
abbrev S200x10000 : Shape := ⟨2, ![200, 10000]⟩
abbrev S200x16 : Shape := ⟨2, ![200, 16]⟩

abbrev nBuf : Space → Nat
  | .hbm => 10
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S10000x16, .f32⟩
  | .hbm, ⟨9, _⟩ => ⟨S10000x16, .f32⟩
  | .local _ .vmem, ⟨0, _⟩ => ⟨S200x128, .f32⟩
  | .local _ .vmem, ⟨1, _⟩ => ⟨S200x128, .f32⟩
  | .local _ .vmem, ⟨2, _⟩ => ⟨S200x10000, .f32⟩
  | .local _ .vmem, ⟨3, _⟩ => ⟨S200x10000, .f32⟩
  | .local _ .vmem, ⟨4, _⟩ => ⟨S128x16, .f32⟩
  | .local _ .vmem, ⟨5, _⟩ => ⟨S1x16, .f32⟩
  | .local _ .vmem, ⟨6, _⟩ => ⟨S16x16, .f32⟩
  | .local _ .vmem, ⟨7, _⟩ => ⟨S1x16, .f32⟩
  | .local _ .vmem, ⟨8, _⟩ => ⟨S200x16, .f32⟩
  | .local _ .vmem, ⟨9, _⟩ => ⟨S200x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg1_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11

abbrev nD : Nat := 1
abbrev τ : Topo := Topo.v7x

variable {F : FTy → Type} [FloatOps F]

abbrev grid0 : Pipeline.Grid := ⟨2, ![3, 50], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c200_i32 : BitVec 32 := 200#32
  let v12 : BitVec 32 := Scalar.muli arg1 c200_i32
  let v13 : Index := Scalar.indexCast v12
  let c0_6 : Index := 0#32
  ![v13.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg1 : BitVec 32 := BitVec.ofNat 32 (i 1).val
  let c200_i32 : BitVec 32 := 200#32
  let v20 : BitVec 32 := Scalar.muli arg1 c200_i32
  let v21 : Index := Scalar.indexCast v20
  let c0_12 : Index := 0#32
  ![v21.toNat, 0]
def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S200x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := .none

abbrev stage1_0 : Fin 1 → Memref sig .tc .vmem S10000x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

class Facts₀ : Prop where
  shapeCasts_S16_S1x16 : S16.ShapeCasts S1x16
  inb_S200x128_S200x128_0_0 : ∀ a, (![0, 0] : Fin 2 → Nat) a + S200x128.size a ≤ S200x128.size a
  h_S200x128 : 0 < S200x128.numel
  inb_S128x16_S128x16_0_0 : ∀ a, (![0, 0] : Fin 2 → Nat) a + S128x16.size a ≤ S128x16.size a
  h_S128x16 : 0 < S128x16.numel
  h_S200x16 : 0 < S200x16.numel
  shapeCasts_S200x16_S200x16 : S200x16.ShapeCasts S200x16
  inb_S200x10000_S200x10000_0_0 : ∀ a, (![0, 0] : Fin 2 → Nat) a + S200x10000.size a ≤ S200x10000.size a
  h_S200x10000 : 0 < S200x10000.numel
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S16x16_S16x16_0_0 : ∀ a, (![0, 0] : Fin 2 → Nat) a + S16x16.size a ≤ S16x16.size a
  h_S16x16 : 0 < S16x16.numel
  inb_S200x16_S200x16_0_0 : ∀ a, (![0, 0] : Fin 2 → Nat) a + S200x16.size a ≤ S200x16.size a
  shapeCasts_S10000x16_S10000x16 : S10000x16.ShapeCasts S10000x16
  reduces_S10000x16_S16 : S10000x16.Reduces [0] S16
  broadcasts_S1x16_S10000x16 : S1x16.Broadcasts S10000x16
  dot_S200x128_S128x16_S200x16_1_0_0_1_n_n_wf : DotDims.WF S200x128 S128x16 S200x16 [1] [0] [0] [1] [] []
  dot_S200x10000_S10000x16_S200x16_1_0_0_1_n_n_wf : DotDims.WF S200x10000 S10000x16 S200x16 [1] [0] [0] [1] [] []
  dot_S200x16_S16x16_S200x16_1_0_0_1_n_n_wf : DotDims.WF S200x16 S16x16 S200x16 [1] [0] [0] [1] [] []
  hrank0 : 0 < grid0.rank
  k0_off1_inb : ∀ i : grid0.Coords, ∀ (k0_h1 : k0_cond1 i = 1#1), ∀ a, (k0_off1 i) a + S200x16.size a ≤ S10000x16.size a
  k0_off2_inb : ∀ i : grid0.Coords, ∀ (k0_h2 : k0_cond2 i = 1#1), ∀ a, (k0_off2 i) a + S200x16.size a ≤ S10000x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S10000x128.size a
  hwx0_0 : ∀ i : grid0.Coords, EltTy.bits .f32 = 32 ∨ (Rect.block (s := S10000x128) S200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x16.size a ≤ S10000x16.size a
  hwx0_6 : ∀ i : grid0.Coords, EltTy.bits .f32 = 32 ∨ (Rect.block (s := S10000x16) S200x16.size (cc0_transform_6 i) (hinb0_6 i)).WholeWords (EltTy.packing .f32)
  hstage1_0 : ∀ j, (stage1_0 j).IsWhole
  hstage1_1 : ∀ j, (stage1_1 j).IsWhole

variable [Facts₀]

def dot_S200x128_S128x16_S200x16_1_0_0_1_n_n : DotDims S200x128 S128x16 S200x16 where
  lhsContracting := [1]
  rhsContracting := [0]
  lhsNonContracting := [0]
  rhsNonContracting := [1]
  lhsBatch := []
  rhsBatch := []
  wf := dot_S200x128_S128x16_S200x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def dot_S200x16_S16x16_S200x16_1_0_0_1_n_n : DotDims S200x16 S16x16 S200x16 where
  lhsContracting := [1]
  rhsContracting := [0]
  lhsNonContracting := [0]
  rhsNonContracting := [1]
  lhsBatch := []
  rhsBatch := []
  wf := dot_S200x16_S16x16_S200x16_1_0_0_1_n_n_wf

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S200x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

abbrev win1_0 : Pipeline.Window sig grid1 :=
  Pipeline.Window.whole (Memref.whole main_v2) false false (stage1_0 0) (sem1_0 0) (Memref.isWhole_whole _) (hstage1_0 0)

abbrev win1_1 : Pipeline.Window sig grid1 :=
  Pipeline.Window.whole (Memref.whole main_v3) true false (stage1_1 0) (sem1_1 0) (Memref.isWhole_whole _) (hstage1_1 0)

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩
abbrev S16x10000 : Shape := ⟨2, ![16, 10000]⟩
abbrev S16x1 : Shape := ⟨2, ![16, 1]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S16x10000, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16x1, .f32⟩
  | .hbm, ⟨26, _⟩ => ⟨S16x10000, .f32⟩
  | .hbm, ⟨27, _⟩ => ⟨S16x10000, .f32⟩
  | .hbm, ⟨28, _⟩ => ⟨S16x10000, .f32⟩
  | .hbm, ⟨29, _⟩ => ⟨S_, .f32⟩
  | .hbm, ⟨30, _⟩ => ⟨S16, .f32⟩
  | .hbm, ⟨31, _⟩ => ⟨S16x1, .f32⟩
  | .hbm, ⟨32, _⟩ => ⟨S16x1, .f32⟩
  | .hbm, ⟨33, _⟩ => ⟨S16x10000, .f32⟩
  | .hbm, ⟨34, _⟩ => ⟨S16x10000, .f32⟩
  | .hbm, ⟨35, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_cst : Ref sig .tc := ⟨.hbm, 20, rfl⟩
abbrev main_call1_v0 : Ref sig .tc := ⟨.hbm, 21, rfl⟩
abbrev main_call1_cst_0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_cst_1 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_v12 : Ref sig .tc := ⟨.hbm, 34, rfl⟩
abbrev main_v13 : Ref sig .tc := ⟨.hbm, 35, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  transposes_S10000x16_S16x10000_1_0 : S10000x16.Transposes [1, 0] S16x10000
  reducesTo_S16x10000_S16_d1 : S16x10000.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x10000_0_1 : S16x1.BroadcastsInDim S16x10000 (![0, 1] : Fin 2 → Fin S16x10000.rank)
  transposes_S16x10000_S10000x16_1_0 : S16x10000.Transposes [1, 0] S10000x16
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.Bits.Rows.lean ====
/-
  The two scratch arrays of the first kernel, each 10000 rows of 16, are filled 200 rows at a time, one band per
  grid point.  `RowsSet o s s' p` says `s'` is `s` with the 200 rows from row `o` on replaced by the block `p`.
-/
import proofs.«137190_g652835029062_cont_sun_m_363_3_alg».proof.Proof.Gen.Kernel.Launch
import proofs.«137190_g652835029062_cont_sun_m_363_3_alg».proof.Proof.Gen.Kernel.Skeleton
import proofs.«137190_g652835029062_cont_sun_m_363_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first scratch (it collects `X·W1`), as a whole memref. -/
abbrev sc0M : Memref sig .tc .vmem S10000x16 .f32 := Memref.whole cc0_scratch0
/-- The second scratch (it collects `relu(A·s1 + b1)·W2`), as a whole memref. -/
abbrev sc1M : Memref sig .tc .vmem S10000x16 .f32 := Memref.whole cc0_scratch1

/-- `s'` is `s` with the 200 rows from row `o` on replaced by the block `p`; every other row is kept. -/
def RowsSet (o : ℕ) (s s' : Vec F S10000x16 .f32) (p : Vec F S200x16 .f32) : Prop :=
  (∀ (r : Fin 200) (q : Fin 16) (h : o + r.val < 10000), s' (ix2 (⟨o + r.val, h⟩ : Fin 10000) q) = p (ix2 r q))
  ∧ (∀ y : S10000x16.Idx, ¬(o ≤ (y 0).val ∧ (y 0).val < o + 200) → s' y = s y)

end Cert.Kernel.Hand

end
-- ==== Proof.Bits.Sched.lean ====
/-
  The first kernel's schedule over its 3 × 50 grid, in closed form: points 0–49 are the first phase (bands of
  `X·W1`), 50–99 the second, 100–149 the third; the scratch band of point `t` starts at row `200·(t mod 50)`;
  the output window is idle before point 100 and written back from point 100 on; and the block indices of the
  three windows that move.
-/
import proofs.«137190_g652835029062_cont_sun_m_363_3_alg».proof.Proof.Gen.Kernel.Launch
import proofs.«137190_g652835029062_cont_sun_m_363_3_alg».proof.Proof.Gen.Kernel.Skeleton
import proofs.«137190_g652835029062_cont_sun_m_363_3_alg».proof.Proof.Gen.Kernel.Points
import proofs.«137190_g652835029062_cont_sun_m_363_3_alg».proof.Proof.Bits.Rows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem cond1_iff : ∀ t : Fin cfg0.N, k0_cond1 (grid0.coords t) = 1#1 ↔ t.val < 50 :=
  (by decide +kernel : ∀ t : Fin grid0.N, k0_cond1 (grid0.coords t) = 1#1 ↔ t.val < 50)
theorem cond2_iff : ∀ t : Fin cfg0.N, k0_cond2 (grid0.coords t) = 1#1 ↔ (50 ≤ t.val ∧ t.val < 100) :=
  (by decide +kernel : ∀ t : Fin grid0.N, k0_cond2 (grid0.coords t) = 1#1 ↔ (50 ≤ t.val ∧ t.val < 100))
theorem cond3_iff : ∀ t : Fin cfg0.N, k0_cond3 (grid0.coords t) = 1#1 ↔ 100 ≤ t.val :=
  (by decide +kernel : ∀ t : Fin grid0.N, k0_cond3 (grid0.coords t) = 1#1 ↔ 100 ≤ t.val)

theorem off1_eq : ∀ t : Fin cfg0.N, k0_off1 (grid0.coords t) = ![200 * (t.val % 50), 0] :=
  (by decide +kernel : ∀ t : Fin grid0.N, k0_off1 (grid0.coords t) = ![200 * (t.val % 50), 0])
theorem off2_eq : ∀ t : Fin cfg0.N, k0_off2 (grid0.coords t) = ![200 * (t.val % 50), 0] :=
  (by decide +kernel : ∀ t : Fin grid0.N, k0_off2 (grid0.coords t) = ![200 * (t.val % 50), 0])

/-- The output window is idle exactly before the third phase. -/
theorem idle6_iff : ∀ t : Fin cfg0.N, cfg0.idle 6 (cfg0.grid.coords t) = true ↔ t.val < 100 :=
  (by decide +kernel : ∀ t : Fin grid0.N, idle0 6 (grid0.coords t) = true ↔ t.val < 100)
/-- It is written back exactly at the points of the third phase. -/
theorem flush6_iff : ∀ t : Fin cfg0.N, (cfg0.win 6).flush t = true ↔ 100 ≤ t.val :=
  (by decide +kernel : ∀ t : Fin grid0.N, win0_6.flush t = true ↔ 100 ≤ t.val)

/-- The features' block index: the point's own in the first phase, block 0 afterwards. -/
theorem idx0_eq : ∀ t : Fin cfg0.N, (cfg0.win 0).index t = ![if t.val < 50 then t.val else 0, 0] :=
  (by decide +kernel : ∀ t : Fin grid0.N, win0_0.index t = ![if t.val < 50 then t.val else 0, 0])
/-- The adjacency's block index: block 0 in the first phase, `t mod 50` afterwards. -/
theorem idx1_eq : ∀ t : Fin cfg0.N, (cfg0.win 1).index t = ![if t.val < 50 then 0 else t.val % 50, 0] :=
  (by decide +kernel : ∀ t : Fin grid0.N, win0_1.index t = ![if t.val < 50 then 0 else t.val % 50, 0])
/-- The output's block index: `t − 100` in the third phase, block 0 before. -/
theorem idx6_eq : ∀ t : Fin cfg0.N, (cfg0.win 6).index t = ![if 100 ≤ t.val then t.val - 100 else 0, 0] :=
  (by decide +kernel : ∀ t : Fin grid0.N, win0_6.index t = ![if 100 ≤ t.val then t.val - 100 else 0, 0])

theorem N0 : cfg0.N = 150 := N_0

end Cert.Kernel.Hand

end
-- ==== Proof.Bits.Data.lean ====
/-
  What the two kernels hold between grid points.

  The first kernel's scratches are specified independently of the run: `S1` is, band by band, the product of the
  features' block with `W1`; `S2`, band by band, the second phase's payload of the adjacency's block and `S1`.  The
  invariant before point `n` says that some contents of the two scratches agree with `S1` on the rows the first
  phase has stored so far (all of them from point 50 on) and with `S2` on the rows the second phase has stored so
  far (all of them from point 100 on).  The output's staging buffer after a point of the third phase holds the
  third payload of the adjacency's block and `S2`.  The second kernel keeps nothing between points.
-/
import proofs.«137190_g652835029062_cont_sun_m_363_3_alg».proof.Proof.Gen.Kernel.Launch
import proofs.«137190_g652835029062_cont_sun_m_363_3_alg».proof.Proof.Gen.Kernel.Skeleton
import proofs.«137190_g652835029062_cont_sun_m_363_3_alg».proof.Proof.Gen.Kernel.Points
import proofs.«137190_g652835029062_cont_sun_m_363_3_alg».proof.Proof.Bits.Rows
import proofs.«137190_g652835029062_cont_sun_m_363_3_alg».proof.Proof.Bits.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## The first kernel -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The six input blocks at a point, at their literal shapes. -/
abbrev xblk (c : Dev nD) (t : Fin cfg0.N) : Vec F S200x128 .f32 := iblk0 V c 0 t
abbrev ablk (c : Dev nD) (t : Fin cfg0.N) : Vec F S200x10000 .f32 := iblk0 V c 1 t
abbrev w1v (c : Dev nD) (t : Fin cfg0.N) : Vec F S128x16 .f32 := iblk0 V c 2 t
abbrev b1v (c : Dev nD) (t : Fin cfg0.N) : Vec F S1x16 .f32 := iblk0 V c 3 t
abbrev w2v (c : Dev nD) (t : Fin cfg0.N) : Vec F S16x16 .f32 := iblk0 V c 4 t
abbrev b2v (c : Dev nD) (t : Fin cfg0.N) : Vec F S1x16 .f32 := iblk0 V c 5 t

/-- Point `k` of the grid, for `k < 150`. -/
def pt (k : ℕ) (hk : k < 150) : Fin cfg0.N := ⟨k, by rw [N0]; exact hk⟩
/-- The first point. -/
def t0 : Fin cfg0.N := pt 0 (by omega)

theorem band_lt (y : S10000x16.Idx) : (y 0).val / 200 < 50 := by
  have : (y 0).val < 10000 := (y 0).isLt
  omega

/-- The first scratch as the first phase fills it: row `ρ` is in band `ρ / 200`, stored at point `ρ / 200`. -/
def S1 (c : Dev nD) : Vec F S10000x16 .f32 := fun y =>
  k0_pay1 (xblk V c (pt ((y 0).val / 200) (by have := band_lt y; omega))) (w1v V c t0)
    (ix2 (⟨(y 0).val % 200, Nat.mod_lt _ (by omega)⟩ : Fin 200) (⟨(y 1).val, (y 1).isLt⟩ : Fin 16))

/-- The second scratch as the second phase fills it: band `ρ / 200` is stored at point `50 + ρ / 200`. -/
def S2 (c : Dev nD) : Vec F S10000x16 .f32 := fun y =>
  k0_pay2 (ablk V c (pt (50 + (y 0).val / 200) (by have := band_lt y; omega))) (S1 V c) (b1v V c t0) (w2v V c t0)
    (ix2 (⟨(y 0).val % 200, Nat.mod_lt _ (by omega)⟩ : Fin 200) (⟨(y 1).val, (y 1).isLt⟩ : Fin 16))

/-- What a point of the third phase leaves in the output's staging buffer. -/
def H2blk (c : Dev nD) (t : Fin cfg0.N) : Vec F S200x16 .f32 := k0_pay3 (ablk V c t) (S2 V c) (b2v V c t)

/-- Before point `n` the first scratch agrees with `S1` on the rows below `200·n`. -/
def Inv1 (c : Dev nD) (n : ℕ) (s : Vec F S10000x16 .f32) : Prop := ∀ y : S10000x16.Idx, (y 0).val < 200 * n → s y = S1 V c y
/-- Before point `n` the second scratch agrees with `S2` on the rows below `200·(n − 50)`. -/
def Inv2 (c : Dev nD) (n : ℕ) (s : Vec F S10000x16 .f32) : Prop := ∀ y : S10000x16.Idx, (y 0).val + 10000 < 200 * n → s y = S2 V c y

/-- The first kernel's invariant before point `n`: the two scratches at some contents that agree with `S1`, `S2` so far,
    the second kernel's staging buffers at anything, the generator register at some state. -/
def Phi0 (c : Dev nD) (n : ℕ) : sProp 𝕄 :=
  iprop(∃ (s1 s2 : Vec F S10000x16 .f32), ⌜Inv1 V c n s1 ∧ Inv2 V c n s2⌝
      ∗ owns (c : Thread nD τ) sc0M fullShare s1 ∗ owns (c : Thread nD τ) sc1M fullShare s2
      ∗ (∃ d, owns (c : Thread nD τ) (Memref.whole cc1_stg0_0) fullShare d)
      ∗ (∃ d, owns (c : Thread nD τ) (Memref.whole cc1_stg1_0) fullShare d)
      ∗ (∃ r, prngReg c r))

/-- The first kernel's proof data: the arrays as the region finds them; each input's buffer after the body at its
    block; the output's at `H2blk` (consulted only at the third phase's points); the invariant `Phi0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => H2blk V c t
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = H2blk V c t := by dsimp only [dat0]
theorem Phi_eq0 (c : Dev nD) (t : Fin (cfg0.N + 1)) : (dat0 V c).Φ t = Phi0 V c t.val := by dsimp only [dat0]

/-! ## The second kernel -/

/-- Window `w`'s block at the second kernel's one point: the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second kernel's proof data: the input's buffer at the whole array, the output's at its log-softmax payload;
    the scoped rest and the generator register ride along untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (iblk1 V c 0 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = k1_pay1 (iblk1 V c 0 t) := by dsimp only [dat1]

end Cert.Kernel.Hand

end
-- ==== Proof.Bits.Bodies0.lean ====
/-
  The first kernel's body at a point of its first phase (one band of `X·W1` stored into the first scratch) and of
  its second phase (one band of `relu(A·s1 + b1)·W2` stored into the second scratch, `s1` read whole from the first).
-/
import proofs.«137190_g652835029062_cont_sun_m_363_3_alg».proof.Proof.Gen.Kernel.Launch
import proofs.«137190_g652835029062_cont_sun_m_363_3_alg».proof.Proof.Gen.Kernel.Skeleton
import proofs.«137190_g652835029062_cont_sun_m_363_3_alg».proof.Proof.Gen.Kernel.Points
import proofs.«137190_g652835029062_cont_sun_m_363_3_alg».proof.Proof.Bits.Rows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Phase one at grid point `i`: from the features' block `x`, the weights `w1` and the first scratch at `s`, the body
    leaves the scratch at `s` with rows `o … o+199` replaced by the block's product with `w1`. -/
theorem body_case0 (c : Dev nD) (E : Set ℕ) (i : grid0.Coords)
    (h1 : k0_cond1 i = 1#1) (h2 : ¬ k0_cond2 i = 1#1) (h3 : ¬ k0_cond3 i = 1#1) (o : ℕ) (ho : k0_off1 i = ![o, 0])
    (arg2 : Memref sig .tc .vmem S200x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole)
    (x : Vec F S200x128 .f32) (w1 : Vec F S128x16 .f32) (s : Vec F S10000x16 .f32) (K : PUnit → sProp 𝕄) :
    iprop(owns (c : Thread nD τ) arg2 fullShare x ∗ owns (c : Thread nD τ) arg4 fullShare w1 ∗ owns (c : Thread nD τ) sc0M fullShare s
        ∗ (iprop(owns (c : Thread nD τ) arg2 fullShare x ∗ owns (c : Thread nD τ) arg4 fullShare w1
            ∗ (∃ s' : Vec F S10000x16 .f32, ⌜RowsSet o s s' (k0_pay1 x w1)⌝ ∗ owns (c : Thread nD τ) sc0M fullShare s')) -∗ K ⟨⟩))
      ⊢ wp frame (wpE (defs₀ (F := F)) Variants.none c none) E (cc0__gcn_body i arg2 harg2 arg3 harg3 arg4 harg4 arg5 harg5 arg6 harg6 arg7 harg7 arg8 harg8 sc0M (Memref.isWhole_whole _) sc1M (Memref.isWhole_whole _)) K := by
  simp only [cc0__gcn_body_eq_skeleton]; unfold cc0__gcn_body_skel
  unfold owns
  iintro ⟨⟨%g2, %hg2, H2⟩, ⟨%g4, %hg4, H4⟩, ⟨%g9, %hg9, H9⟩, Hk⟩
  subst hg2; subst hg4; subst hg9
  sl_exec (disch := first | exact h1 | exact h2 | exact h3)
  sl_step
  iapply Hk
  -- the features' block and the weights are held as they were
  isplitl [H2]
  · iexists g2; isplitr; · ipureintro; rfl
    iexact H2
  isplitl [H4]
  · iexists g4; isplitr; · ipureintro; rfl
    iexact H4
  -- the scratch is held at its contents with the one band written over them
  iexists _; isplitr
  swap
  · iexists _; isplitr
    swap; · iexact H9
    ipureintro; rfl
  ipureintro
  -- a load of a whole buffer from offset zero reads the buffer's contents
  have hz : (![0, 0] : Fin 2 → ℕ) = fun _ => 0 := by funext a; fin_cases a <;> rfl
  have e2 : View.readAt (Elt F) arg2.view (Rect.unit (s := S200x128) ![0, 0] S200x128.size inb_S200x128_S200x128_0_0).toLoadRect g2
      = arg2.view.read (Elt F) g2 := by
    rw [View.readAt_eq_ld, View.ld_unit_zero (S := S200x128) hz]
  have e4 : View.readAt (Elt F) arg4.view (Rect.unit (s := S128x16) ![0, 0] S128x16.size inb_S128x16_S128x16_0_0).toLoadRect g4
      = arg4.view.read (Elt F) g4 := by
    rw [View.readAt_eq_ld, View.ld_unit_zero (S := S128x16) hz]
  rw [e2, e4]
  -- a row of the band reads the band's payload at that row; any other row reads what was there before
  refine ⟨fun r q h => ?_, fun y hy => ?_⟩
  · exact View.read_writes_cons_rows_of_mem sc0M.view g9 (k0_off1_inb i h1) _ [] (ix2 (⟨o + r.val, h⟩ : Fin 10000) q) (ix2 r q) ho rfl rfl
  · refine (View.read_writes_cons_rows_of_not_mem (W := 200) sc0M.view g9 (k0_off1_inb i h1) _ [] y ho rfl (by omega)).trans ?_
    rfl

set_option maxHeartbeats 1000000 in
/-- Phase two at grid point `i`: from the adjacency's row block `a`, the first scratch at `s1` (read whole), the bias row
    `b`, the weights `w2` and the second scratch at `s2`, the body leaves the second scratch at `s2` with rows
    `o … o+199` replaced by the block's payload. -/
theorem body_case1 (c : Dev nD) (E : Set ℕ) (i : grid0.Coords)
    (h1 : ¬ k0_cond1 i = 1#1) (h2 : k0_cond2 i = 1#1) (h3 : ¬ k0_cond3 i = 1#1) (o : ℕ) (ho : k0_off2 i = ![o, 0])
    (arg2 : Memref sig .tc .vmem S200x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole)
    (a : Vec F S200x10000 .f32) (s1 : Vec F S10000x16 .f32) (b : Vec F S1x16 .f32) (w2 : Vec F S16x16 .f32) (s2 : Vec F S10000x16 .f32)
    (K : PUnit → sProp 𝕄) :
    iprop(owns (c : Thread nD τ) arg3 fullShare a ∗ owns (c : Thread nD τ) sc0M fullShare s1 ∗ owns (c : Thread nD τ) arg5 fullShare b
        ∗ owns (c : Thread nD τ) arg6 fullShare w2 ∗ owns (c : Thread nD τ) sc1M fullShare s2
        ∗ (iprop(owns (c : Thread nD τ) arg3 fullShare a ∗ owns (c : Thread nD τ) sc0M fullShare s1 ∗ owns (c : Thread nD τ) arg5 fullShare b
            ∗ owns (c : Thread nD τ) arg6 fullShare w2
            ∗ (∃ s2' : Vec F S10000x16 .f32, ⌜RowsSet o s2 s2' (k0_pay2 a s1 b w2)⌝ ∗ owns (c : Thread nD τ) sc1M fullShare s2')) -∗ K ⟨⟩))
      ⊢ wp frame (wpE (defs₀ (F := F)) Variants.none c none) E (cc0__gcn_body i arg2 harg2 arg3 harg3 arg4 harg4 arg5 harg5 arg6 harg6 arg7 harg7 arg8 harg8 sc0M (Memref.isWhole_whole _) sc1M (Memref.isWhole_whole _)) K := by
  simp only [cc0__gcn_body_eq_skeleton]; unfold cc0__gcn_body_skel
  unfold owns
  iintro ⟨⟨%g3, %hg3, H3⟩, ⟨%g9, %hg9, H9⟩, ⟨%g5, %hg5, H5⟩, ⟨%g6, %hg6, H6⟩, ⟨%g10, %hg10, H10⟩, Hk⟩
  subst hg3; subst hg9; subst hg5; subst hg6; subst hg10
  sl_exec (disch := first | exact h1 | exact h2 | exact h3)
  sl_step
  iapply Hk
  -- the adjacency's block, the first scratch, the bias row and the weights are held as they were
  isplitl [H3]
  · iexists g3; isplitr; · ipureintro; rfl
    iexact H3
  isplitl [H9]
  · iexists g9; isplitr; · ipureintro; rfl
    iexact H9
  isplitl [H5]
  · iexists g5; isplitr; · ipureintro; rfl
    iexact H5
  isplitl [H6]
  · iexists g6; isplitr; · ipureintro; rfl
    iexact H6
  -- the second scratch is held at its contents with the one band written over them
  iexists _; isplitr
  swap
  · iexists _; isplitr
    swap; · iexact H10
    ipureintro; rfl
  ipureintro
  -- a load of a whole buffer from offset zero reads the buffer's contents
  have hz : (![0, 0] : Fin 2 → ℕ) = fun _ => 0 := by funext a; fin_cases a <;> rfl
  have e3 : View.readAt (Elt F) arg3.view (Rect.unit (s := S200x10000) ![0, 0] S200x10000.size inb_S200x10000_S200x10000_0_0).toLoadRect g3
      = arg3.view.read (Elt F) g3 := by
    rw [View.readAt_eq_ld, View.ld_unit_zero (S := S200x10000) hz]
  have e9 : View.readAt (Elt F) sc0M.view (Rect.unit (s := S10000x16) ![0, 0] S10000x16.size inb_S10000x16_S10000x16_0_0).toLoadRect g9
      = sc0M.view.read (Elt F) g9 := by
    rw [View.readAt_eq_ld, View.ld_unit_zero (S := S10000x16) hz]
  have e5 : View.readAt (Elt F) arg5.view (Rect.unit (s := S1x16) ![0, 0] S1x16.size inb_S1x16_S1x16_0_0).toLoadRect g5
      = arg5.view.read (Elt F) g5 := by
    rw [View.readAt_eq_ld, View.ld_unit_zero (S := S1x16) hz]
  have e6 : View.readAt (Elt F) arg6.view (Rect.unit (s := S16x16) ![0, 0] S16x16.size inb_S16x16_S16x16_0_0).toLoadRect g6
      = arg6.view.read (Elt F) g6 := by
    rw [View.readAt_eq_ld, View.ld_unit_zero (S := S16x16) hz]
  rw [e3, e9, e5, e6]
  -- a row of the band reads the band's payload at that row; any other row reads what was there before
  refine ⟨fun r q h => ?_, fun y hy => ?_⟩
  · exact View.read_writes_cons_rows_of_mem sc1M.view g10 (k0_off2_inb i h2) _ [] (ix2 (⟨o + r.val, h⟩ : Fin 10000) q) (ix2 r q) ho rfl rfl
  · refine (View.read_writes_cons_rows_of_not_mem (W := 200) sc1M.view g10 (k0_off2_inb i h2) _ [] y ho rfl (by omega)).trans ?_
    rfl

end Cert.Kernel.Hand

end
-- ==== Proof.Bits.Bodies1.lean ====
/-
  The first kernel's body at a point of its third phase (one band of `A·s2 + b2` stored into the output's staging
  buffer, `s2` read whole from the second scratch), and the second kernel's body (the column-wise log-softmax of the
  whole array in one step).
-/
import proofs.«137190_g652835029062_cont_sun_m_363_3_alg».proof.Proof.Gen.Kernel.Launch
import proofs.«137190_g652835029062_cont_sun_m_363_3_alg».proof.Proof.Gen.Kernel.Skeleton
import proofs.«137190_g652835029062_cont_sun_m_363_3_alg».proof.Proof.Gen.Kernel.Points
import proofs.«137190_g652835029062_cont_sun_m_363_3_alg».proof.Proof.Bits.Rows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Phase three at grid point `i`: from the adjacency's row block `a`, the second scratch at `s2` (read whole) and the
    bias row `b`, the body leaves the output's staging buffer at the block's payload, whatever it held. -/
theorem body_case2 (c : Dev nD) (E : Set ℕ) (i : grid0.Coords)
    (h1 : ¬ k0_cond1 i = 1#1) (h2 : ¬ k0_cond2 i = 1#1) (h3 : k0_cond3 i = 1#1)
    (arg2 : Memref sig .tc .vmem S200x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole)
    (a : Vec F S200x10000 .f32) (s2 : Vec F S10000x16 .f32) (b : Vec F S1x16 .f32) (K : PUnit → sProp 𝕄) :
    iprop(owns (c : Thread nD τ) arg3 fullShare a ∗ owns (c : Thread nD τ) sc1M fullShare s2 ∗ owns (c : Thread nD τ) arg7 fullShare b
        ∗ (∃ d, owns (c : Thread nD τ) arg8 fullShare d)
        ∗ (iprop(owns (c : Thread nD τ) arg3 fullShare a ∗ owns (c : Thread nD τ) sc1M fullShare s2 ∗ owns (c : Thread nD τ) arg7 fullShare b
            ∗ owns (c : Thread nD τ) arg8 fullShare (k0_pay3 a s2 b)) -∗ K ⟨⟩))
      ⊢ wp frame (wpE (defs₀ (F := F)) Variants.none c none) E (cc0__gcn_body i arg2 harg2 arg3 harg3 arg4 harg4 arg5 harg5 arg6 harg6 arg7 harg7 arg8 harg8 sc0M (Memref.isWhole_whole _) sc1M (Memref.isWhole_whole _)) K := by
  simp only [cc0__gcn_body_eq_skeleton]; unfold cc0__gcn_body_skel
  unfold owns
  iintro ⟨⟨%g3, %hg3, H3⟩, ⟨%g10, %hg10, H10⟩, ⟨%g7, %hg7, H7⟩, ⟨%d8, %g8, -, H8⟩, Hk⟩
  subst hg3; subst hg10; subst hg7
  -- only the third branch runs: whole loads of the three inputs and of the output buffer (its value unused), then the
  -- whole-buffer store of the payload
  sl_exec (disch := first | exact h1 | exact h2 | exact h3)
  sl_step
  iapply Hk
  -- the three inputs are untouched
  isplitl [H3]
  · iexists g3; isplitr; · ipureintro; rfl
    iexact H3
  isplitl [H10]
  · iexists g10; isplitr; · ipureintro; rfl
    iexact H10
  isplitl [H7]
  · iexists g7; isplitr; · ipureintro; rfl
    iexact H7
  iexists _; isplitr
  swap; · iexact H8
  ipureintro
  -- one store through the whole rectangle covers the buffer, so it reads back as its payload; and each load through
  -- a whole rectangle at offset zero reads the contents themselves
  have hz : (![0, 0] : Fin 2 → ℕ) = fun _ => 0 := by funext a; fin_cases a <;> rfl
  rw [View.read_writes_eq_canon _ _ _ (fun y => ⟨_, List.mem_singleton_self _, View.mem_set_unit_zero hz inb_S200x16_S200x16_0_0 y⟩),
    View.canon_unit_zero hz]
  simp only [View.readAt_eq_ld, View.ld_unit_zero (S := S200x10000) hz, View.ld_unit_zero (S := S10000x16) hz,
    View.ld_unit_zero (S := S1x16) hz]

set_option maxHeartbeats 1000000 in
/-- The second kernel: from the whole array `h` in its input buffer, the body leaves the output buffer at the
    column-wise log-softmax payload of `h`, whatever it held. -/
theorem body_lsm (c : Dev nD) (E : Set ℕ) (arg0 : Memref sig .tc .vmem S10000x16 .f32) (harg0 : arg0.IsWhole)
    (arg1 : Memref sig .tc .vmem S10000x16 .f32) (harg1 : arg1.IsWhole) (h : Vec F S10000x16 .f32) (K : PUnit → sProp 𝕄) :
    iprop(owns (c : Thread nD τ) arg0 fullShare h ∗ (∃ d, owns (c : Thread nD τ) arg1 fullShare d)
        ∗ (iprop(owns (c : Thread nD τ) arg0 fullShare h ∗ owns (c : Thread nD τ) arg1 fullShare (k1_pay1 h)) -∗ K ⟨⟩))
      ⊢ wp frame (wpE (defs₀ (F := F)) Variants.none c none) E (cc1__logsoftmax_body arg0 harg0 arg1 harg1) K := by
  simp only [cc1__logsoftmax_body_eq_skeleton]; unfold cc1__logsoftmax_body_skel
  unfold owns
  iintro ⟨⟨%g0, %hg0, H0⟩, ⟨%d1, %g1, -, H1⟩, Hk⟩
  subst hg0
  -- whole loads of the input and of the output buffer (its value unused), then the whole-buffer store of the payload
  sl_exec
  sl_step
  iapply Hk
  isplitl [H0]
  · iexists g0; isplitr; · ipureintro; rfl
    iexact H0
  iexists _; isplitr
  swap; · iexact H1
  ipureintro
  -- the one store covers the buffer and reads back as its payload, whose argument is the input's contents
  have hz : (![0, 0] : Fin 2 → ℕ) = fun _ => 0 := by funext a; fin_cases a <;> rfl
  rw [View.read_writes_eq_canon _ _ _ (fun y => ⟨_, List.mem_singleton_self _, View.mem_set_unit_zero hz inb_S10000x16_S10000x16_0_0 y⟩),
    View.canon_unit_zero hz]
  simp only [View.readAt_eq_ld, View.ld_unit_zero (S := S10000x16) hz]

end Cert.Kernel.Hand

end
-- ==== Proof.Bits.Oblig0.lean ====
/-
  The first kernel's body obligation: at every grid point, from the invariant and the windows' staging buffers at
  what they then hold, the body runs to the invariant at the next point and the buffers at what it leaves.

  The point's phase decides which of the three body lemmas applies.  In the first phase the stored band extends the
  rows on which the first scratch agrees with `S1`; in the second the first scratch already is `S1` (every row is
  below `200·n` once `n ≥ 50`) and the stored band extends the rows on which the second agrees with `S2`; in the
  third the second scratch is `S2` and the output's buffer is left at the third payload.  Where the body stores
  nothing into the output's buffer the window is idle and the buffer is handed back as found.
-/
import proofs.«137190_g652835029062_cont_sun_m_363_3_alg».proof.Proof.Gen.Kernel.Launch
import proofs.«137190_g652835029062_cont_sun_m_363_3_alg».proof.Proof.Gen.Kernel.Skeleton
import proofs.«137190_g652835029062_cont_sun_m_363_3_alg».proof.Proof.Gen.Kernel.Points
import proofs.«137190_g652835029062_cont_sun_m_363_3_alg».proof.Proof.Bits.Rows
import proofs.«137190_g652835029062_cont_sun_m_363_3_alg».proof.Proof.Bits.Sched
import proofs.«137190_g652835029062_cont_sun_m_363_3_alg».proof.Proof.Bits.Data
import proofs.«137190_g652835029062_cont_sun_m_363_3_alg».proof.Proof.Bits.Bodies0
import proofs.«137190_g652835029062_cont_sun_m_363_3_alg».proof.Proof.Bits.Bodies1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input window's current staging buffer holds its block at every point, fetched there or not: the window is
    never idle nor cut, the body leaves its block in place, and an unfetched point has the block index of the point
    before. -/
theorem before0_0 (c : Dev nD) (t : Fin cfg0.N) (d) : (dat0 V c).before 0 t d = iblk0 V c 0 t := by
  refine ((dat0 V c).before_in_eq_fetched 0 rfl (fun _ => rfl) (fun _ _ _ => rfl) (fun t => ?_) t d).trans ?_
  · rw [after0_0]; unfold Dat.blockOf iblk0; rw [A_eq0]
  · unfold Dat.fetched Dat.blockOf iblk0; rw [A_eq0]; rfl
theorem before0_1 (c : Dev nD) (t : Fin cfg0.N) (d) : (dat0 V c).before 1 t d = iblk0 V c 1 t := by
  refine ((dat0 V c).before_in_eq_fetched 1 rfl (fun _ => rfl) (fun _ _ _ => rfl) (fun t => ?_) t d).trans ?_
  · rw [after0_1]; unfold Dat.blockOf iblk0; rw [A_eq0]
  · unfold Dat.fetched Dat.blockOf iblk0; rw [A_eq0]; rfl
theorem before0_2 (c : Dev nD) (t : Fin cfg0.N) (d) : (dat0 V c).before 2 t d = iblk0 V c 2 t := by
  refine ((dat0 V c).before_in_eq_fetched 2 rfl (fun _ => rfl) (fun _ _ _ => rfl) (fun t => ?_) t d).trans ?_
  · rw [after0_2]; unfold Dat.blockOf iblk0; rw [A_eq0]
  · unfold Dat.fetched Dat.blockOf iblk0; rw [A_eq0]; rfl
theorem before0_3 (c : Dev nD) (t : Fin cfg0.N) (d) : (dat0 V c).before 3 t d = iblk0 V c 3 t := by
  refine ((dat0 V c).before_in_eq_fetched 3 rfl (fun _ => rfl) (fun _ _ _ => rfl) (fun t => ?_) t d).trans ?_
  · rw [after0_3]; unfold Dat.blockOf iblk0; rw [A_eq0]
  · unfold Dat.fetched Dat.blockOf iblk0; rw [A_eq0]; rfl
theorem before0_4 (c : Dev nD) (t : Fin cfg0.N) (d) : (dat0 V c).before 4 t d = iblk0 V c 4 t := by
  refine ((dat0 V c).before_in_eq_fetched 4 rfl (fun _ => rfl) (fun _ _ _ => rfl) (fun t => ?_) t d).trans ?_
  · rw [after0_4]; unfold Dat.blockOf iblk0; rw [A_eq0]
  · unfold Dat.fetched Dat.blockOf iblk0; rw [A_eq0]; rfl
theorem before0_5 (c : Dev nD) (t : Fin cfg0.N) (d) : (dat0 V c).before 5 t d = iblk0 V c 5 t := by
  refine ((dat0 V c).before_in_eq_fetched 5 rfl (fun _ => rfl) (fun _ _ _ => rfl) (fun t => ?_) t d).trans ?_
  · rw [after0_5]; unfold Dat.blockOf iblk0; rw [A_eq0]
  · unfold Dat.fetched Dat.blockOf iblk0; rw [A_eq0]; rfl

/-! ## The scratch specifications band by band -/

/-- Windows 2–5 stage their whole array at every point: the block index is constant, so the block read is that of
    the first point. -/
theorem fetched0_2 (c : Dev nD) (t : Fin cfg0.N) (d) : (dat0 V c).fetched 2 t d = iblk0 V c 2 t := by
  unfold Dat.fetched Dat.blockOf iblk0; rw [A_eq0]; rfl
theorem fetched0_3 (c : Dev nD) (t : Fin cfg0.N) (d) : (dat0 V c).fetched 3 t d = iblk0 V c 3 t := by
  unfold Dat.fetched Dat.blockOf iblk0; rw [A_eq0]; rfl
theorem fetched0_4 (c : Dev nD) (t : Fin cfg0.N) (d) : (dat0 V c).fetched 4 t d = iblk0 V c 4 t := by
  unfold Dat.fetched Dat.blockOf iblk0; rw [A_eq0]; rfl

theorem w1v_const (c : Dev nD) (t : Fin cfg0.N) : w1v V c t = w1v V c t0 :=
  ((fetched0_2 V c t (w1v V c t0)).symm.trans ((dat0 V c).fetched_congr 2 rfl rfl _)).trans (fetched0_2 V c t0 _)
theorem b1v_const (c : Dev nD) (t : Fin cfg0.N) : b1v V c t = b1v V c t0 :=
  ((fetched0_3 V c t (b1v V c t0)).symm.trans ((dat0 V c).fetched_congr 3 rfl rfl _)).trans (fetched0_3 V c t0 _)
theorem w2v_const (c : Dev nD) (t : Fin cfg0.N) : w2v V c t = w2v V c t0 :=
  ((fetched0_4 V c t (w2v V c t0)).symm.trans ((dat0 V c).fetched_congr 4 rfl rfl _)).trans (fetched0_4 V c t0 _)

/-- `S1` at row `200·k + r`: row `r` of the first payload of the features' block at point `k`. -/
theorem S1_band (c : Dev nD) (k : ℕ) (hk : k < 150) (r : Fin 200) (q : Fin 16) (a : Fin 10000) (ha : a.val = 200 * k + r.val) :
    S1 V c (ix2 a q) = k0_pay1 (xblk V c (pt k hk)) (w1v V c t0) (ix2 r q) := by
  have e1 : a.val / 200 = k := by omega
  have e2 : a.val % 200 = r.val := by omega
  have hp : ∀ h, pt (a.val / 200) h = pt k hk := fun h => Fin.ext e1
  have hr : ∀ h, (⟨a.val % 200, h⟩ : Fin 200) = r := fun h => Fin.ext e2
  show k0_pay1 (xblk V c (pt (a.val / 200) _)) (w1v V c t0) (ix2 (⟨a.val % 200, _⟩ : Fin 200) (⟨q.val, q.isLt⟩ : Fin 16)) = _
  rw [hp, hr]

/-- `S2` at row `200·k + r`: row `r` of the second payload of the adjacency's block at point `50 + k`. -/
theorem S2_band (c : Dev nD) (k : ℕ) (hk : 50 + k < 150) (r : Fin 200) (q : Fin 16) (a : Fin 10000) (ha : a.val = 200 * k + r.val) :
    S2 V c (ix2 a q) = k0_pay2 (ablk V c (pt (50 + k) hk)) (S1 V c) (b1v V c t0) (w2v V c t0) (ix2 r q) := by
  have e1 : a.val / 200 = k := by omega
  have e2 : a.val % 200 = r.val := by omega
  have hp : ∀ h, pt (50 + a.val / 200) h = pt (50 + k) hk := fun h => Fin.ext (by show 50 + a.val / 200 = 50 + k; omega)
  have hr : ∀ h, (⟨a.val % 200, h⟩ : Fin 200) = r := fun h => Fin.ext e2
  show k0_pay2 (ablk V c (pt (50 + a.val / 200) _)) (S1 V c) (b1v V c t0) (w2v V c t0) (ix2 (⟨a.val % 200, _⟩ : Fin 200) (⟨q.val, q.isLt⟩ : Fin 16)) = _
  rw [hp, hr]

/-! ## The invariants from point to point -/

/-- Nothing is claimed of the second scratch up to point 50. -/
theorem Inv2_vac (c : Dev nD) (n : ℕ) (hn : n ≤ 50) (s : Vec F S10000x16 .f32) : Inv2 V c n s := fun y hy => by
  exfalso; omega

/-- From point 50 on the first scratch is `S1`, -/
theorem Inv1_full (c : Dev nD) (n : ℕ) (hn : 50 ≤ n) (s : Vec F S10000x16 .f32) (h : Inv1 V c n s) : s = S1 V c :=
  funext fun y => h y (by have : (y 0).val < 10000 := (y 0).isLt; omega)
/-- and from point 100 on the second is `S2`. -/
theorem Inv2_full (c : Dev nD) (n : ℕ) (hn : 100 ≤ n) (s : Vec F S10000x16 .f32) (h : Inv2 V c n s) : s = S2 V c :=
  funext fun y => h y (by have : (y 0).val < 10000 := (y 0).isLt; omega)

theorem Inv1_of_eq (c : Dev nD) (n : ℕ) (s : Vec F S10000x16 .f32) (h : s = S1 V c) : Inv1 V c n s := fun y _ => by rw [h]
theorem Inv2_of_eq (c : Dev nD) (n : ℕ) (s : Vec F S10000x16 .f32) (h : s = S2 V c) : Inv2 V c n s := fun y _ => by rw [h]

/-- A point of the first phase stores band `t` of `S1`: the rows below `200·(t+1)` then agree with `S1`. -/
theorem Inv1_step (c : Dev nD) (t : Fin cfg0.N) (ht : t.val < 50) (s s' : Vec F S10000x16 .f32)
    (hinv : Inv1 V c t.val s) (hrs : RowsSet (200 * (t.val % 50)) s s' (k0_pay1 (xblk V c t) (w1v V c t))) :
    Inv1 V c (t.val + 1) s' := by
  intro y hy
  have hy0 : (y 0).val < 10000 := (y 0).isLt
  have hmod : t.val % 50 = t.val := Nat.mod_eq_of_lt ht
  rw [hmod] at hrs
  by_cases hb : 200 * t.val ≤ (y 0).val
  · -- a row of the band just stored
    obtain ⟨a, q, rfl⟩ : ∃ (a : Fin 10000) (q : Fin 16), y = ix2 a q := ⟨y 0, y 1, eq_ix2 y⟩
    have ha : 200 * t.val ≤ a.val := hb
    have ha' : a.val < 200 * (t.val + 1) := hy
    obtain ⟨r, hr⟩ : ∃ r : Fin 200, a.val = 200 * t.val + r.val :=
      ⟨⟨a.val - 200 * t.val, by omega⟩, by show a.val = 200 * t.val + (a.val - 200 * t.val); omega⟩
    have h1 := hrs.1 r q (by omega)
    have ea : ∀ h, (⟨200 * t.val + r.val, h⟩ : Fin 10000) = a := fun h => Fin.ext hr.symm
    rw [ea] at h1
    rw [h1, S1_band V c t.val (by omega) r q a hr, w1v_const V c t]
    rfl
  · -- a row stored earlier
    rw [hrs.2 y (by omega)]; exact hinv y (by omega)

/-- A point of the second phase stores band `t − 50` of `S2`, the first scratch being `S1` by then. -/
theorem Inv2_step (c : Dev nD) (t : Fin cfg0.N) (h50 : 50 ≤ t.val) (h100 : t.val < 100) (s1 s s' : Vec F S10000x16 .f32)
    (hs1 : s1 = S1 V c) (hinv : Inv2 V c t.val s)
    (hrs : RowsSet (200 * (t.val % 50)) s s' (k0_pay2 (ablk V c t) s1 (b1v V c t) (w2v V c t))) :
    Inv2 V c (t.val + 1) s' := by
  subst hs1
  intro y hy
  have hy0 : (y 0).val < 10000 := (y 0).isLt
  have hmod : t.val % 50 = t.val - 50 := by omega
  rw [hmod] at hrs
  by_cases hb : 200 * (t.val - 50) ≤ (y 0).val
  · obtain ⟨a, q, rfl⟩ : ∃ (a : Fin 10000) (q : Fin 16), y = ix2 a q := ⟨y 0, y 1, eq_ix2 y⟩
    have ha : 200 * (t.val - 50) ≤ a.val := hb
    have ha' : a.val + 10000 < 200 * (t.val + 1) := hy
    obtain ⟨r, hr⟩ : ∃ r : Fin 200, a.val = 200 * (t.val - 50) + r.val :=
      ⟨⟨a.val - 200 * (t.val - 50), by omega⟩, by show a.val = 200 * (t.val - 50) + (a.val - 200 * (t.val - 50)); omega⟩
    have h1 := hrs.1 r q (by omega)
    have ea : ∀ h, (⟨200 * (t.val - 50) + r.val, h⟩ : Fin 10000) = a := fun h => Fin.ext hr.symm
    rw [ea] at h1
    have hpt : pt (50 + (t.val - 50)) (by omega) = t := Fin.ext (by show 50 + (t.val - 50) = t.val; omega)
    rw [h1, S2_band V c (t.val - 50) (by omega) r q a hr, hpt, b1v_const V c t, w2v_const V c t]
  · rw [hrs.2 y (by omega)]; exact hinv y (by omega)

/-! ## The body obligation, window by window -/

/-- What the body is handed at point `t`: the invariant, what the core owes, and the seven current staging buffers. -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it hands back. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

/-- At a point live for window `w` the body leaves its buffer at `after w t`. -/
theorem leaves_live (c : Dev nD) (w : Fin cfg0.W) (t : Fin cfg0.N) (hlive : cfg0.idle w (cfg0.grid.coords t) = false) :
    (dat0 V c).leavesExact w t
      = owns (c : Thread nD τ) ((cfg0.win w).stage (cfg0.slots t w)) fullShare ((dat0 V c).after w t) := by
  unfold Dat.leavesExact; rw [hlive]

/-- The output window is not written back before the third phase, -/
theorem noflush6 (t : Fin cfg0.N) (h : t.val < 100) : (cfg0.win 6).flush t = false := by
  cases hfl : (cfg0.win 6).flush t with
  | false => rfl
  | true => have := (flush6_iff t).mp hfl; omega
/-- and live in it. -/
theorem live6 (t : Fin cfg0.N) (h : 100 ≤ t.val) : cfg0.idle 6 (cfg0.grid.coords t) = false := by
  cases hi : cfg0.idle 6 (cfg0.grid.coords t) with
  | false => rfl
  | true => have := (idle6_iff t).mp hi; omega

/-- A point of the first phase: the body reads the features' block and `W1` and stores one band into the first scratch;
    the output's buffer is handed back as found. -/
theorem sound_phase1 (c : Dev nD) (t : Fin cfg0.N) (h : t.val < 50) :
    bodyPre V c t ⊢ wp frame (wpE (defs₀ (F := F)) Variants.none c none) Set.univ (bodyAt0 t) (fun _ => bodyPost V c t) := by
  have h1 : k0_cond1 (grid0.coords t) = 1#1 := (cond1_iff t).mpr h
  have h2 : ¬ k0_cond2 (grid0.coords t) = 1#1 := fun e => by have := (cond2_iff t).mp e; omega
  have h3 : ¬ k0_cond3 (grid0.coords t) = 1#1 := fun e => by have := (cond3_iff t).mp e; omega
  unfold bodyPre bodyPost bodyAt0
  rewrite [Dat.leavesExact_idle (dat0 V c) 6 t ((idle6_iff t).mpr (by omega)) (noflush6 t (by omega)),
    leaves_live V c 0 t rfl, leaves_live V c 1 t rfl, leaves_live V c 2 t rfl, leaves_live V c 3 t rfl,
    leaves_live V c 4 t rfl, leaves_live V c 5 t rfl, Phi_eq0, Phi_eq0,
    show (dat0 V c).owesAt () t.succ = (dat0 V c).owesAt () t.castSucc from rfl]
  simp only [before0_0, before0_1, before0_2, before0_3, before0_4, before0_5, after0_0, after0_1, after0_2, after0_3,
    after0_4, after0_5, Fin.coe_castSucc, Fin.val_succ]
  unfold Phi0
  iintro ⟨⟨%s1, %s2, %hinv, Hs1, Hs2, Hr1, Hr2, Hg⟩, Ho, ⟨%d0, H0⟩, ⟨%d1, H1⟩, ⟨%d2, H2⟩, ⟨%d3, H3⟩, ⟨%d4, H4⟩, ⟨%d5, H5⟩, H6⟩
  iapply (body_case0 c Set.univ (grid0.coords t) h1 h2 h3 (200 * (t.val % 50)) (off1_eq t) _ _ _ _ _ _ _ _ _ _ _ _ _ _ (xblk V c t) (w1v V c t) s1 _)
  isplitl [H0]; · iexact H0
  isplitl [H2]; · iexact H2
  isplitl [Hs1]; · iexact Hs1
  iintro ⟨H0, H2, ⟨%s1', %hrs, Hs1⟩⟩
  isplitl [Hs1 Hs2 Hr1 Hr2 Hg]
  · iexists s1'; iexists s2
    isplitr
    · ipureintro; exact ⟨Inv1_step V c t h s1 s1' hinv.1 hrs, Inv2_vac V c _ (by omega) s2⟩
    isplitl [Hs1]; · iexact Hs1
    isplitl [Hs2]; · iexact Hs2
    isplitl [Hr1]; · iexact Hr1
    isplitl [Hr2]; · iexact Hr2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- A point of the second phase: the first scratch is `S1` by now; the body reads the adjacency's block, the first
    scratch, `b1` and `W2` and stores one band into the second scratch; the output's buffer is handed back as found. -/
theorem sound_phase2 (c : Dev nD) (t : Fin cfg0.N) (h50 : 50 ≤ t.val) (h100 : t.val < 100) :
    bodyPre V c t ⊢ wp frame (wpE (defs₀ (F := F)) Variants.none c none) Set.univ (bodyAt0 t) (fun _ => bodyPost V c t) := by
  have h1 : ¬ k0_cond1 (grid0.coords t) = 1#1 := fun e => by have := (cond1_iff t).mp e; omega
  have h2 : k0_cond2 (grid0.coords t) = 1#1 := (cond2_iff t).mpr ⟨h50, h100⟩
  have h3 : ¬ k0_cond3 (grid0.coords t) = 1#1 := fun e => by have := (cond3_iff t).mp e; omega
  unfold bodyPre bodyPost bodyAt0
  rewrite [Dat.leavesExact_idle (dat0 V c) 6 t ((idle6_iff t).mpr h100) (noflush6 t h100),
    leaves_live V c 0 t rfl, leaves_live V c 1 t rfl, leaves_live V c 2 t rfl, leaves_live V c 3 t rfl,
    leaves_live V c 4 t rfl, leaves_live V c 5 t rfl, Phi_eq0, Phi_eq0,
    show (dat0 V c).owesAt () t.succ = (dat0 V c).owesAt () t.castSucc from rfl]
  simp only [before0_0, before0_1, before0_2, before0_3, before0_4, before0_5, after0_0, after0_1, after0_2, after0_3,
    after0_4, after0_5, Fin.coe_castSucc, Fin.val_succ]
  unfold Phi0
  iintro ⟨⟨%s1, %s2, %hinv, Hs1, Hs2, Hr1, Hr2, Hg⟩, Ho, ⟨%d0, H0⟩, ⟨%d1, H1⟩, ⟨%d2, H2⟩, ⟨%d3, H3⟩, ⟨%d4, H4⟩, ⟨%d5, H5⟩, H6⟩
  iapply (body_case1 c Set.univ (grid0.coords t) h1 h2 h3 (200 * (t.val % 50)) (off2_eq t) _ _ _ _ _ _ _ _ _ _ _ _ _ _ (ablk V c t) s1 (b1v V c t) (w2v V c t) s2 _)
  isplitl [H1]; · iexact H1
  isplitl [Hs1]; · iexact Hs1
  isplitl [H3]; · iexact H3
  isplitl [H4]; · iexact H4
  isplitl [Hs2]; · iexact Hs2
  iintro ⟨H1, Hs1, H3, H4, ⟨%s2', %hrs, Hs2⟩⟩
  isplitl [Hs1 Hs2 Hr1 Hr2 Hg]
  · iexists s1; iexists s2'
    isplitr
    · ipureintro
      have hs1 : s1 = S1 V c := Inv1_full V c t.val h50 s1 hinv.1
      exact ⟨Inv1_of_eq V c _ s1 hs1, Inv2_step V c t h50 h100 s1 s2 s2' hs1 hinv.2 hrs⟩
    isplitl [Hs1]; · iexact Hs1
    isplitl [Hs2]; · iexact Hs2
    isplitl [Hr1]; · iexact Hr1
    isplitl [Hr2]; · iexact Hr2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- A point of the third phase: the second scratch is `S2` by now; the body reads the adjacency's block, the second
    scratch and `b2` and leaves the output's buffer at the third payload. -/
theorem sound_phase3 (c : Dev nD) (t : Fin cfg0.N) (h100 : 100 ≤ t.val) :
    bodyPre V c t ⊢ wp frame (wpE (defs₀ (F := F)) Variants.none c none) Set.univ (bodyAt0 t) (fun _ => bodyPost V c t) := by
  have h1 : ¬ k0_cond1 (grid0.coords t) = 1#1 := fun e => by have := (cond1_iff t).mp e; omega
  have h2 : ¬ k0_cond2 (grid0.coords t) = 1#1 := fun e => by have := (cond2_iff t).mp e; omega
  have h3 : k0_cond3 (grid0.coords t) = 1#1 := (cond3_iff t).mpr h100
  unfold bodyPre bodyPost bodyAt0
  rewrite [leaves_live V c 6 t (live6 t h100),
    leaves_live V c 0 t rfl, leaves_live V c 1 t rfl, leaves_live V c 2 t rfl, leaves_live V c 3 t rfl,
    leaves_live V c 4 t rfl, leaves_live V c 5 t rfl, Phi_eq0, Phi_eq0,
    show (dat0 V c).owesAt () t.succ = (dat0 V c).owesAt () t.castSucc from rfl]
  simp only [before0_0, before0_1, before0_2, before0_3, before0_4, before0_5, after0_0, after0_1, after0_2, after0_3,
    after0_4, after0_5, after0_6, Fin.coe_castSucc, Fin.val_succ]
  unfold Phi0 H2blk
  iintro ⟨⟨%s1, %s2, %hinv, Hs1, Hs2, Hr1, Hr2, Hg⟩, Ho, ⟨%d0, H0⟩, ⟨%d1, H1⟩, ⟨%d2, H2⟩, ⟨%d3, H3⟩, ⟨%d4, H4⟩, ⟨%d5, H5⟩, ⟨%d6, H6⟩⟩
  have hs2 : s2 = S2 V c := Inv2_full V c t.val h100 s2 hinv.2
  subst hs2
  iapply (body_case2 c Set.univ (grid0.coords t) h1 h2 h3 _ _ _ _ _ _ _ _ _ _ _ _ _ _ (ablk V c t) (S2 V c) (b2v V c t) _)
  isplitl [H1]; · iexact H1
  isplitl [Hs2]; · iexact Hs2
  isplitl [H5]; · iexact H5
  isplitl [H6]; · iexists _; iexact H6
  iintro ⟨H1, Hs2, H5, H6⟩
  isplitl [Hs1 Hs2 Hr1 Hr2 Hg]
  · iexists s1; iexists (S2 V c)
    isplitr
    · ipureintro
      exact ⟨Inv1_of_eq V c _ s1 (Inv1_full V c t.val (by omega) s1 hinv.1), Inv2_of_eq V c _ _ rfl⟩
    isplitl [Hs1]; · iexact Hs1
    isplitl [Hs2]; · iexact Hs2
    isplitl [Hr1]; · iexact Hr1
    isplitl [Hr2]; · iexact Hr2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point, by its phase. -/
theorem sound_body (c : Dev nD) (t : Fin cfg0.N) :
    bodyPre V c t ⊢ wp frame (wpE (defs₀ (F := F)) Variants.none c none) Set.univ (bodyAt0 t) (fun _ => bodyPost V c t) := by
  by_cases h50 : t.val < 50
  · exact sound_phase1 V c t h50
  · by_cases h100 : t.val < 100
    · exact sound_phase2 V c t (by omega) h100
    · exact sound_phase3 V c t (by omega)

/-- The library's body obligation for the first kernel, at every point. -/
theorem body_obligation0 (c : Dev nD) : BodyObligation (dat0 (F := F) V c) (defs₀ (F := F)) Variants.none () Set.univ := fun t => by
  rw [bigSep_W0, bigSep_W0]
  exact sound_body V c t

/-- What the region hands the kernel — the generator register and the scoped buffers no window stages — is the
    invariant before the first point: nothing is claimed of the scratches yet. -/
theorem hin0 (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rewrite [Phi_eq0, scopedRest0_eq]
  unfold Phi0
  simp only [owns_whole]
  iintro ⟨Hg, ⟨%f0, H0⟩, ⟨%f1, H1⟩, H2, H3⟩
  iexists f0; iexists f1
  isplitr
  · ipureintro
    have hz : ((0 : Fin (cfg0.N + 1)) : ℕ) = 0 := rfl
    exact ⟨fun y hy => by exfalso; rw [hz] at hy; omega, fun y hy => by exfalso; rw [hz] at hy; omega⟩
  isplitl [H0]; · iexact H0
  isplitl [H1]; · iexact H1
  isplitl [H2]; · iexact H2
  isplitl [H3]; · iexact H3
  iexact Hg

/-- After the last point the invariant gives them back: what the scratches hold is forgotten. -/
theorem hout0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rewrite [Phi_eq0, scopedRest0_eq]
  unfold Phi0
  simp only [owns_whole]
  iintro ⟨%s1, %s2, -, H0, H1, H2, H3, Hg⟩
  isplitl [Hg]; · iexact Hg
  isplitl [H0]; · iexists s1; iexact H0
  isplitl [H1]; · iexists s2; iexact H1
  isplitl [H2]; · iexact H2
  iexact H3

end Cert.Kernel.Hand

end
-- ==== Proof.Bits.Oblig1.lean ====
/-
  The second kernel's body obligation.  It has one point; its input window's buffer holds the whole array and its
  output window's buffer ends at the log-softmax payload of it.  The invariant and what the core owes pass through.
-/
import proofs.«137190_g652835029062_cont_sun_m_363_3_alg».proof.Proof.Gen.Kernel.Launch
import proofs.«137190_g652835029062_cont_sun_m_363_3_alg».proof.Proof.Gen.Kernel.Skeleton
import proofs.«137190_g652835029062_cont_sun_m_363_3_alg».proof.Proof.Gen.Kernel.Points
import proofs.«137190_g652835029062_cont_sun_m_363_3_alg».proof.Proof.Bits.Rows
import proofs.«137190_g652835029062_cont_sun_m_363_3_alg».proof.Proof.Bits.Sched
import proofs.«137190_g652835029062_cont_sun_m_363_3_alg».proof.Proof.Bits.Data
import proofs.«137190_g652835029062_cont_sun_m_363_3_alg».proof.Proof.Bits.Bodies1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input window's buffer holds the whole array when the body runs. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The body at the kernel's point, over the two windows' buffers one by one. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t))) := by
  unfold bodyAt1
  simp only [before1_0]
  rewrite [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (body_lsm c Set.univ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation for the second kernel. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Launch.lean ====
/-
  The run of @main: a host stretch (two reshapes of the biases), the first kernel's region, the second kernel's
  region.  Between items the core's unscoped buffers are held whole at named contents: the launch memory, then
  what the reshapes write, then the first region's arrays at what its write-backs leave, then the second's.  Every
  weakly fair execution terminates with every unscoped buffer at the last of these; the arguments are never
  written, and the result buffer holds what the second region's one write-back leaves.
-/
import proofs.«137190_g652835029062_cont_sun_m_363_3_alg».proof.Proof.Gen.Kernel.Launch
import proofs.«137190_g652835029062_cont_sun_m_363_3_alg».proof.Proof.Gen.Kernel.Skeleton
import proofs.«137190_g652835029062_cont_sun_m_363_3_alg».proof.Proof.Gen.Kernel.Points
import proofs.«137190_g652835029062_cont_sun_m_363_3_alg».proof.Proof.Gen.Kernel.Regions
import proofs.«137190_g652835029062_cont_sun_m_363_3_alg».proof.Proof.Bits.Rows
import proofs.«137190_g652835029062_cont_sun_m_363_3_alg».proof.Proof.Bits.Sched
import proofs.«137190_g652835029062_cont_sun_m_363_3_alg».proof.Proof.Bits.Data
import proofs.«137190_g652835029062_cont_sun_m_363_3_alg».proof.Proof.Bits.Oblig0
import proofs.«137190_g652835029062_cont_sun_m_363_3_alg».proof.Proof.Bits.Oblig1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the two reshapes (the first region's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second region's entry). -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- The reshapes write only the two reshaped biases. -/
theorem W1_of (c : Dev nD) (r : Ref sig .tc) (h : r ∉ hostOps0_W) : W1 m c r = W0 m c r :=
  StableHlo.after_of_writes_sub hostOps0 _ hostOps0_writes h

/-! ### The arguments end as launched -/

theorem W3_arg_in (c : Dev nD) (w : Fin cfg0.W) (hin : (cfg0.win w).isOut = false)
    (h1 : ∀ w', Pipeline.arrRef spec1 w' ≠ Pipeline.arrRef spec0 w) (h0 : Pipeline.arrRef spec0 w ∉ hostOps0_W) :
    W3 m c (Proc.devRef .tc (Pipeline.arrRef spec0 w)) = m ((c : Thread nD τ).loc (Pipeline.arrRef spec0 w)) :=
  calc W3 m c (Proc.devRef .tc (Pipeline.arrRef spec0 w))
    _ = W2 m c (Proc.devRef .tc (Pipeline.arrRef spec0 w)) := W3_of_ne m c _ h1
    _ = W1 m c (Proc.devRef .tc (Pipeline.arrRef spec0 w)) := (W2_arr m c w).trans (((dat0 (E1 m) c).arrAt_in w hin _).trans (A_eq0 (E1 m) c w))
    _ = W0 m c (Proc.devRef .tc (Pipeline.arrRef spec0 w)) := W1_of m c _ h0
    _ = m ((c : Thread nD τ).loc (Pipeline.arrRef spec0 w)) := rfl

theorem W3_arg_out (c : Dev nD) (b : Ref sig .tc) (h1 : ∀ w', Pipeline.arrRef spec1 w' ≠ b) (h0 : ∀ w', Pipeline.arrRef spec0 w' ≠ b)
    (hh : b ∉ hostOps0_W) : W3 m c (Proc.devRef .tc b) = m ((c : Thread nD τ).loc b) :=
  calc W3 m c (Proc.devRef .tc b)
    _ = W2 m c (Proc.devRef .tc b) := W3_of_ne m c _ h1
    _ = W1 m c (Proc.devRef .tc b) := W2_of_ne m c _ h0
    _ = W0 m c (Proc.devRef .tc b) := W1_of m c _ hh
    _ = m ((c : Thread nD τ).loc b) := rfl

theorem W3_main_arg0 (c : Dev nD) : W3 m c (Proc.devRef .tc main_arg0) = m ((c : Thread nD τ).loc main_arg0) :=
  W3_arg_in m c 0 rfl (by decide) (by decide)
theorem W3_main_arg1 (c : Dev nD) : W3 m c (Proc.devRef .tc main_arg1) = m ((c : Thread nD τ).loc main_arg1) :=
  W3_arg_in m c 1 rfl (by decide) (by decide)
theorem W3_main_arg2 (c : Dev nD) : W3 m c (Proc.devRef .tc main_arg2) = m ((c : Thread nD τ).loc main_arg2) :=
  W3_arg_in m c 2 rfl (by decide) (by decide)
theorem W3_main_arg3 (c : Dev nD) : W3 m c (Proc.devRef .tc main_arg3) = m ((c : Thread nD τ).loc main_arg3) :=
  W3_arg_out m c main_arg3 (by decide) (by decide) (by decide)
theorem W3_main_arg4 (c : Dev nD) : W3 m c (Proc.devRef .tc main_arg4) = m ((c : Thread nD τ).loc main_arg4) :=
  W3_arg_in m c 4 rfl (by decide) (by decide)
theorem W3_main_arg5 (c : Dev nD) : W3 m c (Proc.devRef .tc main_arg5) = m ((c : Thread nD τ).loc main_arg5) :=
  W3_arg_out m c main_arg5 (by decide) (by decide) (by decide)

/-- The result buffer ends at what the second region's write-back leaves. -/
theorem W3_main_v3 (c : Dev nD) : W3 m c (Proc.devRef .tc main_v3) = (dat1 (E2 m) c).arrAt 1 cfg1.N := W3_arr m c 1

/-- The second region's input array is what the first region's write-backs leave. -/
theorem E2_main_v2 (c : Dev nD) : E2 m c main_v2 = (dat0 (E1 m) c).arrAt 6 cfg0.N := W2_arr m c 6

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything. -/
abbrev L0 : GSem nD τ sig → Finset Unit := fun _ => ∅
abbrev lv0 : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first kernel's region: entered from every unscoped buffer at `W1`, left at `W2`. -/
def reg0 : Pipeline.RegionSeg (pcfgs (F := F)) adm (pdats m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L0 lv0 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    iintro ⟨Hp, -, Hr⟩
    iapply (hin0 (E1 m) c)
    isplitl [Hp]; · iexact Hp
    iexact Hr
  hout c := by
    rw [Pipeline.ownSems0_none, show (pdats m 0 c).Φ (Fin.last _) = (dat0 (E1 m) c).Φ (Fin.last cfg0.N) from rfl]
    iintro H
    ihave H' := (hout0 (E1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from every unscoped buffer at `W2`, left at `W3`. -/
def reg1 : Pipeline.RegionSeg (pcfgs (F := F)) adm (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L0 lv0 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three items in order. -/
abbrev segs : List (Pipeline.Seg (pcfgs (F := F)) adm (pdats m) () defs₀ 𝒱₀ L0 lv0) :=
  [ .host (hseg hostOps0 hostOps0_sub hostOps0_fresh (W0 m)),
    .region (reg0 m),
    .region (reg1 m) ]
/-- @main is the run of the segments. -/
theorem main_run (c : Dev nD) : main (F := F) c = Pipeline.Seg.run (segs m) := (main_chain c).trans (by chain_rfl)

set_option backward.isDefEq.respectTransparency.types false in
/-- Every weakly fair execution of @main from memory `m` with zero counters terminates, and every final memory has
    every unscoped buffer of every core at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L0 lv0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The run with the result and the arguments named: the result buffer at what the second region's write-back
    leaves, each argument as launched. -/
theorem run_named : θ_run defs (onTc (τ := τ) (main (F := F))) ⟨m, fun _ => 0, ρ⟩ (fun r => ∀ c : Dev nD,
      r.2.mem ((c.tc : Thread nD τ).loc main_v3) = (dat1 (E2 m) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W3_main_v3 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_main m ρ)

/-- The frame: every weakly fair execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Hand

end
-- ==== Proof.Rows.lean ====
/-
  The two scratch arrays of the first kernel, each 10000 rows of 16, are filled 200 rows at a time, one band per
  grid point.  `RowsSet o s s' p` says `s'` is `s` with the 200 rows from row `o` on replaced by the block `p`.
-/
import proofs.«137190_g652835029062_cont_sun_m_363_3_alg».proof.Proof.Gen.KernelIdeal.Launch
import proofs.«137190_g652835029062_cont_sun_m_363_3_alg».proof.Proof.Gen.KernelIdeal.Skeleton
import proofs.«137190_g652835029062_cont_sun_m_363_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first scratch (it collects `X·W1`), as a whole memref. -/
abbrev sc0M : Memref sig .tc .vmem S10000x16 .f32 := Memref.whole cc0_scratch0
/-- The second scratch (it collects `relu(A·s1 + b1)·W2`), as a whole memref. -/
abbrev sc1M : Memref sig .tc .vmem S10000x16 .f32 := Memref.whole cc0_scratch1

/-- `s'` is `s` with the 200 rows from row `o` on replaced by the block `p`; every other row is kept. -/
def RowsSet (o : ℕ) (s s' : Vec F S10000x16 .f32) (p : Vec F S200x16 .f32) : Prop :=
  (∀ (r : Fin 200) (q : Fin 16) (h : o + r.val < 10000), s' (ix2 (⟨o + r.val, h⟩ : Fin 10000) q) = p (ix2 r q))
  ∧ (∀ y : S10000x16.Idx, ¬(o ≤ (y 0).val ∧ (y 0).val < o + 200) → s' y = s y)

end Cert.KernelIdeal.Hand

end
-- ==== Proof.Sched.lean ====
/-
  The first kernel's schedule over its 3 × 50 grid, in closed form: points 0–49 are the first phase (bands of
  `X·W1`), 50–99 the second, 100–149 the third; the scratch band of point `t` starts at row `200·(t mod 50)`;
  the output window is idle before point 100 and written back from point 100 on; and the block indices of the
  three windows that move.
-/
import proofs.«137190_g652835029062_cont_sun_m_363_3_alg».proof.Proof.Gen.KernelIdeal.Launch
import proofs.«137190_g652835029062_cont_sun_m_363_3_alg».proof.Proof.Gen.KernelIdeal.Skeleton
import proofs.«137190_g652835029062_cont_sun_m_363_3_alg».proof.Proof.Gen.KernelIdeal.Points
import proofs.«137190_g652835029062_cont_sun_m_363_3_alg».proof.Proof.Rows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem cond1_iff : ∀ t : Fin cfg0.N, k0_cond1 (grid0.coords t) = 1#1 ↔ t.val < 50 :=
  (by decide +kernel : ∀ t : Fin grid0.N, k0_cond1 (grid0.coords t) = 1#1 ↔ t.val < 50)
theorem cond2_iff : ∀ t : Fin cfg0.N, k0_cond2 (grid0.coords t) = 1#1 ↔ (50 ≤ t.val ∧ t.val < 100) :=
  (by decide +kernel : ∀ t : Fin grid0.N, k0_cond2 (grid0.coords t) = 1#1 ↔ (50 ≤ t.val ∧ t.val < 100))
theorem cond3_iff : ∀ t : Fin cfg0.N, k0_cond3 (grid0.coords t) = 1#1 ↔ 100 ≤ t.val :=
  (by decide +kernel : ∀ t : Fin grid0.N, k0_cond3 (grid0.coords t) = 1#1 ↔ 100 ≤ t.val)

theorem off1_eq : ∀ t : Fin cfg0.N, k0_off1 (grid0.coords t) = ![200 * (t.val % 50), 0] :=
  (by decide +kernel : ∀ t : Fin grid0.N, k0_off1 (grid0.coords t) = ![200 * (t.val % 50), 0])
theorem off2_eq : ∀ t : Fin cfg0.N, k0_off2 (grid0.coords t) = ![200 * (t.val % 50), 0] :=
  (by decide +kernel : ∀ t : Fin grid0.N, k0_off2 (grid0.coords t) = ![200 * (t.val % 50), 0])

/-- The output window is idle exactly before the third phase. -/
theorem idle6_iff : ∀ t : Fin cfg0.N, cfg0.idle 6 (cfg0.grid.coords t) = true ↔ t.val < 100 :=
  (by decide +kernel : ∀ t : Fin grid0.N, idle0 6 (grid0.coords t) = true ↔ t.val < 100)
/-- It is written back exactly at the points of the third phase. -/
theorem flush6_iff : ∀ t : Fin cfg0.N, (cfg0.win 6).flush t = true ↔ 100 ≤ t.val :=
  (by decide +kernel : ∀ t : Fin grid0.N, win0_6.flush t = true ↔ 100 ≤ t.val)

/-- The features' block index: the point's own in the first phase, block 0 afterwards. -/
theorem idx0_eq : ∀ t : Fin cfg0.N, (cfg0.win 0).index t = ![if t.val < 50 then t.val else 0, 0] :=
  (by decide +kernel : ∀ t : Fin grid0.N, win0_0.index t = ![if t.val < 50 then t.val else 0, 0])
/-- The adjacency's block index: block 0 in the first phase, `t mod 50` afterwards. -/
theorem idx1_eq : ∀ t : Fin cfg0.N, (cfg0.win 1).index t = ![if t.val < 50 then 0 else t.val % 50, 0] :=
  (by decide +kernel : ∀ t : Fin grid0.N, win0_1.index t = ![if t.val < 50 then 0 else t.val % 50, 0])
/-- The output's block index: `t − 100` in the third phase, block 0 before. -/
theorem idx6_eq : ∀ t : Fin cfg0.N, (cfg0.win 6).index t = ![if 100 ≤ t.val then t.val - 100 else 0, 0] :=
  (by decide +kernel : ∀ t : Fin grid0.N, win0_6.index t = ![if 100 ≤ t.val then t.val - 100 else 0, 0])

theorem N0 : cfg0.N = 150 := N_0

end Cert.KernelIdeal.Hand

end
-- ==== Proof.Data.lean ====
/-
  What the two kernels hold between grid points.

  The first kernel's scratches are specified independently of the run: `S1` is, band by band, the product of the
  features' block with `W1`; `S2`, band by band, the second phase's payload of the adjacency's block and `S1`.  The
  invariant before point `n` says that some contents of the two scratches agree with `S1` on the rows the first
  phase has stored so far (all of them from point 50 on) and with `S2` on the rows the second phase has stored so
  far (all of them from point 100 on).  The output's staging buffer after a point of the third phase holds the
  third payload of the adjacency's block and `S2`.  The second kernel keeps nothing between points.
-/
import proofs.«137190_g652835029062_cont_sun_m_363_3_alg».proof.Proof.Gen.KernelIdeal.Launch
import proofs.«137190_g652835029062_cont_sun_m_363_3_alg».proof.Proof.Gen.KernelIdeal.Skeleton
import proofs.«137190_g652835029062_cont_sun_m_363_3_alg».proof.Proof.Gen.KernelIdeal.Points
import proofs.«137190_g652835029062_cont_sun_m_363_3_alg».proof.Proof.Rows
import proofs.«137190_g652835029062_cont_sun_m_363_3_alg».proof.Proof.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## The first kernel -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The six input blocks at a point, at their literal shapes. -/
abbrev xblk (c : Dev nD) (t : Fin cfg0.N) : Vec F S200x128 .f32 := iblk0 V c 0 t
abbrev ablk (c : Dev nD) (t : Fin cfg0.N) : Vec F S200x10000 .f32 := iblk0 V c 1 t
abbrev w1v (c : Dev nD) (t : Fin cfg0.N) : Vec F S128x16 .f32 := iblk0 V c 2 t
abbrev b1v (c : Dev nD) (t : Fin cfg0.N) : Vec F S1x16 .f32 := iblk0 V c 3 t
abbrev w2v (c : Dev nD) (t : Fin cfg0.N) : Vec F S16x16 .f32 := iblk0 V c 4 t
abbrev b2v (c : Dev nD) (t : Fin cfg0.N) : Vec F S1x16 .f32 := iblk0 V c 5 t

/-- Point `k` of the grid, for `k < 150`. -/
def pt (k : ℕ) (hk : k < 150) : Fin cfg0.N := ⟨k, by rw [N0]; exact hk⟩
/-- The first point. -/
def t0 : Fin cfg0.N := pt 0 (by omega)

theorem band_lt (y : S10000x16.Idx) : (y 0).val / 200 < 50 := by
  have : (y 0).val < 10000 := (y 0).isLt
  omega

/-- The first scratch as the first phase fills it: row `ρ` is in band `ρ / 200`, stored at point `ρ / 200`. -/
def S1 (c : Dev nD) : Vec F S10000x16 .f32 := fun y =>
  k0_pay1 (xblk V c (pt ((y 0).val / 200) (by have := band_lt y; omega))) (w1v V c t0)
    (ix2 (⟨(y 0).val % 200, Nat.mod_lt _ (by omega)⟩ : Fin 200) (⟨(y 1).val, (y 1).isLt⟩ : Fin 16))

/-- The second scratch as the second phase fills it: band `ρ / 200` is stored at point `50 + ρ / 200`. -/
def S2 (c : Dev nD) : Vec F S10000x16 .f32 := fun y =>
  k0_pay2 (ablk V c (pt (50 + (y 0).val / 200) (by have := band_lt y; omega))) (S1 V c) (b1v V c t0) (w2v V c t0)
    (ix2 (⟨(y 0).val % 200, Nat.mod_lt _ (by omega)⟩ : Fin 200) (⟨(y 1).val, (y 1).isLt⟩ : Fin 16))

/-- What a point of the third phase leaves in the output's staging buffer. -/
def H2blk (c : Dev nD) (t : Fin cfg0.N) : Vec F S200x16 .f32 := k0_pay3 (ablk V c t) (S2 V c) (b2v V c t)

/-- Before point `n` the first scratch agrees with `S1` on the rows below `200·n`. -/
def Inv1 (c : Dev nD) (n : ℕ) (s : Vec F S10000x16 .f32) : Prop := ∀ y : S10000x16.Idx, (y 0).val < 200 * n → s y = S1 V c y
/-- Before point `n` the second scratch agrees with `S2` on the rows below `200·(n − 50)`. -/
def Inv2 (c : Dev nD) (n : ℕ) (s : Vec F S10000x16 .f32) : Prop := ∀ y : S10000x16.Idx, (y 0).val + 10000 < 200 * n → s y = S2 V c y

/-- The first kernel's invariant before point `n`: the two scratches at some contents that agree with `S1`, `S2` so far,
    the second kernel's staging buffers at anything, the generator register at some state. -/
def Phi0 (c : Dev nD) (n : ℕ) : sProp 𝕄 :=
  iprop(∃ (s1 s2 : Vec F S10000x16 .f32), ⌜Inv1 V c n s1 ∧ Inv2 V c n s2⌝
      ∗ owns (c : Thread nD τ) sc0M fullShare s1 ∗ owns (c : Thread nD τ) sc1M fullShare s2
      ∗ (∃ d, owns (c : Thread nD τ) (Memref.whole cc1_stg0_0) fullShare d)
      ∗ (∃ d, owns (c : Thread nD τ) (Memref.whole cc1_stg1_0) fullShare d)
      ∗ (∃ r, prngReg c r))

/-- The first kernel's proof data: the arrays as the region finds them; each input's buffer after the body at its
    block; the output's at `H2blk` (consulted only at the third phase's points); the invariant `Phi0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => H2blk V c t
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = H2blk V c t := by dsimp only [dat0]
theorem Phi_eq0 (c : Dev nD) (t : Fin (cfg0.N + 1)) : (dat0 V c).Φ t = Phi0 V c t.val := by dsimp only [dat0]

/-! ## The second kernel -/

/-- Window `w`'s block at the second kernel's one point: the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second kernel's proof data: the input's buffer at the whole array, the output's at its log-softmax payload;
    the scoped rest and the generator register ride along untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (iblk1 V c 0 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = k1_pay1 (iblk1 V c 0 t) := by dsimp only [dat1]

end Cert.KernelIdeal.Hand

end
-- ==== Proof.Bodies0.lean ====
/-
  The first kernel's body at a point of its first phase (one band of `X·W1` stored into the first scratch) and of
  its second phase (one band of `relu(A·s1 + b1)·W2` stored into the second scratch, `s1` read whole from the first).
-/
import proofs.«137190_g652835029062_cont_sun_m_363_3_alg».proof.Proof.Gen.KernelIdeal.Launch
import proofs.«137190_g652835029062_cont_sun_m_363_3_alg».proof.Proof.Gen.KernelIdeal.Skeleton
import proofs.«137190_g652835029062_cont_sun_m_363_3_alg».proof.Proof.Gen.KernelIdeal.Points
import proofs.«137190_g652835029062_cont_sun_m_363_3_alg».proof.Proof.Rows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Phase one at grid point `i`: from the features' block `x`, the weights `w1` and the first scratch at `s`, the body
    leaves the scratch at `s` with rows `o … o+199` replaced by the block's product with `w1`. -/
theorem body_case0 (c : Dev nD) (E : Set ℕ) (i : grid0.Coords)
    (h1 : k0_cond1 i = 1#1) (h2 : ¬ k0_cond2 i = 1#1) (h3 : ¬ k0_cond3 i = 1#1) (o : ℕ) (ho : k0_off1 i = ![o, 0])
    (arg2 : Memref sig .tc .vmem S200x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole)
    (x : Vec F S200x128 .f32) (w1 : Vec F S128x16 .f32) (s : Vec F S10000x16 .f32) (K : PUnit → sProp 𝕄) :
    iprop(owns (c : Thread nD τ) arg2 fullShare x ∗ owns (c : Thread nD τ) arg4 fullShare w1 ∗ owns (c : Thread nD τ) sc0M fullShare s
        ∗ (iprop(owns (c : Thread nD τ) arg2 fullShare x ∗ owns (c : Thread nD τ) arg4 fullShare w1
            ∗ (∃ s' : Vec F S10000x16 .f32, ⌜RowsSet o s s' (k0_pay1 x w1)⌝ ∗ owns (c : Thread nD τ) sc0M fullShare s')) -∗ K ⟨⟩))
      ⊢ wp frame (wpE (defs₀ (F := F)) Variants.none c none) E (cc0__gcn_body i arg2 harg2 arg3 harg3 arg4 harg4 arg5 harg5 arg6 harg6 arg7 harg7 arg8 harg8 sc0M (Memref.isWhole_whole _) sc1M (Memref.isWhole_whole _)) K := by
  simp only [cc0__gcn_body_eq_skeleton]; unfold cc0__gcn_body_skel
  unfold owns
  iintro ⟨⟨%g2, %hg2, H2⟩, ⟨%g4, %hg4, H4⟩, ⟨%g9, %hg9, H9⟩, Hk⟩
  subst hg2; subst hg4; subst hg9
  sl_exec (disch := first | exact h1 | exact h2 | exact h3)
  sl_step
  iapply Hk
  -- the features' block and the weights are held as they were
  isplitl [H2]
  · iexists g2; isplitr; · ipureintro; rfl
    iexact H2
  isplitl [H4]
  · iexists g4; isplitr; · ipureintro; rfl
    iexact H4
  -- the scratch is held at its contents with the one band written over them
  iexists _; isplitr
  swap
  · iexists _; isplitr
    swap; · iexact H9
    ipureintro; rfl
  ipureintro
  -- a load of a whole buffer from offset zero reads the buffer's contents
  have hz : (![0, 0] : Fin 2 → ℕ) = fun _ => 0 := by funext a; fin_cases a <;> rfl
  have e2 : View.readAt (Elt F) arg2.view (Rect.unit (s := S200x128) ![0, 0] S200x128.size inb_S200x128_S200x128_0_0).toLoadRect g2
      = arg2.view.read (Elt F) g2 := by
    rw [View.readAt_eq_ld, View.ld_unit_zero (S := S200x128) hz]
  have e4 : View.readAt (Elt F) arg4.view (Rect.unit (s := S128x16) ![0, 0] S128x16.size inb_S128x16_S128x16_0_0).toLoadRect g4
      = arg4.view.read (Elt F) g4 := by
    rw [View.readAt_eq_ld, View.ld_unit_zero (S := S128x16) hz]
  rw [e2, e4]
  -- a row of the band reads the band's payload at that row; any other row reads what was there before
  refine ⟨fun r q h => ?_, fun y hy => ?_⟩
  · exact View.read_writes_cons_rows_of_mem sc0M.view g9 (k0_off1_inb i h1) _ [] (ix2 (⟨o + r.val, h⟩ : Fin 10000) q) (ix2 r q) ho rfl rfl
  · refine (View.read_writes_cons_rows_of_not_mem (W := 200) sc0M.view g9 (k0_off1_inb i h1) _ [] y ho rfl (by omega)).trans ?_
    rfl

set_option maxHeartbeats 1000000 in
/-- Phase two at grid point `i`: from the adjacency's row block `a`, the first scratch at `s1` (read whole), the bias row
    `b`, the weights `w2` and the second scratch at `s2`, the body leaves the second scratch at `s2` with rows
    `o … o+199` replaced by the block's payload. -/
theorem body_case1 (c : Dev nD) (E : Set ℕ) (i : grid0.Coords)
    (h1 : ¬ k0_cond1 i = 1#1) (h2 : k0_cond2 i = 1#1) (h3 : ¬ k0_cond3 i = 1#1) (o : ℕ) (ho : k0_off2 i = ![o, 0])
    (arg2 : Memref sig .tc .vmem S200x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole)
    (a : Vec F S200x10000 .f32) (s1 : Vec F S10000x16 .f32) (b : Vec F S1x16 .f32) (w2 : Vec F S16x16 .f32) (s2 : Vec F S10000x16 .f32)
    (K : PUnit → sProp 𝕄) :
    iprop(owns (c : Thread nD τ) arg3 fullShare a ∗ owns (c : Thread nD τ) sc0M fullShare s1 ∗ owns (c : Thread nD τ) arg5 fullShare b
        ∗ owns (c : Thread nD τ) arg6 fullShare w2 ∗ owns (c : Thread nD τ) sc1M fullShare s2
        ∗ (iprop(owns (c : Thread nD τ) arg3 fullShare a ∗ owns (c : Thread nD τ) sc0M fullShare s1 ∗ owns (c : Thread nD τ) arg5 fullShare b
            ∗ owns (c : Thread nD τ) arg6 fullShare w2
            ∗ (∃ s2' : Vec F S10000x16 .f32, ⌜RowsSet o s2 s2' (k0_pay2 a s1 b w2)⌝ ∗ owns (c : Thread nD τ) sc1M fullShare s2')) -∗ K ⟨⟩))
      ⊢ wp frame (wpE (defs₀ (F := F)) Variants.none c none) E (cc0__gcn_body i arg2 harg2 arg3 harg3 arg4 harg4 arg5 harg5 arg6 harg6 arg7 harg7 arg8 harg8 sc0M (Memref.isWhole_whole _) sc1M (Memref.isWhole_whole _)) K := by
  simp only [cc0__gcn_body_eq_skeleton]; unfold cc0__gcn_body_skel
  unfold owns
  iintro ⟨⟨%g3, %hg3, H3⟩, ⟨%g9, %hg9, H9⟩, ⟨%g5, %hg5, H5⟩, ⟨%g6, %hg6, H6⟩, ⟨%g10, %hg10, H10⟩, Hk⟩
  subst hg3; subst hg9; subst hg5; subst hg6; subst hg10
  sl_exec (disch := first | exact h1 | exact h2 | exact h3)
  sl_step
  iapply Hk
  -- the adjacency's block, the first scratch, the bias row and the weights are held as they were
  isplitl [H3]
  · iexists g3; isplitr; · ipureintro; rfl
    iexact H3
  isplitl [H9]
  · iexists g9; isplitr; · ipureintro; rfl
    iexact H9
  isplitl [H5]
  · iexists g5; isplitr; · ipureintro; rfl
    iexact H5
  isplitl [H6]
  · iexists g6; isplitr; · ipureintro; rfl
    iexact H6
  -- the second scratch is held at its contents with the one band written over them
  iexists _; isplitr
  swap
  · iexists _; isplitr
    swap; · iexact H10
    ipureintro; rfl
  ipureintro
  -- a load of a whole buffer from offset zero reads the buffer's contents
  have hz : (![0, 0] : Fin 2 → ℕ) = fun _ => 0 := by funext a; fin_cases a <;> rfl
  have e3 : View.readAt (Elt F) arg3.view (Rect.unit (s := S200x10000) ![0, 0] S200x10000.size inb_S200x10000_S200x10000_0_0).toLoadRect g3
      = arg3.view.read (Elt F) g3 := by
    rw [View.readAt_eq_ld, View.ld_unit_zero (S := S200x10000) hz]
  have e9 : View.readAt (Elt F) sc0M.view (Rect.unit (s := S10000x16) ![0, 0] S10000x16.size inb_S10000x16_S10000x16_0_0).toLoadRect g9
      = sc0M.view.read (Elt F) g9 := by
    rw [View.readAt_eq_ld, View.ld_unit_zero (S := S10000x16) hz]
  have e5 : View.readAt (Elt F) arg5.view (Rect.unit (s := S1x16) ![0, 0] S1x16.size inb_S1x16_S1x16_0_0).toLoadRect g5
      = arg5.view.read (Elt F) g5 := by
    rw [View.readAt_eq_ld, View.ld_unit_zero (S := S1x16) hz]
  have e6 : View.readAt (Elt F) arg6.view (Rect.unit (s := S16x16) ![0, 0] S16x16.size inb_S16x16_S16x16_0_0).toLoadRect g6
      = arg6.view.read (Elt F) g6 := by
    rw [View.readAt_eq_ld, View.ld_unit_zero (S := S16x16) hz]
  rw [e3, e9, e5, e6]
  -- a row of the band reads the band's payload at that row; any other row reads what was there before
  refine ⟨fun r q h => ?_, fun y hy => ?_⟩
  · exact View.read_writes_cons_rows_of_mem sc1M.view g10 (k0_off2_inb i h2) _ [] (ix2 (⟨o + r.val, h⟩ : Fin 10000) q) (ix2 r q) ho rfl rfl
  · refine (View.read_writes_cons_rows_of_not_mem (W := 200) sc1M.view g10 (k0_off2_inb i h2) _ [] y ho rfl (by omega)).trans ?_
    rfl

end Cert.KernelIdeal.Hand

end
-- ==== Proof.Bodies1.lean ====
/-
  The first kernel's body at a point of its third phase (one band of `A·s2 + b2` stored into the output's staging
  buffer, `s2` read whole from the second scratch), and the second kernel's body (the column-wise log-softmax of the
  whole array in one step).
-/
import proofs.«137190_g652835029062_cont_sun_m_363_3_alg».proof.Proof.Gen.KernelIdeal.Launch
import proofs.«137190_g652835029062_cont_sun_m_363_3_alg».proof.Proof.Gen.KernelIdeal.Skeleton
import proofs.«137190_g652835029062_cont_sun_m_363_3_alg».proof.Proof.Gen.KernelIdeal.Points
import proofs.«137190_g652835029062_cont_sun_m_363_3_alg».proof.Proof.Rows
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Phase three at grid point `i`: from the adjacency's row block `a`, the second scratch at `s2` (read whole) and the
    bias row `b`, the body leaves the output's staging buffer at the block's payload, whatever it held. -/
theorem body_case2 (c : Dev nD) (E : Set ℕ) (i : grid0.Coords)
    (h1 : ¬ k0_cond1 i = 1#1) (h2 : ¬ k0_cond2 i = 1#1) (h3 : k0_cond3 i = 1#1)
    (arg2 : Memref sig .tc .vmem S200x128 .f32) (harg2 : arg2.IsWhole) (arg3 : Memref sig .tc .vmem S200x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S200x16 .f32) (harg8 : arg8.IsWhole)
    (a : Vec F S200x10000 .f32) (s2 : Vec F S10000x16 .f32) (b : Vec F S1x16 .f32) (K : PUnit → sProp 𝕄) :
    iprop(owns (c : Thread nD τ) arg3 fullShare a ∗ owns (c : Thread nD τ) sc1M fullShare s2 ∗ owns (c : Thread nD τ) arg7 fullShare b
        ∗ (∃ d, owns (c : Thread nD τ) arg8 fullShare d)
        ∗ (iprop(owns (c : Thread nD τ) arg3 fullShare a ∗ owns (c : Thread nD τ) sc1M fullShare s2 ∗ owns (c : Thread nD τ) arg7 fullShare b
            ∗ owns (c : Thread nD τ) arg8 fullShare (k0_pay3 a s2 b)) -∗ K ⟨⟩))
      ⊢ wp frame (wpE (defs₀ (F := F)) Variants.none c none) E (cc0__gcn_body i arg2 harg2 arg3 harg3 arg4 harg4 arg5 harg5 arg6 harg6 arg7 harg7 arg8 harg8 sc0M (Memref.isWhole_whole _) sc1M (Memref.isWhole_whole _)) K := by
  simp only [cc0__gcn_body_eq_skeleton]; unfold cc0__gcn_body_skel
  unfold owns
  iintro ⟨⟨%g3, %hg3, H3⟩, ⟨%g10, %hg10, H10⟩, ⟨%g7, %hg7, H7⟩, ⟨%d8, %g8, -, H8⟩, Hk⟩
  subst hg3; subst hg10; subst hg7
  -- only the third branch runs: whole loads of the three inputs and of the output buffer (its value unused), then the
  -- whole-buffer store of the payload
  sl_exec (disch := first | exact h1 | exact h2 | exact h3)
  sl_step
  iapply Hk
  -- the three inputs are untouched
  isplitl [H3]
  · iexists g3; isplitr; · ipureintro; rfl
    iexact H3
  isplitl [H10]
  · iexists g10; isplitr; · ipureintro; rfl
    iexact H10
  isplitl [H7]
  · iexists g7; isplitr; · ipureintro; rfl
    iexact H7
  iexists _; isplitr
  swap; · iexact H8
  ipureintro
  -- one store through the whole rectangle covers the buffer, so it reads back as its payload; and each load through
  -- a whole rectangle at offset zero reads the contents themselves
  have hz : (![0, 0] : Fin 2 → ℕ) = fun _ => 0 := by funext a; fin_cases a <;> rfl
  rw [View.read_writes_eq_canon _ _ _ (fun y => ⟨_, List.mem_singleton_self _, View.mem_set_unit_zero hz inb_S200x16_S200x16_0_0 y⟩),
    View.canon_unit_zero hz]
  simp only [View.readAt_eq_ld, View.ld_unit_zero (S := S200x10000) hz, View.ld_unit_zero (S := S10000x16) hz,
    View.ld_unit_zero (S := S1x16) hz]

set_option maxHeartbeats 1000000 in
/-- The second kernel: from the whole array `h` in its input buffer, the body leaves the output buffer at the
    column-wise log-softmax payload of `h`, whatever it held. -/
theorem body_lsm (c : Dev nD) (E : Set ℕ) (arg0 : Memref sig .tc .vmem S10000x16 .f32) (harg0 : arg0.IsWhole)
    (arg1 : Memref sig .tc .vmem S10000x16 .f32) (harg1 : arg1.IsWhole) (h : Vec F S10000x16 .f32) (K : PUnit → sProp 𝕄) :
    iprop(owns (c : Thread nD τ) arg0 fullShare h ∗ (∃ d, owns (c : Thread nD τ) arg1 fullShare d)
        ∗ (iprop(owns (c : Thread nD τ) arg0 fullShare h ∗ owns (c : Thread nD τ) arg1 fullShare (k1_pay1 h)) -∗ K ⟨⟩))
      ⊢ wp frame (wpE (defs₀ (F := F)) Variants.none c none) E (cc1__logsoftmax_body arg0 harg0 arg1 harg1) K := by
  simp only [cc1__logsoftmax_body_eq_skeleton]; unfold cc1__logsoftmax_body_skel
  unfold owns
  iintro ⟨⟨%g0, %hg0, H0⟩, ⟨%d1, %g1, -, H1⟩, Hk⟩
  subst hg0
  -- whole loads of the input and of the output buffer (its value unused), then the whole-buffer store of the payload
  sl_exec
  sl_step
  iapply Hk
  isplitl [H0]
  · iexists g0; isplitr; · ipureintro; rfl
    iexact H0
  iexists _; isplitr
  swap; · iexact H1
  ipureintro
  -- the one store covers the buffer and reads back as its payload, whose argument is the input's contents
  have hz : (![0, 0] : Fin 2 → ℕ) = fun _ => 0 := by funext a; fin_cases a <;> rfl
  rw [View.read_writes_eq_canon _ _ _ (fun y => ⟨_, List.mem_singleton_self _, View.mem_set_unit_zero hz inb_S10000x16_S10000x16_0_0 y⟩),
    View.canon_unit_zero hz]
  simp only [View.readAt_eq_ld, View.ld_unit_zero (S := S10000x16) hz]

end Cert.KernelIdeal.Hand

end
-- ==== Proof.Oblig0.lean ====
/-
  The first kernel's body obligation: at every grid point, from the invariant and the windows' staging buffers at
  what they then hold, the body runs to the invariant at the next point and the buffers at what it leaves.

  The point's phase decides which of the three body lemmas applies.  In the first phase the stored band extends the
  rows on which the first scratch agrees with `S1`; in the second the first scratch already is `S1` (every row is
  below `200·n` once `n ≥ 50`) and the stored band extends the rows on which the second agrees with `S2`; in the
  third the second scratch is `S2` and the output's buffer is left at the third payload.  Where the body stores
  nothing into the output's buffer the window is idle and the buffer is handed back as found.
-/
import proofs.«137190_g652835029062_cont_sun_m_363_3_alg».proof.Proof.Gen.KernelIdeal.Launch
import proofs.«137190_g652835029062_cont_sun_m_363_3_alg».proof.Proof.Gen.KernelIdeal.Skeleton
import proofs.«137190_g652835029062_cont_sun_m_363_3_alg».proof.Proof.Gen.KernelIdeal.Points
import proofs.«137190_g652835029062_cont_sun_m_363_3_alg».proof.Proof.Rows
import proofs.«137190_g652835029062_cont_sun_m_363_3_alg».proof.Proof.Sched
import proofs.«137190_g652835029062_cont_sun_m_363_3_alg».proof.Proof.Data
import proofs.«137190_g652835029062_cont_sun_m_363_3_alg».proof.Proof.Bodies0
import proofs.«137190_g652835029062_cont_sun_m_363_3_alg».proof.Proof.Bodies1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input window's current staging buffer holds its block at every point, fetched there or not: the window is
    never idle nor cut, the body leaves its block in place, and an unfetched point has the block index of the point
    before. -/
theorem before0_0 (c : Dev nD) (t : Fin cfg0.N) (d) : (dat0 V c).before 0 t d = iblk0 V c 0 t := by
  refine ((dat0 V c).before_in_eq_fetched 0 rfl (fun _ => rfl) (fun _ _ _ => rfl) (fun t => ?_) t d).trans ?_
  · rw [after0_0]; unfold Dat.blockOf iblk0; rw [A_eq0]
  · unfold Dat.fetched Dat.blockOf iblk0; rw [A_eq0]; rfl
theorem before0_1 (c : Dev nD) (t : Fin cfg0.N) (d) : (dat0 V c).before 1 t d = iblk0 V c 1 t := by
  refine ((dat0 V c).before_in_eq_fetched 1 rfl (fun _ => rfl) (fun _ _ _ => rfl) (fun t => ?_) t d).trans ?_
  · rw [after0_1]; unfold Dat.blockOf iblk0; rw [A_eq0]
  · unfold Dat.fetched Dat.blockOf iblk0; rw [A_eq0]; rfl
theorem before0_2 (c : Dev nD) (t : Fin cfg0.N) (d) : (dat0 V c).before 2 t d = iblk0 V c 2 t := by
  refine ((dat0 V c).before_in_eq_fetched 2 rfl (fun _ => rfl) (fun _ _ _ => rfl) (fun t => ?_) t d).trans ?_
  · rw [after0_2]; unfold Dat.blockOf iblk0; rw [A_eq0]
  · unfold Dat.fetched Dat.blockOf iblk0; rw [A_eq0]; rfl
theorem before0_3 (c : Dev nD) (t : Fin cfg0.N) (d) : (dat0 V c).before 3 t d = iblk0 V c 3 t := by
  refine ((dat0 V c).before_in_eq_fetched 3 rfl (fun _ => rfl) (fun _ _ _ => rfl) (fun t => ?_) t d).trans ?_
  · rw [after0_3]; unfold Dat.blockOf iblk0; rw [A_eq0]
  · unfold Dat.fetched Dat.blockOf iblk0; rw [A_eq0]; rfl
theorem before0_4 (c : Dev nD) (t : Fin cfg0.N) (d) : (dat0 V c).before 4 t d = iblk0 V c 4 t := by
  refine ((dat0 V c).before_in_eq_fetched 4 rfl (fun _ => rfl) (fun _ _ _ => rfl) (fun t => ?_) t d).trans ?_
  · rw [after0_4]; unfold Dat.blockOf iblk0; rw [A_eq0]
  · unfold Dat.fetched Dat.blockOf iblk0; rw [A_eq0]; rfl
theorem before0_5 (c : Dev nD) (t : Fin cfg0.N) (d) : (dat0 V c).before 5 t d = iblk0 V c 5 t := by
  refine ((dat0 V c).before_in_eq_fetched 5 rfl (fun _ => rfl) (fun _ _ _ => rfl) (fun t => ?_) t d).trans ?_
  · rw [after0_5]; unfold Dat.blockOf iblk0; rw [A_eq0]
  · unfold Dat.fetched Dat.blockOf iblk0; rw [A_eq0]; rfl

/-! ## The scratch specifications band by band -/

/-- Windows 2–5 stage their whole array at every point: the block index is constant, so the block read is that of
    the first point. -/
theorem fetched0_2 (c : Dev nD) (t : Fin cfg0.N) (d) : (dat0 V c).fetched 2 t d = iblk0 V c 2 t := by
  unfold Dat.fetched Dat.blockOf iblk0; rw [A_eq0]; rfl
theorem fetched0_3 (c : Dev nD) (t : Fin cfg0.N) (d) : (dat0 V c).fetched 3 t d = iblk0 V c 3 t := by
  unfold Dat.fetched Dat.blockOf iblk0; rw [A_eq0]; rfl
theorem fetched0_4 (c : Dev nD) (t : Fin cfg0.N) (d) : (dat0 V c).fetched 4 t d = iblk0 V c 4 t := by
  unfold Dat.fetched Dat.blockOf iblk0; rw [A_eq0]; rfl

theorem w1v_const (c : Dev nD) (t : Fin cfg0.N) : w1v V c t = w1v V c t0 :=
  ((fetched0_2 V c t (w1v V c t0)).symm.trans ((dat0 V c).fetched_congr 2 rfl rfl _)).trans (fetched0_2 V c t0 _)
theorem b1v_const (c : Dev nD) (t : Fin cfg0.N) : b1v V c t = b1v V c t0 :=
  ((fetched0_3 V c t (b1v V c t0)).symm.trans ((dat0 V c).fetched_congr 3 rfl rfl _)).trans (fetched0_3 V c t0 _)
theorem w2v_const (c : Dev nD) (t : Fin cfg0.N) : w2v V c t = w2v V c t0 :=
  ((fetched0_4 V c t (w2v V c t0)).symm.trans ((dat0 V c).fetched_congr 4 rfl rfl _)).trans (fetched0_4 V c t0 _)

/-- `S1` at row `200·k + r`: row `r` of the first payload of the features' block at point `k`. -/
theorem S1_band (c : Dev nD) (k : ℕ) (hk : k < 150) (r : Fin 200) (q : Fin 16) (a : Fin 10000) (ha : a.val = 200 * k + r.val) :
    S1 V c (ix2 a q) = k0_pay1 (xblk V c (pt k hk)) (w1v V c t0) (ix2 r q) := by
  have e1 : a.val / 200 = k := by omega
  have e2 : a.val % 200 = r.val := by omega
  have hp : ∀ h, pt (a.val / 200) h = pt k hk := fun h => Fin.ext e1
  have hr : ∀ h, (⟨a.val % 200, h⟩ : Fin 200) = r := fun h => Fin.ext e2
  show k0_pay1 (xblk V c (pt (a.val / 200) _)) (w1v V c t0) (ix2 (⟨a.val % 200, _⟩ : Fin 200) (⟨q.val, q.isLt⟩ : Fin 16)) = _
  rw [hp, hr]

/-- `S2` at row `200·k + r`: row `r` of the second payload of the adjacency's block at point `50 + k`. -/
theorem S2_band (c : Dev nD) (k : ℕ) (hk : 50 + k < 150) (r : Fin 200) (q : Fin 16) (a : Fin 10000) (ha : a.val = 200 * k + r.val) :
    S2 V c (ix2 a q) = k0_pay2 (ablk V c (pt (50 + k) hk)) (S1 V c) (b1v V c t0) (w2v V c t0) (ix2 r q) := by
  have e1 : a.val / 200 = k := by omega
  have e2 : a.val % 200 = r.val := by omega
  have hp : ∀ h, pt (50 + a.val / 200) h = pt (50 + k) hk := fun h => Fin.ext (by show 50 + a.val / 200 = 50 + k; omega)
  have hr : ∀ h, (⟨a.val % 200, h⟩ : Fin 200) = r := fun h => Fin.ext e2
  show k0_pay2 (ablk V c (pt (50 + a.val / 200) _)) (S1 V c) (b1v V c t0) (w2v V c t0) (ix2 (⟨a.val % 200, _⟩ : Fin 200) (⟨q.val, q.isLt⟩ : Fin 16)) = _
  rw [hp, hr]

/-! ## The invariants from point to point -/

/-- Nothing is claimed of the second scratch up to point 50. -/
theorem Inv2_vac (c : Dev nD) (n : ℕ) (hn : n ≤ 50) (s : Vec F S10000x16 .f32) : Inv2 V c n s := fun y hy => by
  exfalso; omega

/-- From point 50 on the first scratch is `S1`, -/
theorem Inv1_full (c : Dev nD) (n : ℕ) (hn : 50 ≤ n) (s : Vec F S10000x16 .f32) (h : Inv1 V c n s) : s = S1 V c :=
  funext fun y => h y (by have : (y 0).val < 10000 := (y 0).isLt; omega)
/-- and from point 100 on the second is `S2`. -/
theorem Inv2_full (c : Dev nD) (n : ℕ) (hn : 100 ≤ n) (s : Vec F S10000x16 .f32) (h : Inv2 V c n s) : s = S2 V c :=
  funext fun y => h y (by have : (y 0).val < 10000 := (y 0).isLt; omega)

theorem Inv1_of_eq (c : Dev nD) (n : ℕ) (s : Vec F S10000x16 .f32) (h : s = S1 V c) : Inv1 V c n s := fun y _ => by rw [h]
theorem Inv2_of_eq (c : Dev nD) (n : ℕ) (s : Vec F S10000x16 .f32) (h : s = S2 V c) : Inv2 V c n s := fun y _ => by rw [h]

/-- A point of the first phase stores band `t` of `S1`: the rows below `200·(t+1)` then agree with `S1`. -/
theorem Inv1_step (c : Dev nD) (t : Fin cfg0.N) (ht : t.val < 50) (s s' : Vec F S10000x16 .f32)
    (hinv : Inv1 V c t.val s) (hrs : RowsSet (200 * (t.val % 50)) s s' (k0_pay1 (xblk V c t) (w1v V c t))) :
    Inv1 V c (t.val + 1) s' := by
  intro y hy
  have hy0 : (y 0).val < 10000 := (y 0).isLt
  have hmod : t.val % 50 = t.val := Nat.mod_eq_of_lt ht
  rw [hmod] at hrs
  by_cases hb : 200 * t.val ≤ (y 0).val
  · -- a row of the band just stored
    obtain ⟨a, q, rfl⟩ : ∃ (a : Fin 10000) (q : Fin 16), y = ix2 a q := ⟨y 0, y 1, eq_ix2 y⟩
    have ha : 200 * t.val ≤ a.val := hb
    have ha' : a.val < 200 * (t.val + 1) := hy
    obtain ⟨r, hr⟩ : ∃ r : Fin 200, a.val = 200 * t.val + r.val :=
      ⟨⟨a.val - 200 * t.val, by omega⟩, by show a.val = 200 * t.val + (a.val - 200 * t.val); omega⟩
    have h1 := hrs.1 r q (by omega)
    have ea : ∀ h, (⟨200 * t.val + r.val, h⟩ : Fin 10000) = a := fun h => Fin.ext hr.symm
    rw [ea] at h1
    rw [h1, S1_band V c t.val (by omega) r q a hr, w1v_const V c t]
    rfl
  · -- a row stored earlier
    rw [hrs.2 y (by omega)]; exact hinv y (by omega)

/-- A point of the second phase stores band `t − 50` of `S2`, the first scratch being `S1` by then. -/
theorem Inv2_step (c : Dev nD) (t : Fin cfg0.N) (h50 : 50 ≤ t.val) (h100 : t.val < 100) (s1 s s' : Vec F S10000x16 .f32)
    (hs1 : s1 = S1 V c) (hinv : Inv2 V c t.val s)
    (hrs : RowsSet (200 * (t.val % 50)) s s' (k0_pay2 (ablk V c t) s1 (b1v V c t) (w2v V c t))) :
    Inv2 V c (t.val + 1) s' := by
  subst hs1
  intro y hy
  have hy0 : (y 0).val < 10000 := (y 0).isLt
  have hmod : t.val % 50 = t.val - 50 := by omega
  rw [hmod] at hrs
  by_cases hb : 200 * (t.val - 50) ≤ (y 0).val
  · obtain ⟨a, q, rfl⟩ : ∃ (a : Fin 10000) (q : Fin 16), y = ix2 a q := ⟨y 0, y 1, eq_ix2 y⟩
    have ha : 200 * (t.val - 50) ≤ a.val := hb
    have ha' : a.val + 10000 < 200 * (t.val + 1) := hy
    obtain ⟨r, hr⟩ : ∃ r : Fin 200, a.val = 200 * (t.val - 50) + r.val :=
      ⟨⟨a.val - 200 * (t.val - 50), by omega⟩, by show a.val = 200 * (t.val - 50) + (a.val - 200 * (t.val - 50)); omega⟩
    have h1 := hrs.1 r q (by omega)
    have ea : ∀ h, (⟨200 * (t.val - 50) + r.val, h⟩ : Fin 10000) = a := fun h => Fin.ext hr.symm
    rw [ea] at h1
    have hpt : pt (50 + (t.val - 50)) (by omega) = t := Fin.ext (by show 50 + (t.val - 50) = t.val; omega)
    rw [h1, S2_band V c (t.val - 50) (by omega) r q a hr, hpt, b1v_const V c t, w2v_const V c t]
  · rw [hrs.2 y (by omega)]; exact hinv y (by omega)

/-! ## The body obligation, window by window -/

/-- What the body is handed at point `t`: the invariant, what the core owes, and the seven current staging buffers. -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it hands back. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

/-- At a point live for window `w` the body leaves its buffer at `after w t`. -/
theorem leaves_live (c : Dev nD) (w : Fin cfg0.W) (t : Fin cfg0.N) (hlive : cfg0.idle w (cfg0.grid.coords t) = false) :
    (dat0 V c).leavesExact w t
      = owns (c : Thread nD τ) ((cfg0.win w).stage (cfg0.slots t w)) fullShare ((dat0 V c).after w t) := by
  unfold Dat.leavesExact; rw [hlive]

/-- The output window is not written back before the third phase, -/
theorem noflush6 (t : Fin cfg0.N) (h : t.val < 100) : (cfg0.win 6).flush t = false := by
  cases hfl : (cfg0.win 6).flush t with
  | false => rfl
  | true => have := (flush6_iff t).mp hfl; omega
/-- and live in it. -/
theorem live6 (t : Fin cfg0.N) (h : 100 ≤ t.val) : cfg0.idle 6 (cfg0.grid.coords t) = false := by
  cases hi : cfg0.idle 6 (cfg0.grid.coords t) with
  | false => rfl
  | true => have := (idle6_iff t).mp hi; omega

/-- A point of the first phase: the body reads the features' block and `W1` and stores one band into the first scratch;
    the output's buffer is handed back as found. -/
theorem sound_phase1 (c : Dev nD) (t : Fin cfg0.N) (h : t.val < 50) :
    bodyPre V c t ⊢ wp frame (wpE (defs₀ (F := F)) Variants.none c none) Set.univ (bodyAt0 t) (fun _ => bodyPost V c t) := by
  have h1 : k0_cond1 (grid0.coords t) = 1#1 := (cond1_iff t).mpr h
  have h2 : ¬ k0_cond2 (grid0.coords t) = 1#1 := fun e => by have := (cond2_iff t).mp e; omega
  have h3 : ¬ k0_cond3 (grid0.coords t) = 1#1 := fun e => by have := (cond3_iff t).mp e; omega
  unfold bodyPre bodyPost bodyAt0
  rewrite [Dat.leavesExact_idle (dat0 V c) 6 t ((idle6_iff t).mpr (by omega)) (noflush6 t (by omega)),
    leaves_live V c 0 t rfl, leaves_live V c 1 t rfl, leaves_live V c 2 t rfl, leaves_live V c 3 t rfl,
    leaves_live V c 4 t rfl, leaves_live V c 5 t rfl, Phi_eq0, Phi_eq0,
    show (dat0 V c).owesAt () t.succ = (dat0 V c).owesAt () t.castSucc from rfl]
  simp only [before0_0, before0_1, before0_2, before0_3, before0_4, before0_5, after0_0, after0_1, after0_2, after0_3,
    after0_4, after0_5, Fin.coe_castSucc, Fin.val_succ]
  unfold Phi0
  iintro ⟨⟨%s1, %s2, %hinv, Hs1, Hs2, Hr1, Hr2, Hg⟩, Ho, ⟨%d0, H0⟩, ⟨%d1, H1⟩, ⟨%d2, H2⟩, ⟨%d3, H3⟩, ⟨%d4, H4⟩, ⟨%d5, H5⟩, H6⟩
  iapply (body_case0 c Set.univ (grid0.coords t) h1 h2 h3 (200 * (t.val % 50)) (off1_eq t) _ _ _ _ _ _ _ _ _ _ _ _ _ _ (xblk V c t) (w1v V c t) s1 _)
  isplitl [H0]; · iexact H0
  isplitl [H2]; · iexact H2
  isplitl [Hs1]; · iexact Hs1
  iintro ⟨H0, H2, ⟨%s1', %hrs, Hs1⟩⟩
  isplitl [Hs1 Hs2 Hr1 Hr2 Hg]
  · iexists s1'; iexists s2
    isplitr
    · ipureintro; exact ⟨Inv1_step V c t h s1 s1' hinv.1 hrs, Inv2_vac V c _ (by omega) s2⟩
    isplitl [Hs1]; · iexact Hs1
    isplitl [Hs2]; · iexact Hs2
    isplitl [Hr1]; · iexact Hr1
    isplitl [Hr2]; · iexact Hr2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- A point of the second phase: the first scratch is `S1` by now; the body reads the adjacency's block, the first
    scratch, `b1` and `W2` and stores one band into the second scratch; the output's buffer is handed back as found. -/
theorem sound_phase2 (c : Dev nD) (t : Fin cfg0.N) (h50 : 50 ≤ t.val) (h100 : t.val < 100) :
    bodyPre V c t ⊢ wp frame (wpE (defs₀ (F := F)) Variants.none c none) Set.univ (bodyAt0 t) (fun _ => bodyPost V c t) := by
  have h1 : ¬ k0_cond1 (grid0.coords t) = 1#1 := fun e => by have := (cond1_iff t).mp e; omega
  have h2 : k0_cond2 (grid0.coords t) = 1#1 := (cond2_iff t).mpr ⟨h50, h100⟩
  have h3 : ¬ k0_cond3 (grid0.coords t) = 1#1 := fun e => by have := (cond3_iff t).mp e; omega
  unfold bodyPre bodyPost bodyAt0
  rewrite [Dat.leavesExact_idle (dat0 V c) 6 t ((idle6_iff t).mpr h100) (noflush6 t h100),
    leaves_live V c 0 t rfl, leaves_live V c 1 t rfl, leaves_live V c 2 t rfl, leaves_live V c 3 t rfl,
    leaves_live V c 4 t rfl, leaves_live V c 5 t rfl, Phi_eq0, Phi_eq0,
    show (dat0 V c).owesAt () t.succ = (dat0 V c).owesAt () t.castSucc from rfl]
  simp only [before0_0, before0_1, before0_2, before0_3, before0_4, before0_5, after0_0, after0_1, after0_2, after0_3,
    after0_4, after0_5, Fin.coe_castSucc, Fin.val_succ]
  unfold Phi0
  iintro ⟨⟨%s1, %s2, %hinv, Hs1, Hs2, Hr1, Hr2, Hg⟩, Ho, ⟨%d0, H0⟩, ⟨%d1, H1⟩, ⟨%d2, H2⟩, ⟨%d3, H3⟩, ⟨%d4, H4⟩, ⟨%d5, H5⟩, H6⟩
  iapply (body_case1 c Set.univ (grid0.coords t) h1 h2 h3 (200 * (t.val % 50)) (off2_eq t) _ _ _ _ _ _ _ _ _ _ _ _ _ _ (ablk V c t) s1 (b1v V c t) (w2v V c t) s2 _)
  isplitl [H1]; · iexact H1
  isplitl [Hs1]; · iexact Hs1
  isplitl [H3]; · iexact H3
  isplitl [H4]; · iexact H4
  isplitl [Hs2]; · iexact Hs2
  iintro ⟨H1, Hs1, H3, H4, ⟨%s2', %hrs, Hs2⟩⟩
  isplitl [Hs1 Hs2 Hr1 Hr2 Hg]
  · iexists s1; iexists s2'
    isplitr
    · ipureintro
      have hs1 : s1 = S1 V c := Inv1_full V c t.val h50 s1 hinv.1
      exact ⟨Inv1_of_eq V c _ s1 hs1, Inv2_step V c t h50 h100 s1 s2 s2' hs1 hinv.2 hrs⟩
    isplitl [Hs1]; · iexact Hs1
    isplitl [Hs2]; · iexact Hs2
    isplitl [Hr1]; · iexact Hr1
    isplitl [Hr2]; · iexact Hr2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- A point of the third phase: the second scratch is `S2` by now; the body reads the adjacency's block, the second
    scratch and `b2` and leaves the output's buffer at the third payload. -/
theorem sound_phase3 (c : Dev nD) (t : Fin cfg0.N) (h100 : 100 ≤ t.val) :
    bodyPre V c t ⊢ wp frame (wpE (defs₀ (F := F)) Variants.none c none) Set.univ (bodyAt0 t) (fun _ => bodyPost V c t) := by
  have h1 : ¬ k0_cond1 (grid0.coords t) = 1#1 := fun e => by have := (cond1_iff t).mp e; omega
  have h2 : ¬ k0_cond2 (grid0.coords t) = 1#1 := fun e => by have := (cond2_iff t).mp e; omega
  have h3 : k0_cond3 (grid0.coords t) = 1#1 := (cond3_iff t).mpr h100
  unfold bodyPre bodyPost bodyAt0
  rewrite [leaves_live V c 6 t (live6 t h100),
    leaves_live V c 0 t rfl, leaves_live V c 1 t rfl, leaves_live V c 2 t rfl, leaves_live V c 3 t rfl,
    leaves_live V c 4 t rfl, leaves_live V c 5 t rfl, Phi_eq0, Phi_eq0,
    show (dat0 V c).owesAt () t.succ = (dat0 V c).owesAt () t.castSucc from rfl]
  simp only [before0_0, before0_1, before0_2, before0_3, before0_4, before0_5, after0_0, after0_1, after0_2, after0_3,
    after0_4, after0_5, after0_6, Fin.coe_castSucc, Fin.val_succ]
  unfold Phi0 H2blk
  iintro ⟨⟨%s1, %s2, %hinv, Hs1, Hs2, Hr1, Hr2, Hg⟩, Ho, ⟨%d0, H0⟩, ⟨%d1, H1⟩, ⟨%d2, H2⟩, ⟨%d3, H3⟩, ⟨%d4, H4⟩, ⟨%d5, H5⟩, ⟨%d6, H6⟩⟩
  have hs2 : s2 = S2 V c := Inv2_full V c t.val h100 s2 hinv.2
  subst hs2
  iapply (body_case2 c Set.univ (grid0.coords t) h1 h2 h3 _ _ _ _ _ _ _ _ _ _ _ _ _ _ (ablk V c t) (S2 V c) (b2v V c t) _)
  isplitl [H1]; · iexact H1
  isplitl [Hs2]; · iexact Hs2
  isplitl [H5]; · iexact H5
  isplitl [H6]; · iexists _; iexact H6
  iintro ⟨H1, Hs2, H5, H6⟩
  isplitl [Hs1 Hs2 Hr1 Hr2 Hg]
  · iexists s1; iexists (S2 V c)
    isplitr
    · ipureintro
      exact ⟨Inv1_of_eq V c _ s1 (Inv1_full V c t.val (by omega) s1 hinv.1), Inv2_of_eq V c _ _ rfl⟩
    isplitl [Hs1]; · iexact Hs1
    isplitl [Hs2]; · iexact Hs2
    isplitl [Hr1]; · iexact Hr1
    isplitl [Hr2]; · iexact Hr2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point, by its phase. -/
theorem sound_body (c : Dev nD) (t : Fin cfg0.N) :
    bodyPre V c t ⊢ wp frame (wpE (defs₀ (F := F)) Variants.none c none) Set.univ (bodyAt0 t) (fun _ => bodyPost V c t) := by
  by_cases h50 : t.val < 50
  · exact sound_phase1 V c t h50
  · by_cases h100 : t.val < 100
    · exact sound_phase2 V c t (by omega) h100
    · exact sound_phase3 V c t (by omega)

/-- The library's body obligation for the first kernel, at every point. -/
theorem body_obligation0 (c : Dev nD) : BodyObligation (dat0 (F := F) V c) (defs₀ (F := F)) Variants.none () Set.univ := fun t => by
  rw [bigSep_W0, bigSep_W0]
  exact sound_body V c t

/-- What the region hands the kernel — the generator register and the scoped buffers no window stages — is the
    invariant before the first point: nothing is claimed of the scratches yet. -/
theorem hin0 (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rewrite [Phi_eq0, scopedRest0_eq]
  unfold Phi0
  simp only [owns_whole]
  iintro ⟨Hg, ⟨%f0, H0⟩, ⟨%f1, H1⟩, H2, H3⟩
  iexists f0; iexists f1
  isplitr
  · ipureintro
    have hz : ((0 : Fin (cfg0.N + 1)) : ℕ) = 0 := rfl
    exact ⟨fun y hy => by exfalso; rw [hz] at hy; omega, fun y hy => by exfalso; rw [hz] at hy; omega⟩
  isplitl [H0]; · iexact H0
  isplitl [H1]; · iexact H1
  isplitl [H2]; · iexact H2
  isplitl [H3]; · iexact H3
  iexact Hg

/-- After the last point the invariant gives them back: what the scratches hold is forgotten. -/
theorem hout0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rewrite [Phi_eq0, scopedRest0_eq]
  unfold Phi0
  simp only [owns_whole]
  iintro ⟨%s1, %s2, -, H0, H1, H2, H3, Hg⟩
  isplitl [Hg]; · iexact Hg
  isplitl [H0]; · iexists s1; iexact H0
  isplitl [H1]; · iexists s2; iexact H1
  isplitl [H2]; · iexact H2
  iexact H3

end Cert.KernelIdeal.Hand

end
-- ==== Proof.Oblig1.lean ====
/-
  The second kernel's body obligation.  It has one point; its input window's buffer holds the whole array and its
  output window's buffer ends at the log-softmax payload of it.  The invariant and what the core owes pass through.
-/
import proofs.«137190_g652835029062_cont_sun_m_363_3_alg».proof.Proof.Gen.KernelIdeal.Launch
import proofs.«137190_g652835029062_cont_sun_m_363_3_alg».proof.Proof.Gen.KernelIdeal.Skeleton
import proofs.«137190_g652835029062_cont_sun_m_363_3_alg».proof.Proof.Gen.KernelIdeal.Points
import proofs.«137190_g652835029062_cont_sun_m_363_3_alg».proof.Proof.Rows
import proofs.«137190_g652835029062_cont_sun_m_363_3_alg».proof.Proof.Sched
import proofs.«137190_g652835029062_cont_sun_m_363_3_alg».proof.Proof.Data
import proofs.«137190_g652835029062_cont_sun_m_363_3_alg».proof.Proof.Bodies1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input window's buffer holds the whole array when the body runs. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The body at the kernel's point, over the two windows' buffers one by one. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t))) := by
  unfold bodyAt1
  simp only [before1_0]
  rewrite [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (body_lsm c Set.univ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation for the second kernel. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Launch.lean ====
/-
  The run of @main: a host stretch (two reshapes of the biases), the first kernel's region, the second kernel's
  region.  Between items the core's unscoped buffers are held whole at named contents: the launch memory, then
  what the reshapes write, then the first region's arrays at what its write-backs leave, then the second's.  Every
  weakly fair execution terminates with every unscoped buffer at the last of these; the arguments are never
  written, and the result buffer holds what the second region's one write-back leaves.
-/
import proofs.«137190_g652835029062_cont_sun_m_363_3_alg».proof.Proof.Gen.KernelIdeal.Launch
import proofs.«137190_g652835029062_cont_sun_m_363_3_alg».proof.Proof.Gen.KernelIdeal.Skeleton
import proofs.«137190_g652835029062_cont_sun_m_363_3_alg».proof.Proof.Gen.KernelIdeal.Points
import proofs.«137190_g652835029062_cont_sun_m_363_3_alg».proof.Proof.Gen.KernelIdeal.Regions
import proofs.«137190_g652835029062_cont_sun_m_363_3_alg».proof.Proof.Rows
import proofs.«137190_g652835029062_cont_sun_m_363_3_alg».proof.Proof.Sched
import proofs.«137190_g652835029062_cont_sun_m_363_3_alg».proof.Proof.Data
import proofs.«137190_g652835029062_cont_sun_m_363_3_alg».proof.Proof.Oblig0
import proofs.«137190_g652835029062_cont_sun_m_363_3_alg».proof.Proof.Oblig1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the two reshapes (the first region's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second region's entry). -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- The reshapes write only the two reshaped biases. -/
theorem W1_of (c : Dev nD) (r : Ref sig .tc) (h : r ∉ hostOps0_W) : W1 m c r = W0 m c r :=
  StableHlo.after_of_writes_sub hostOps0 _ hostOps0_writes h

/-! ### The arguments end as launched -/

theorem W3_arg_in (c : Dev nD) (w : Fin cfg0.W) (hin : (cfg0.win w).isOut = false)
    (h1 : ∀ w', Pipeline.arrRef spec1 w' ≠ Pipeline.arrRef spec0 w) (h0 : Pipeline.arrRef spec0 w ∉ hostOps0_W) :
    W3 m c (Proc.devRef .tc (Pipeline.arrRef spec0 w)) = m ((c : Thread nD τ).loc (Pipeline.arrRef spec0 w)) :=
  calc W3 m c (Proc.devRef .tc (Pipeline.arrRef spec0 w))
    _ = W2 m c (Proc.devRef .tc (Pipeline.arrRef spec0 w)) := W3_of_ne m c _ h1
    _ = W1 m c (Proc.devRef .tc (Pipeline.arrRef spec0 w)) := (W2_arr m c w).trans (((dat0 (E1 m) c).arrAt_in w hin _).trans (A_eq0 (E1 m) c w))
    _ = W0 m c (Proc.devRef .tc (Pipeline.arrRef spec0 w)) := W1_of m c _ h0
    _ = m ((c : Thread nD τ).loc (Pipeline.arrRef spec0 w)) := rfl

theorem W3_arg_out (c : Dev nD) (b : Ref sig .tc) (h1 : ∀ w', Pipeline.arrRef spec1 w' ≠ b) (h0 : ∀ w', Pipeline.arrRef spec0 w' ≠ b)
    (hh : b ∉ hostOps0_W) : W3 m c (Proc.devRef .tc b) = m ((c : Thread nD τ).loc b) :=
  calc W3 m c (Proc.devRef .tc b)
    _ = W2 m c (Proc.devRef .tc b) := W3_of_ne m c _ h1
    _ = W1 m c (Proc.devRef .tc b) := W2_of_ne m c _ h0
    _ = W0 m c (Proc.devRef .tc b) := W1_of m c _ hh
    _ = m ((c : Thread nD τ).loc b) := rfl

theorem W3_main_arg0 (c : Dev nD) : W3 m c (Proc.devRef .tc main_arg0) = m ((c : Thread nD τ).loc main_arg0) :=
  W3_arg_in m c 0 rfl (by decide) (by decide)
theorem W3_main_arg1 (c : Dev nD) : W3 m c (Proc.devRef .tc main_arg1) = m ((c : Thread nD τ).loc main_arg1) :=
  W3_arg_in m c 1 rfl (by decide) (by decide)
theorem W3_main_arg2 (c : Dev nD) : W3 m c (Proc.devRef .tc main_arg2) = m ((c : Thread nD τ).loc main_arg2) :=
  W3_arg_in m c 2 rfl (by decide) (by decide)
theorem W3_main_arg3 (c : Dev nD) : W3 m c (Proc.devRef .tc main_arg3) = m ((c : Thread nD τ).loc main_arg3) :=
  W3_arg_out m c main_arg3 (by decide) (by decide) (by decide)
theorem W3_main_arg4 (c : Dev nD) : W3 m c (Proc.devRef .tc main_arg4) = m ((c : Thread nD τ).loc main_arg4) :=
  W3_arg_in m c 4 rfl (by decide) (by decide)
theorem W3_main_arg5 (c : Dev nD) : W3 m c (Proc.devRef .tc main_arg5) = m ((c : Thread nD τ).loc main_arg5) :=
  W3_arg_out m c main_arg5 (by decide) (by decide) (by decide)

/-- The result buffer ends at what the second region's write-back leaves. -/
theorem W3_main_v3 (c : Dev nD) : W3 m c (Proc.devRef .tc main_v3) = (dat1 (E2 m) c).arrAt 1 cfg1.N := W3_arr m c 1

/-- The second region's input array is what the first region's write-backs leave. -/
theorem E2_main_v2 (c : Dev nD) : E2 m c main_v2 = (dat0 (E1 m) c).arrAt 6 cfg0.N := W2_arr m c 6

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
/-- No core owes another anything. -/
abbrev L0 : GSem nD τ sig → Finset Unit := fun _ => ∅
abbrev lv0 : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first kernel's region: entered from every unscoped buffer at `W1`, left at `W2`. -/
def reg0 : Pipeline.RegionSeg (pcfgs (F := F)) adm (pdats m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L0 lv0 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    iintro ⟨Hp, -, Hr⟩
    iapply (hin0 (E1 m) c)
    isplitl [Hp]; · iexact Hp
    iexact Hr
  hout c := by
    rw [Pipeline.ownSems0_none, show (pdats m 0 c).Φ (Fin.last _) = (dat0 (E1 m) c).Φ (Fin.last cfg0.N) from rfl]
    iintro H
    ihave H' := (hout0 (E1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from every unscoped buffer at `W2`, left at `W3`. -/
def reg1 : Pipeline.RegionSeg (pcfgs (F := F)) adm (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L0 lv0 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three items in order. -/
abbrev segs : List (Pipeline.Seg (pcfgs (F := F)) adm (pdats m) () defs₀ 𝒱₀ L0 lv0) :=
  [ .host (hseg hostOps0 hostOps0_sub hostOps0_fresh (W0 m)),
    .region (reg0 m),
    .region (reg1 m) ]
/-- @main is the run of the segments. -/
theorem main_run (c : Dev nD) : main (F := F) c = Pipeline.Seg.run (segs m) := (main_chain c).trans (by chain_rfl)

set_option backward.isDefEq.respectTransparency.types false in
/-- Every weakly fair execution of @main from memory `m` with zero counters terminates, and every final memory has
    every unscoped buffer of every core at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L0 lv0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The run with the result and the arguments named: the result buffer at what the second region's write-back
    leaves, each argument as launched. -/
theorem run_named : θ_run defs (onTc (τ := τ) (main (F := F))) ⟨m, fun _ => 0, ρ⟩ (fun r => ∀ c : Dev nD,
      r.2.mem ((c.tc : Thread nD τ).loc main_v3) = (dat1 (E2 m) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W3_main_v3 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_main m ρ)

/-- The frame: every weakly fair execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Hand

end
-- ==== Proof.Spec.lean ====
/-
  The two-layer graph convolution with a column-wise log-softmax, as plain formulas over the extended reals.

  With `X` the node features, `A` the dense adjacency, `W1, b1, W2, b2` the layers' weights:
  `s1 = X·W1`, `h1 = max (A·s1 + b1) 0`, `s2 = h1·W2`, `h2 = A·s2 + b2`, and the result is the log-softmax of
  `h2` down each column (over the nodes).  The kernel subtracts `log Σ exp (h − m) + m` from `h`; the reference
  subtracts `log Σ exp (h − m)` from `h − m`, `m` the column's maximum.  On finite `h` the two agree.
-/
import Idealize.ShloMosaic.PureOps.Ideal
import Idealize.ShloMosaic.PureOps.Ideal.Laws
import Idealize.ShloMosaic.Lib.ValueIdx

noncomputable section

open scoped BigOperators

namespace GcnSpec

open Idealize.ShloMosaic Idealize.ShloMosaic.ValueIdx

abbrev SX : Shape := ⟨2, ![10000, 128]⟩
abbrev SA : Shape := ⟨2, ![10000, 10000]⟩
abbrev SW1 : Shape := ⟨2, ![128, 16]⟩
abbrev SB : Shape := ⟨1, ![16]⟩
abbrev SW2 : Shape := ⟨2, ![16, 16]⟩
abbrev SO : Shape := ⟨2, ![10000, 16]⟩

/-- The first layer's support: `X·W1` at `(p, q)`. -/
def s1 (X : SX.Idx → EReal) (W1 : SW1.Idx → EReal) (p : Fin 10000) (q : Fin 16) : EReal :=
  ∑ k : Fin 128, X (ix2 p k) * W1 (ix2 k q)

/-- The hidden layer: the positive part of `A·s1 + b1` at `(p, q)` (the zero spelt as both programs spell it). -/
def h1 (A : SA.Idx → EReal) (X : SX.Idx → EReal) (W1 : SW1.Idx → EReal) (b1 : SB.Idx → EReal) (p : Fin 10000) (q : Fin 16) : EReal :=
  max ((∑ k : Fin 10000, A (ix2 p k) * s1 X W1 k q) + b1 (ix1 q)) (Ideal.ofBits .f32 0x00000000#32)

/-- The second layer's support: `h1·W2` at `(p, q)`. -/
def s2 (A : SA.Idx → EReal) (X : SX.Idx → EReal) (W1 : SW1.Idx → EReal) (b1 : SB.Idx → EReal) (W2 : SW2.Idx → EReal)
    (p : Fin 10000) (q : Fin 16) : EReal :=
  ∑ k : Fin 16, h1 A X W1 b1 p k * W2 (ix2 k q)

/-- The output layer before the softmax: `A·s2 + b2` at `(p, q)`. -/
def h2 (A : SA.Idx → EReal) (X : SX.Idx → EReal) (W1 : SW1.Idx → EReal) (b1 : SB.Idx → EReal) (W2 : SW2.Idx → EReal)
    (b2 : SB.Idx → EReal) (p : Fin 10000) (q : Fin 16) : EReal :=
  (∑ k : Fin 10000, A (ix2 p k) * s2 A X W1 b1 W2 k q) + b2 (ix1 q)

/-- A column's maximum over the nodes, folded from `-∞` (the word both programs start from). -/
def colmax (h : Fin 10000 → Fin 16 → EReal) (q : Fin 16) : EReal :=
  (Finset.univ : Finset (Fin 10000)).fold max (Ideal.ofBits .f32 0xFF800000#32) (fun p => h p q)

/-- The kernel's spelling of the log-softmax down a column. -/
def lsmK (h : Fin 10000 → Fin 16 → EReal) (p : Fin 10000) (q : Fin 16) : EReal :=
  h p q - (Ideal.log (∑ p' : Fin 10000, Ideal.exp (h p' q - colmax h q)) + colmax h q)

/-- The reference's spelling of the log-softmax down a column. -/
def lsmR (h : Fin 10000 → Fin 16 → EReal) (p : Fin 10000) (q : Fin 16) : EReal :=
  (h p q - colmax h q) - Ideal.log (∑ p' : Fin 10000, Ideal.exp (h p' q - colmax h q))

/-- The whole network in the kernel's spelling, as an array. -/
def outK (A : SA.Idx → EReal) (X : SX.Idx → EReal) (W1 : SW1.Idx → EReal) (b1 : SB.Idx → EReal) (W2 : SW2.Idx → EReal)
    (b2 : SB.Idx → EReal) : SO.Idx → EReal :=
  fun i => lsmK (h2 A X W1 b1 W2 b2) (i 0) (i 1)

/-- The whole network in the reference's spelling, as an array. -/
def outR (A : SA.Idx → EReal) (X : SX.Idx → EReal) (W1 : SW1.Idx → EReal) (b1 : SB.Idx → EReal) (W2 : SW2.Idx → EReal)
    (b2 : SB.Idx → EReal) : SO.Idx → EReal :=
  fun i => lsmR (h2 A X W1 b1 W2 b2) (i 0) (i 1)

/-- An array all of whose entries are real numbers. -/
def AllReal {S : Shape} (x : S.Idx → EReal) : Prop := ∀ i, ∃ r : ℝ, x i = (r : EReal)

/-- The word the column maximum is folded from is `-∞`. -/
theorem negInf_eq_bot : Ideal.ofBits .f32 0xFF800000#32 = (⊥ : EReal) := by
  simp [Ideal.ofBits, Ideal.ieee]

/-- A finite sum of real numbers, read in the extended reals, is the real sum. -/
theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A maximum of real numbers folded from `-∞` is `-∞` or a real number. -/
theorem fold_max_coe {ι : Type} (s : Finset ι) (f : ι → ℝ) :
    s.fold max (⊥ : EReal) (fun i => ((f i : ℝ) : EReal)) = ⊥ ∨
      ∃ r : ℝ, s.fold max (⊥ : EReal) (fun i => ((f i : ℝ) : EReal)) = (r : EReal) := by
  classical
  induction s using Finset.induction_on with
  | empty => left; simp
  | insert a s ha ih =>
    right
    rw [Finset.fold_insert ha]
    rcases ih with h | ⟨r, h⟩
    · exact ⟨f a, by rw [h]; exact max_bot_right _⟩
    · exact ⟨max (f a) r, by rw [h]; exact (EReal.coe_strictMono.monotone.map_max).symm⟩

/-- The column maximum of a table of real numbers is a real number. -/
theorem colmax_real (f : Fin 10000 → Fin 16 → ℝ) (q : Fin 16) :
    ∃ m : ℝ, colmax (fun p q => ((f p q : ℝ) : EReal)) q = (m : EReal) := by
  unfold colmax
  rw [negInf_eq_bot]
  rcases fold_max_coe (Finset.univ : Finset (Fin 10000)) (fun p => f p q) with h | h
  · exfalso
    have hle : ((f 0 q : ℝ) : EReal) ≤
        (Finset.univ : Finset (Fin 10000)).fold max (⊥ : EReal) (fun p => ((f p q : ℝ) : EReal)) :=
      (Finset.le_fold_max _).mpr (Or.inr ⟨0, Finset.mem_univ _, le_refl _⟩)
    rw [h] at hle
    exact absurd hle (not_le.mpr (EReal.bot_lt_coe _))
  · exact h

/-- Subtracting `L + m` is subtracting `m` and then `L`, for real `a`, `m` and any extended real `L`. -/
theorem sub_add_real (a m : ℝ) (L : EReal) :
    (a : EReal) - (L + (m : EReal)) = ((a : EReal) - (m : EReal)) - L := by
  induction L using EReal.rec with
  | bot => simp [← EReal.coe_sub]
  | top => simp [← EReal.coe_sub]
  | coe l => rw [← EReal.coe_add, ← EReal.coe_sub, ← EReal.coe_sub, ← EReal.coe_sub]; congr 1; ring

/-- On a table of real numbers the two spellings of the log-softmax agree. -/
theorem lsmK_eq_lsmR (h : Fin 10000 → Fin 16 → EReal) (hfin : ∀ p q, ∃ r : ℝ, h p q = (r : EReal)) (p : Fin 10000) (q : Fin 16) :
    lsmK h p q = lsmR h p q := by
  choose f hf using hfin
  obtain rfl : h = fun p q => ((f p q : ℝ) : EReal) := by funext p q; exact hf p q
  obtain ⟨m, hm⟩ := colmax_real f q
  unfold lsmK lsmR
  rw [hm]
  exact sub_add_real _ _ _

/-- Finite inputs give a finite output layer. -/
theorem h2_real (A : SA.Idx → EReal) (X : SX.Idx → EReal) (W1 : SW1.Idx → EReal) (b1 : SB.Idx → EReal) (W2 : SW2.Idx → EReal)
    (b2 : SB.Idx → EReal) (hA : AllReal A) (hX : AllReal X) (hW1 : AllReal W1) (hb1 : AllReal b1) (hW2 : AllReal W2) (hb2 : AllReal b2)
    (p : Fin 10000) (q : Fin 16) : ∃ r : ℝ, h2 A X W1 b1 W2 b2 p q = (r : EReal) := by
  choose a ha using hA
  choose x hx using hX
  choose w1 hw1 using hW1
  choose c1 hc1 using hb1
  choose w2 hw2 using hW2
  choose c2 hc2 using hb2
  have e1 : ∀ p q, s1 X W1 p q = ((∑ k : Fin 128, x (ix2 p k) * w1 (ix2 k q) : ℝ) : EReal) := by
    intro p q
    unfold s1
    rw [← sum_coe]
    exact Finset.sum_congr rfl fun k _ => by rw [hx, hw1, EReal.coe_mul]
  have e2 : ∀ p q, h1 A X W1 b1 p q =
      ((max ((∑ k : Fin 10000, a (ix2 p k) * (∑ j : Fin 128, x (ix2 k j) * w1 (ix2 j q))) + c1 (ix1 q)) 0 : ℝ) : EReal) := by
    intro p q
    unfold h1
    have hs : (∑ k : Fin 10000, A (ix2 p k) * s1 X W1 k q) =
        ∑ k : Fin 10000, ((a (ix2 p k) * (∑ j : Fin 128, x (ix2 k j) * w1 (ix2 j q)) : ℝ) : EReal) :=
      Finset.sum_congr rfl fun k _ => by rw [ha, e1, EReal.coe_mul]
    rw [hs, sum_coe, hc1, Ideal.ofBits_zero_f32, EReal.coe_strictMono.monotone.map_max, EReal.coe_add, EReal.coe_zero]
  have e2' : ∀ p q, ∃ r : ℝ, h1 A X W1 b1 p q = (r : EReal) := fun p q => ⟨_, e2 p q⟩
  choose u hu using e2'
  have ht : ∀ p q, s2 A X W1 b1 W2 p q = ((∑ k : Fin 16, u p k * w2 (ix2 k q) : ℝ) : EReal) := by
    intro p q
    unfold s2
    rw [← sum_coe]
    exact Finset.sum_congr rfl fun k _ => by rw [hu, hw2, EReal.coe_mul]
  unfold h2
  refine ⟨(∑ k : Fin 10000, a (ix2 p k) * (∑ j : Fin 16, u k j * w2 (ix2 j q))) + c2 (ix1 q), ?_⟩
  have es : (∑ k : Fin 10000, A (ix2 p k) * s2 A X W1 b1 W2 k q) =
      ∑ k : Fin 10000, ((a (ix2 p k) * (∑ j : Fin 16, u k j * w2 (ix2 j q)) : ℝ) : EReal) :=
    Finset.sum_congr rfl fun k _ => by rw [ha, ht, EReal.coe_mul]
  rw [es, sum_coe, hc2, EReal.coe_add]

/-- On finite inputs the kernel's and the reference's spellings of the network are one array. -/
theorem outK_eq_outR (A : SA.Idx → EReal) (X : SX.Idx → EReal) (W1 : SW1.Idx → EReal) (b1 : SB.Idx → EReal) (W2 : SW2.Idx → EReal)
    (b2 : SB.Idx → EReal) (hA : AllReal A) (hX : AllReal X) (hW1 : AllReal W1) (hb1 : AllReal b1) (hW2 : AllReal W2) (hb2 : AllReal b2) :
    outK A X W1 b1 W2 b2 = outR A X W1 b1 W2 b2 :=
  funext fun i => lsmK_eq_lsmR _ (h2_real A X W1 b1 W2 b2 hA hX hW1 hb1 hW2 hb2) (i 0) (i 1)

end GcnSpec

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.KValue.lean ====
/-
  The kernel bodies' arithmetic read at an index, at the ideal values.

  Each stored block of the first kernel is a plain matrix product (into a zero accumulator), possibly followed by a
  bias row, the positive part and a second product; the second kernel's block is the log-softmax down each column.
  Here each payload at `(r, q)` is written as the sums of the specification.
-/
import proofs.«137190_g652835029062_cont_sun_m_363_3_alg».proof.Proof.Gen.KernelIdeal.Skeleton
import proofs.«137190_g652835029062_cont_sun_m_363_3_alg».proof.Proof.Spec
import proofs.«137190_g652835029062_cont_sun_m_363_3_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KValue

open Idealize.ShloMosaic Idealize.ShloMosaic.ValueIdx
open Cert.KernelIdeal Cert.KernelIdeal.Gen

/-- Each product of the first kernel contracts the left operand's columns against the right operand's rows. -/
theorem dot1_plain : dot_S200x128_S128x16_S200x16_1_0_0_1_n_n = DotDims.plain 200 128 16 := rfl
theorem dot2_plain : dot_S200x10000_S10000x16_S200x16_1_0_0_1_n_n = DotDims.plain 200 10000 16 := rfl
theorem dot3_plain : dot_S200x16_S16x16_S200x16_1_0_0_1_n_n = DotDims.plain 200 16 16 := rfl

/-- The first phase's block: rows of the features times `W1`. -/
theorem pay1_apply (x : Vec Ideal S200x128 .f32) (w : Vec Ideal S128x16 .f32) (r : Fin 200) (q : Fin 16) :
    k0_pay1 (F := Ideal) x w (ix2 r q) = ∑ k : Fin 128, x (ix2 r k) * w (ix2 k q) := by
  show shapeCast S200x16 (matmul (F := Ideal) dot_S200x128_S128x16_S200x16_1_0_0_1_n_n none x w (constant (F := Ideal) S200x16 .f32 0x00000000#32))
      shapeCasts_S200x16_S200x16 (ix2 r q) = _
  refine (congrFun (shapeCast_self _ _) (ix2 r q)).trans ?_
  exact RowOps.matmul_plain_apply _ dot1_plain none x w r q

/-- The third phase's block: adjacency rows times `s`, plus the bias row. -/
theorem pay3_apply (a : Vec Ideal S200x10000 .f32) (s : Vec Ideal S10000x16 .f32) (b : Vec Ideal S1x16 .f32) (r : Fin 200) (q : Fin 16) :
    k0_pay3 (F := Ideal) a s b (ix2 r q) = (∑ j : Fin 10000, a (ix2 r j) * s (ix2 j q)) + b (ix2 (0 : Fin 1) q) := by
  show matmul (F := Ideal) dot_S200x10000_S10000x16_S200x16_1_0_0_1_n_n none a s (constant (F := Ideal) S200x16 .f32 0x00000000#32) (ix2 r q)
      + broadcastTo S200x16 (shapeCast S1x16 b shapeCasts_S1x16_S1x16) broadcasts_S1x16_S200x16 (ix2 r q) = _
  refine congrArg₂ (· + ·) (RowOps.matmul_plain_apply _ dot2_plain none a s r q) ?_
  refine (broadcastTo_1b_ab_apply _ _ r q).trans ?_
  exact congrFun (shapeCast_self b _) (ix2 (0 : Fin 1) q)

/-- The second phase's block: the positive part of (adjacency rows times `s`, plus the bias row), times `W2`. -/
theorem pay2_apply (a : Vec Ideal S200x10000 .f32) (s : Vec Ideal S10000x16 .f32) (b : Vec Ideal S1x16 .f32) (w2 : Vec Ideal S16x16 .f32)
    (r : Fin 200) (q : Fin 16) :
    k0_pay2 (F := Ideal) a s b w2 (ix2 r q)
      = ∑ k : Fin 16, max ((∑ j : Fin 10000, a (ix2 r j) * s (ix2 j k)) + b (ix2 (0 : Fin 1) k)) (Ideal.ofBits .f32 0x00000000#32) * w2 (ix2 k q) := by
  show shapeCast S200x16 (matmul (F := Ideal) dot_S200x16_S16x16_S200x16_1_0_0_1_n_n none
        (maximumf (k0_pay3 (F := Ideal) a s b) (broadcast S200x16 (Scalar.ofBits (F := Ideal) .f32 0x00000000#32)))
        w2 (constant (F := Ideal) S200x16 .f32 0x00000000#32)) shapeCasts_S200x16_S200x16 (ix2 r q) = _
  refine (congrFun (shapeCast_self _ _) (ix2 r q)).trans ?_
  refine (RowOps.matmul_plain_apply _ dot3_plain none _ w2 r q).trans ?_
  refine Finset.sum_congr rfl fun k _ => ?_
  exact congrArg (fun t => max t (Ideal.ofBits .f32 0x00000000#32) * w2 (ix2 k q)) (pay3_apply a s b r k)

/-- Putting the row coordinate back into a column index gives the entry's index. -/
theorem lift_col (hr : S10000x16.Reduces [0] S16) (q : Fin 16) (k : Fin (S10000x16.size 0)) :
    hr.lift (ix1 q) k = ix2 (⟨k.val, k.isLt⟩ : Fin 10000) q := by
  funext a; apply Fin.ext
  fin_cases a <;> rfl

/-- The maximum down the rows, at a column: the fold of `max` from `-∞` over the column. -/
theorem colmax_kernel (v : FVec Ideal S10000x16 .f32) (hφ : FKind.Formats .f32)
    (hacc : (0xFF800000#32 : BitVec FTy.f32.bits) = FKind.maximumf.neutral .f32 hφ) (q : Fin 16) :
    multiReduction (F := Ideal) .maximumf [0] S16 v 0xFF800000#32 reduces_S10000x16_S16 hφ hacc (ix1 q)
      = GcnSpec.colmax (fun p q' => v (ix2 p q')) q := by
  refine (Ideal.multiReduction_maximumf_single v _ reduces_S10000x16_S16 hφ hacc (ix1 q)).trans ?_
  have hf : (v ∘ reduces_S10000x16_S16.lift (ix1 q)) = fun k : Fin 10000 => v (ix2 k q) :=
    funext fun k => congrArg v (lift_col _ q k)
  exact congrArg (fun f => Finset.fold max (Ideal.ofBits .f32 0xFF800000#32) f (Finset.univ : Finset (Fin 10000))) hf

/-- The sum down the rows, at a column. -/
theorem colsum_kernel (v : FVec Ideal S10000x16 .f32) (hφ : FKind.Formats .f32)
    (hacc : (0x00000000#32 : BitVec FTy.f32.bits) = FKind.add.neutral .f32 hφ) (q : Fin 16) :
    multiReduction (F := Ideal) .add [0] S16 v 0x00000000#32 reduces_S10000x16_S16 hφ hacc (ix1 q)
      = ∑ p : Fin 10000, v (ix2 p q) := by
  refine (Ideal.multiReduction_add_single v _ reduces_S10000x16_S16 hφ hacc (ix1 q)).trans ?_
  exact Finset.sum_congr rfl fun k _ => congrArg v (lift_col _ q k)

/-- Differences, sums, exponentials and logarithms of arrays are taken entry by entry. -/
theorem subf_at {s : Shape} (x y : FVec Ideal s .f32) (i : s.Idx) : subf x y i = x i - y i := rfl
theorem addf_at {s : Shape} (x y : FVec Ideal s .f32) (i : s.Idx) : addf x y i = x i + y i := rfl
theorem exp_at {s : Shape} (x : FVec Ideal s .f32) (i : s.Idx) : exp x i = Ideal.exp (x i) := rfl
theorem log_at {s : Shape} (x : FVec Ideal s .f32) (i : s.Idx) : log x i = Ideal.log (x i) := rfl

/-- The second kernel's block: the kernel's spelling of the log-softmax down each column of `h`. -/
theorem pay_lsm_apply (h : Vec Ideal S10000x16 .f32) (p : Fin 10000) (q : Fin 16) :
    k1_pay1 (F := Ideal) h (ix2 p q) = GcnSpec.lsmK (fun p' q' => h (ix2 p' q')) p q := by
  have e1 : shapeCast S10000x16 h shapeCasts_S10000x16_S10000x16 = h := shapeCast_self _ _
  unfold k1_pay1
  rw [e1]
  rw [subf_at, broadcastTo_1b_ab_apply, addf_at, log_at, shapeCast_a_1a_apply, shapeCast_a_1a_apply]
  unfold GcnSpec.lsmK
  refine congrArg₂ (fun t m => h (ix2 p q) - (Ideal.log t + m)) ?_ (colmax_kernel h _ _ q)
  refine (colsum_kernel _ _ _ q).trans ?_
  refine Finset.sum_congr rfl fun p' _ => ?_
  refine congrArg (fun m => Ideal.exp (h (ix2 p' q) - m)) ?_
  refine (broadcastTo_1b_ab_apply _ _ p' q).trans ?_
  refine (shapeCast_a_1a_apply _ _ (0 : Fin 1) q).trans ?_
  exact colmax_kernel h _ _ q

end Cert.KernelIdeal.KValue

end
-- ==== Proof.KFinal.lean ====
/-
  What the two regions leave in their result arrays, at the ideal values, as the specification's formulas.

  The first region's result array is written back band by band at the third phase's points; band `k` holds the third
  payload of the adjacency's rows `200k … 200k+199` and `S2`.  At the ideal values `S1` is `X·W1`, `S2` is
  `relu(A·S1 + b1)·W2` and the band is those rows of `A·S2 + b2`; the fifty bands cover the array.
  (The second region's array is read in its own module.)
-/
import proofs.«137190_g652835029062_cont_sun_m_363_3_alg».proof.Proof.Data
import proofs.«137190_g652835029062_cont_sun_m_363_3_alg».proof.Proof.Sched
import proofs.«137190_g652835029062_cont_sun_m_363_3_alg».proof.Proof.KValue
import proofs.«137190_g652835029062_cont_sun_m_363_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KFinal

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The first layer's bias as the region finds it: the one row of the reshaped bias array. -/
def b1of (c : Dev nD) : GcnSpec.SB.Idx → EReal := fun j => V c main_v0 (ix2 (0 : Fin 1) (⟨(j 0).val, (j 0).isLt⟩ : Fin 16))
/-- The second layer's bias likewise. -/
def b2of (c : Dev nD) : GcnSpec.SB.Idx → EReal := fun j => V c main_v1 (ix2 (0 : Fin 1) (⟨(j 0).val, (j 0).isLt⟩ : Fin 16))

/-- The output layer before the softmax, of the arrays the first region finds. -/
def H2arr (c : Dev nD) : Buf (Elt Ideal) ((c : Thread nD τ).loc main_v2) := fun y =>
  GcnSpec.h2 (V c main_arg1) (V c main_arg0) (V c main_arg2) (b1of V c) (V c main_arg4) (b2of V c)
    (⟨(y 0).val, (y 0).isLt⟩ : Fin 10000) (⟨(y 1).val, (y 1).isLt⟩ : Fin 16)

/-! ## The blocks the region reads, as entries of the arrays it finds -/

/-- In the first phase the features' block at point `t` is rows `200·t … 200·t + 199` of the features. -/
theorem xblk_apply (c : Dev nD) (t : Fin cfg0.N) (ht : t.val < 50) (r : Fin 200) (k : Fin 128) (p : Fin 10000)
    (hp : p.val = 200 * t.val + r.val) :
    xblk (F := Ideal) V c t (ix2 r k) = V c main_arg0 (ix2 p k) := by
  have h0 : (cfg0.win 0).index t 0 = t.val := by
    rw [idx0_eq t]; show (if t.val < 50 then t.val else 0) = t.val; rw [if_pos ht]
  have h1 : (cfg0.win 0).index t 1 = 0 := by rw [idx0_eq t]; rfl
  unfold xblk iblk0
  rw [View.read_apply]
  show V c main_arg0 _ = V c main_arg0 _
  congr 1
  funext a
  apply Fin.ext
  match a with
  | ⟨0, _⟩ => show (cfg0.win 0).index t 0 * 200 + 1 * r.val = p.val; rw [h0, hp]; omega
  | ⟨1, _⟩ => show (cfg0.win 0).index t 1 * 128 + 1 * k.val = k.val; rw [h1]; omega

/-- From the second phase on the adjacency's block at point `t` is rows `200·(t mod 50) …` of the adjacency. -/
theorem ablk_apply (c : Dev nD) (t : Fin cfg0.N) (ht : 50 ≤ t.val) (r : Fin 200) (j : Fin 10000) (p : Fin 10000)
    (hp : p.val = 200 * (t.val % 50) + r.val) :
    ablk (F := Ideal) V c t (ix2 r j) = V c main_arg1 (ix2 p j) := by
  have h0 : (cfg0.win 1).index t 0 = t.val % 50 := by
    rw [idx1_eq t]; show (if t.val < 50 then 0 else t.val % 50) = t.val % 50; rw [if_neg (by omega)]
  have h1 : (cfg0.win 1).index t 1 = 0 := by rw [idx1_eq t]; rfl
  unfold ablk iblk0
  rw [View.read_apply]
  show V c main_arg1 _ = V c main_arg1 _
  congr 1
  funext a
  apply Fin.ext
  match a with
  | ⟨0, _⟩ => show (cfg0.win 1).index t 0 * 200 + 1 * r.val = p.val; rw [h0, hp]; omega
  | ⟨1, _⟩ => show (cfg0.win 1).index t 1 * 10000 + 1 * j.val = j.val; rw [h1]; omega

/-- The first layer's weights are one block: the whole array at every point. -/
theorem w1v_apply (c : Dev nD) (t : Fin cfg0.N) (k : Fin 128) (q : Fin 16) :
    w1v (F := Ideal) V c t (ix2 k q) = V c main_arg2 (ix2 k q) := by
  unfold w1v iblk0
  rw [View.read_apply]
  show V c main_arg2 _ = V c main_arg2 _
  congr 1
  funext a
  apply Fin.ext
  match a with
  | ⟨0, _⟩ => show 0 * 128 + 1 * k.val = k.val; omega
  | ⟨1, _⟩ => show 0 * 16 + 1 * q.val = q.val; omega

/-- The first layer's bias row likewise. -/
theorem b1v_apply (c : Dev nD) (t : Fin cfg0.N) (q : Fin 16) :
    b1v (F := Ideal) V c t (ix2 (0 : Fin 1) q) = V c main_v0 (ix2 (0 : Fin 1) q) := by
  unfold b1v iblk0
  rw [View.read_apply]
  show V c main_v0 _ = V c main_v0 _
  congr 1
  funext a
  apply Fin.ext
  match a with
  | ⟨0, _⟩ => show 0 * 1 + 1 * 0 = 0; omega
  | ⟨1, _⟩ => show 0 * 16 + 1 * q.val = q.val; omega

/-- The second layer's weights likewise. -/
theorem w2v_apply (c : Dev nD) (t : Fin cfg0.N) (k : Fin 16) (q : Fin 16) :
    w2v (F := Ideal) V c t (ix2 k q) = V c main_arg4 (ix2 k q) := by
  unfold w2v iblk0
  rw [View.read_apply]
  show V c main_arg4 _ = V c main_arg4 _
  congr 1
  funext a
  apply Fin.ext
  match a with
  | ⟨0, _⟩ => show 0 * 16 + 1 * k.val = k.val; omega
  | ⟨1, _⟩ => show 0 * 16 + 1 * q.val = q.val; omega

/-- The second layer's bias row likewise. -/
theorem b2v_apply (c : Dev nD) (t : Fin cfg0.N) (q : Fin 16) :
    b2v (F := Ideal) V c t (ix2 (0 : Fin 1) q) = V c main_v1 (ix2 (0 : Fin 1) q) := by
  unfold b2v iblk0
  rw [View.read_apply]
  show V c main_v1 _ = V c main_v1 _
  congr 1
  funext a
  apply Fin.ext
  match a with
  | ⟨0, _⟩ => show 0 * 1 + 1 * 0 = 0; omega
  | ⟨1, _⟩ => show 0 * 16 + 1 * q.val = q.val; omega

/-! ## The two scratches and the output band, as the specification's formulas -/

/-- The first scratch is `X·W1`. -/
theorem S1_apply (c : Dev nD) (p : Fin 10000) (q : Fin 16) :
    S1 (F := Ideal) V c (ix2 p q) = GcnSpec.s1 (V c main_arg0) (V c main_arg2) p q := by
  unfold S1 GcnSpec.s1
  refine (KValue.pay1_apply _ _ (⟨p.val % 200, Nat.mod_lt _ (by omega)⟩ : Fin 200) q).trans ?_
  refine Finset.sum_congr rfl fun k _ => ?_
  exact congrArg₂ (· * ·)
    (xblk_apply V c _ (by have := p.isLt; show p.val / 200 < 50; omega) _ k p
      (by show p.val = 200 * (p.val / 200) + p.val % 200; omega))
    (w1v_apply V c t0 k q)

/-- The second scratch is `relu(A·S1 + b1)·W2`. -/
theorem S2_apply (c : Dev nD) (p : Fin 10000) (q : Fin 16) :
    S2 (F := Ideal) V c (ix2 p q)
      = GcnSpec.s2 (V c main_arg1) (V c main_arg0) (V c main_arg2) (b1of V c) (V c main_arg4) p q := by
  unfold S2 GcnSpec.s2 GcnSpec.h1
  refine (KValue.pay2_apply _ _ _ _ (⟨p.val % 200, Nat.mod_lt _ (by omega)⟩ : Fin 200) q).trans ?_
  refine Finset.sum_congr rfl fun k _ => ?_
  have hb : b1v (F := Ideal) V c t0 (ix2 (0 : Fin 1) k) = b1of V c (ix1 k) := b1v_apply V c t0 k
  refine congrArg₂ (· * ·)
    (congrArg (fun u => max u (Ideal.ofBits .f32 0x00000000#32)) (congrArg₂ (· + ·) ?_ hb))
    (w2v_apply V c t0 k q)
  refine Finset.sum_congr rfl fun j _ => ?_
  exact congrArg₂ (· * ·)
    (ablk_apply V c (pt (50 + p.val / 200) (by have := p.isLt; omega)) (by show 50 ≤ 50 + p.val / 200; omega)
      (⟨p.val % 200, Nat.mod_lt _ (by omega)⟩ : Fin 200) j p
      (by have := p.isLt; show p.val = 200 * ((50 + p.val / 200) % 50) + p.val % 200; omega))
    (S1_apply V c j k)

/-- A band of the third phase is the band's rows of `A·S2 + b2`. -/
theorem H2blk_apply (c : Dev nD) (t : Fin cfg0.N) (ht : 100 ≤ t.val) (r : Fin 200) (q : Fin 16) (p : Fin 10000)
    (hp : p.val = 200 * (t.val - 100) + r.val) :
    H2blk (F := Ideal) V c t (ix2 r q)
      = GcnSpec.h2 (V c main_arg1) (V c main_arg0) (V c main_arg2) (b1of V c) (V c main_arg4) (b2of V c) p q := by
  have hN : t.val < 150 := lt_of_lt_of_eq t.isLt N0
  unfold H2blk GcnSpec.h2
  refine (KValue.pay3_apply _ _ _ r q).trans ?_
  have hb : b2v (F := Ideal) V c t (ix2 (0 : Fin 1) q) = b2of V c (ix1 q) := b2v_apply V c t q
  refine congrArg₂ (· + ·) ?_ hb
  refine Finset.sum_congr rfl fun j _ => ?_
  exact congrArg₂ (· * ·) (ablk_apply V c t (by omega) r j p (by rw [hp]; omega)) (S2_apply V c j q)

/-- So a band of the third phase is the band's rows of the output layer, wherever the rows are named in the array. -/
theorem H2blk_arr (c : Dev nD) (t : Fin cfg0.N) (ht : 100 ≤ t.val) (r : Fin 200) (q : Fin 16) (i : S10000x16.Idx)
    (h0 : (i 0).val = 200 * (t.val - 100) + r.val) (h1 : (i 1).val = q.val) :
    H2blk (F := Ideal) V c t (ix2 r q) = H2arr V c i := by
  obtain rfl : q = ⟨(i 1).val, (i 1).isLt⟩ := Fin.ext h1.symm
  exact H2blk_apply V c t ht r _ ⟨(i 0).val, (i 0).isLt⟩ h0

/-! ## From the bands to the array -/

/-- What a point of the third phase writes back is its block of the output layer. -/
theorem flushed6_eq (c : Dev nD) (t : Fin cfg0.N) (hf : (cfg0.win 6).flush t = true) :
    (dat0 (F := Ideal) V c).flushed 6 t = ((cfg0.win 6).blk t).view.read (Elt Ideal) (H2arr V c) := by
  have ht : 100 ≤ t.val := (flush6_iff t).mp hf
  have e0 : (cfg0.win 6).index t 0 = t.val - 100 := by
    rw [idx6_eq t]; show (if 100 ≤ t.val then t.val - 100 else 0) = t.val - 100; rw [if_pos ht]
  have e1 : (cfg0.win 6).index t 1 = 0 := by rw [idx6_eq t]; rfl
  funext y
  rw [View.read_apply]
  have hl : (dat0 (F := Ideal) V c).flushed 6 t y
      = H2blk (F := Ideal) V c t (ix2 (⟨(y 0).val, (y 0).isLt⟩ : Fin 200) (⟨(y 1).val, (y 1).isLt⟩ : Fin 16)) := by
    show (dat0 (F := Ideal) V c).after 6 t _ = _
    rw [after0_6]
    exact congrArg (H2blk (F := Ideal) V c t) (funext fun a => by
      match a with
      | ⟨0, _⟩ => rfl
      | ⟨1, _⟩ => rfl)
  refine hl.trans ?_
  refine H2blk_arr V c t ht _ _ _ ?_ ?_
  · show (cfg0.win 6).index t 0 * 200 + 1 * (y 0).val = 200 * (t.val - 100) + (y 0).val
    rw [e0]; omega
  · show (cfg0.win 6).index t 1 * 16 + 1 * (y 1).val = (y 1).val
    rw [e1]; omega

/-- Row `ρ` of the array lies in the block of point `100 + ρ / 200`, a point of the third phase. -/
theorem cover6 (i : S10000x16.Idx) :
    ∃ t : Fin cfg0.N, (cfg0.win 6).flush t = true ∧ i ∈ ((cfg0.win 6).blk t).view.set := by
  have hi0 : (i 0).val < 10000 := (i 0).isLt
  have hi1 : (i 1).val < 16 := (i 1).isLt
  obtain ⟨t, htv⟩ : ∃ t : Fin cfg0.N, t.val = 100 + (i 0).val / 200 := ⟨pt (100 + (i 0).val / 200) (by omega), rfl⟩
  have ht : 100 ≤ t.val := by omega
  have e0 : (cfg0.win 6).index t 0 = (i 0).val / 200 := by
    rw [idx6_eq t]; show (if 100 ≤ t.val then t.val - 100 else 0) = (i 0).val / 200; rw [if_pos ht]; omega
  have e1 : (cfg0.win 6).index t 1 = 0 := by rw [idx6_eq t]; rfl
  refine ⟨t, (flush6_iff t).mpr ht, ?_⟩
  show i ∈ ((View.whole main_v2).slice ((cfg0.win 6).rect t)).set
  rw [View.set_slice_whole, Rect.mem_set_unit]
  intro a
  match a with
  | ⟨0, _⟩ =>
    show (cfg0.win 6).index t 0 * 200 ≤ (i 0).val ∧ (i 0).val < (cfg0.win 6).index t 0 * 200 + 200
    rw [e0]; omega
  | ⟨1, _⟩ =>
    show (cfg0.win 6).index t 1 * 16 ≤ (i 1).val ∧ (i 1).val < (cfg0.win 6).index t 1 * 16 + 16
    rw [e1]; omega

/-- After its 150 points the first region's result array holds the output layer. -/
theorem arr6_final (c : Dev nD) : (dat0 (F := Ideal) V c).arrAt 6 cfg0.N = H2arr V c :=
  (dat0 (F := Ideal) V c).arrAt_eq_of_cover 6 (H2arr V c) (fun t hf => flushed6_eq V c t hf) cover6

end Cert.KernelIdeal.KFinal

end
-- ==== Proof.KOut.lean ====
/-
  What the second region leaves in its result array, at the ideal values: it is written back once, whole, and holds
  the kernel's spelling of the log-softmax, down each column, of the region's input array.
-/
import proofs.«137190_g652835029062_cont_sun_m_363_3_alg».proof.Proof.Data
import proofs.«137190_g652835029062_cont_sun_m_363_3_alg».proof.Proof.Sched
import proofs.«137190_g652835029062_cont_sun_m_363_3_alg».proof.Proof.KValue
import proofs.«137190_g652835029062_cont_sun_m_363_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KOut

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The input window's block is the whole input array: its element at (p, q) is the array's, since the block sits at
    block index 0 and an element's coordinate in the array is 0 × the extent + 1 × its coordinate in the block. -/
theorem in_block_apply (c : Dev nD) (t : Fin cfg1.N) (p : Fin 10000) (q : Fin 16) :
    iblk1 (F := Ideal) V c 0 t (ix2 p q) = V c main_v2 (ix2 p q) := by
  show V c main_v2 (((cfg1.win 0).blk t).view.emb (ix2 p q)) = V c main_v2 (ix2 p q)
  refine congrArg (V c main_v2) ?_
  funext a; apply Fin.ext
  match a with
  | ⟨0, _⟩ => show 0 * 10000 + 1 * p.val = p.val; omega
  | ⟨1, _⟩ => show 0 * 16 + 1 * q.val = q.val; omega

/-- What the one point writes back, at (p, q): the block is not cut, so it is the body's payload of the input block,
    which is the kernel's log-softmax of the input array. -/
theorem flushed_apply (c : Dev nD) (t : Fin cfg1.N) (p : Fin 10000) (q : Fin 16) :
    (dat1 (F := Ideal) V c).flushed 1 t (ix2 p q) = GcnSpec.lsmK (fun p q => V c main_v2 (ix2 p q)) p q := by
  show (dat1 (F := Ideal) V c).after 1 t (ix2 p q) = _
  refine (congrFun (after1_1 V c t) (ix2 p q)).trans ?_
  refine (KValue.pay_lsm_apply _ p q).trans ?_
  exact congrArg (fun h => GcnSpec.lsmK h p q) (funext fun p' => funext fun q' => in_block_apply V c t p' q')

/-- An array given as a function of its two coordinates, read through the output window's one block at (p, q), is
    that function at (p, q): the block is the whole array at block index 0. -/
theorem read_block_apply (c : Dev nD) (t : Fin cfg1.N) (g : Fin 10000 → Fin 16 → EReal) (p : Fin 10000) (q : Fin 16) :
    ((cfg1.win 1).blk t).view.read (Elt Ideal)
        (fun y => g (⟨(y 0).val, (y 0).isLt⟩ : Fin 10000) (⟨(y 1).val, (y 1).isLt⟩ : Fin 16)) (ix2 p q) = g p q := by
  show g ⟨((((cfg1.win 1).blk t).view.emb (ix2 p q)) 0).val, _⟩ ⟨((((cfg1.win 1).blk t).view.emb (ix2 p q)) 1).val, _⟩ = g p q
  refine congrArg₂ g (Fin.ext ?_) (Fin.ext ?_)
  · show 0 * 10000 + 1 * p.val = p.val; omega
  · show 0 * 16 + 1 * q.val = q.val; omega

/-- What the one point writes back is the kernel's log-softmax of the input array, read through the point's block. -/
theorem flushed_eq (c : Dev nD) (t : Fin cfg1.N) :
    (dat1 (F := Ideal) V c).flushed 1 t
      = ((cfg1.win 1).blk t).view.read (Elt Ideal)
          (fun y => GcnSpec.lsmK (fun p q => V c main_v2 (ix2 p q)) (⟨(y 0).val, (y 0).isLt⟩ : Fin 10000) (⟨(y 1).val, (y 1).isLt⟩ : Fin 16)) := by
  funext j
  have hj : j = ix2 (⟨(j 0).val, (j 0).isLt⟩ : Fin 10000) (⟨(j 1).val, (j 1).isLt⟩ : Fin 16) := by
    funext a
    match a with
    | ⟨0, _⟩ => rfl
    | ⟨1, _⟩ => rfl
  rw [hj]
  exact (flushed_apply V c t _ _).trans (read_block_apply c t (GcnSpec.lsmK (fun p q => V c main_v2 (ix2 p q))) _ _).symm

/-- The one point's block holds every index of the result array: on each axis it runs from 0 over the whole extent. -/
theorem covered (c : Dev nD) (i : ((cfg1.win 1).arr.view.loc (c.tc : Thread nD τ)).2.ty.Idx) :
    ∃ t : Fin cfg1.N, (cfg1.win 1).flush t = true ∧ i ∈ ((cfg1.win 1).blk t).view.set := by
  refine ⟨t1_0, flush1_1 t1_0, ?_⟩
  show i ∈ ((View.whole main_v3).slice (win1_1.rect t1_0)).set
  rw [View.set_slice_whole, Rect.mem_set_unit]
  intro a
  have h0 : (i 0).val < 10000 := (i 0).isLt
  have h1 : (i 1).val < 16 := (i 1).isLt
  match a with
  | ⟨0, _⟩ => show 0 * 10000 ≤ (i 0).val ∧ (i 0).val < 0 * 10000 + 10000; omega
  | ⟨1, _⟩ => show 0 * 16 ≤ (i 1).val ∧ (i 1).val < 0 * 16 + 16; omega

/-- After its one point the second region's result array holds the kernel's log-softmax of its input array. -/
theorem out_final (c : Dev nD) :
    (dat1 (F := Ideal) V c).arrAt 1 cfg1.N
      = fun y => GcnSpec.lsmK (fun p q => V c main_v2 (ix2 p q)) (⟨(y 0).val, (y 0).isLt⟩ : Fin 10000) (⟨(y 1).val, (y 1).isLt⟩ : Fin 16) :=
  (dat1 (F := Ideal) V c).arrAt_eq_of_cover 1 _ (fun t _ => flushed_eq V c t) (covered c)

end Cert.KernelIdeal.KOut

end
-- ==== Proof.KGlue.lean ====
/-
  The kernel program's result buffer at the ideal values, as the specification's array in the kernel's spelling.

  The first region finds the arguments as launched and the two biases as the one-row reshapes of theirs; the second
  region's input array is the first region's result array.  So the result buffer holds the log-softmax (kernel's
  spelling) of the output layer of the arguments.
-/
import proofs.«137190_g652835029062_cont_sun_m_363_3_alg».proof.Proof.Launch
import proofs.«137190_g652835029062_cont_sun_m_363_3_alg».proof.Proof.KFinal
import proofs.«137190_g652835029062_cont_sun_m_363_3_alg».proof.Proof.KOut
import proofs.«137190_g652835029062_cont_sun_m_363_3_alg».proof.Proof.Spec
import Idealize.ShloMosaic.Lib.StableHlo.Run
import Idealize.ShloMosaic.Lib.ValueLayout
import Idealize.ShloMosaic.Lib.Pipeline.Value

set_option maxRecDepth 16384

noncomputable section

open scoped BigOperators

namespace Cert.KernelIdeal.KGlue

open Idealize.ShloMosaic Idealize.ShloMosaic.TcCoe Idealize.ShloMosaic.ValueIdx Idealize.ShloMosaic.StableHlo
open Idealize.ShloMosaic.Pipeline (Dat Cfg Window)
open Cert.KernelIdeal Cert.KernelIdeal.Gen Cert.KernelIdeal.Hand Cert.KernelIdeal.KFinal Cert.KernelIdeal.KOut

variable (m : (ℓ : Loc nD τ sig) → Buf (Elt Ideal) ℓ)

/-- The first region finds each argument it reads as launched. -/
theorem E1_arg0 (c : Dev nD) : E1 m c main_arg0 = m ((c : Thread nD τ).loc main_arg0) := W1_of m c main_arg0 (by decide)
theorem E1_arg1 (c : Dev nD) : E1 m c main_arg1 = m ((c : Thread nD τ).loc main_arg1) := W1_of m c main_arg1 (by decide)
theorem E1_arg2 (c : Dev nD) : E1 m c main_arg2 = m ((c : Thread nD τ).loc main_arg2) := W1_of m c main_arg2 (by decide)
theorem E1_arg4 (c : Dev nD) : E1 m c main_arg4 = m ((c : Thread nD τ).loc main_arg4) := W1_of m c main_arg4 (by decide)

/-- The reshaped first bias is the bias cast to one row. -/
theorem E1_v0 (c : Dev nD) :
    (E1 m c main_v0 : S1x16.Idx → EReal) = shapeCast S1x16 (m ((c : Thread nD τ).loc main_arg3)) shapeCasts_S16_S1x16 := by
  show StableHlo.after hostOps0 (W0 m c) (Proc.devRef .tc main_v0) = _
  after_results
  rfl

/-- The reshaped second bias likewise. -/
theorem E1_v1 (c : Dev nD) :
    (E1 m c main_v1 : S1x16.Idx → EReal) = shapeCast S1x16 (m ((c : Thread nD τ).loc main_arg5)) shapeCasts_S16_S1x16 := by
  show StableHlo.after hostOps0 (W0 m c) (Proc.devRef .tc main_v1) = _
  after_results
  rfl

theorem b1of_eq (c : Dev nD) : b1of (E1 m) c = m ((c : Thread nD τ).loc main_arg3) := by
  funext j
  obtain ⟨q, rfl⟩ : ∃ q : Fin 16, j = ix1 q := ⟨j 0, eq_ix1 j⟩
  unfold b1of
  rw [E1_v0]
  show shapeCast S1x16 (m ((c : Thread nD τ).loc main_arg3)) shapeCasts_S16_S1x16 (ix2 (0 : Fin 1) q) = _
  exact shapeCast_a_1a_apply _ _ 0 q

theorem b2of_eq (c : Dev nD) : b2of (E1 m) c = m ((c : Thread nD τ).loc main_arg5) := by
  funext j
  obtain ⟨q, rfl⟩ : ∃ q : Fin 16, j = ix1 q := ⟨j 0, eq_ix1 j⟩
  unfold b2of
  rw [E1_v1]
  show shapeCast S1x16 (m ((c : Thread nD τ).loc main_arg5)) shapeCasts_S16_S1x16 (ix2 (0 : Fin 1) q) = _
  exact shapeCast_a_1a_apply _ _ 0 q

/-- The kernel program's result buffer is the specification's array in the kernel's spelling. -/
theorem result_eq (c : Dev nD) :
    (dat1 (F := Ideal) (E2 m) c).arrAt 1 cfg1.N
      = GcnSpec.outK (m ((c : Thread nD τ).loc main_arg1)) (m ((c : Thread nD τ).loc main_arg0)) (m ((c : Thread nD τ).loc main_arg2))
          (m ((c : Thread nD τ).loc main_arg3)) (m ((c : Thread nD τ).loc main_arg4)) (m ((c : Thread nD τ).loc main_arg5)) := by
  rw [out_final (E2 m) c]
  funext y
  unfold GcnSpec.outK
  have hH : (fun (p : Fin 10000) (q : Fin 16) => E2 m c main_v2 (ix2 p q))
      = GcnSpec.h2 (m ((c : Thread nD τ).loc main_arg1)) (m ((c : Thread nD τ).loc main_arg0)) (m ((c : Thread nD τ).loc main_arg2))
          (m ((c : Thread nD τ).loc main_arg3)) (m ((c : Thread nD τ).loc main_arg4)) (m ((c : Thread nD τ).loc main_arg5)) := by
    funext p q
    rw [E2_main_v2, arr6_final (E1 m) c]
    unfold H2arr
    rw [b1of_eq, b2of_eq, E1_arg0, E1_arg1, E1_arg2, E1_arg4]
    rfl
  rw [hH]
  rfl

end Cert.KernelIdeal.KGlue

end
-- ==== Proof.RefValue.lean ====
/-
  The reference program's result, read at the ideal values, is the specification's array in the reference's
  spelling: two dense layers over the dense adjacency with the positive part between them, transposed, the
  log-softmax along the nodes, transposed back.
-/
import proofs.«137190_g652835029062_cont_sun_m_363_3_alg».proof.Proof.RefRunP
import proofs.«137190_g652835029062_cont_sun_m_363_3_alg».proof.Proof.Spec
import proofs.«137190_g652835029062_cont_sun_m_363_3_alg».proof.Proof.LibRowOps
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen

/-! ## The reference's term, named piece by piece -/

section Terms
variable {F : FTy → Type} [FloatOps F]

/-- The hidden layer as the reference spells it: the adjacency times the first support, plus the bias broadcast
    down the rows, against a splat of the zero word. -/
def h1arr (A : FVec F S10000x10000 .f32) (X : FVec F S10000x128 .f32) (W1 : FVec F S128x16 .f32) (b1 : FVec F S16 .f32) :
    FVec F S10000x16 .f32 :=
  maximumf (addf (Host.dotGeneral dot_S10000x10000_S10000x16_S10000x16_1_0_0_1_n_n none A
      (Host.dotGeneral dot_S10000x128_S128x16_S10000x16_1_0_0_1_n_n none X W1))
    (broadcastInDim S10000x16 ![0, 1] bcast_S1x16_S10000x16_0_1 (broadcastInDim S1x16 ![1] bcast_S16_S1x16_1 b1)))
    (broadcastInDim S10000x16 ![] bcast_S_S10000x16 (constant S_ .f32 0x00000000#32))

/-- The output layer before the softmax as the reference spells it. -/
def h2arr (A : FVec F S10000x10000 .f32) (X : FVec F S10000x128 .f32) (W1 : FVec F S128x16 .f32) (b1 : FVec F S16 .f32)
    (W2 : FVec F S16x16 .f32) (b2 : FVec F S16 .f32) : FVec F S10000x16 .f32 :=
  addf (Host.dotGeneral dot_S10000x10000_S10000x16_S10000x16_1_0_0_1_n_n none A
      (Host.dotGeneral dot_S10000x16_S16x16_S10000x16_1_0_0_1_n_n none (h1arr A X W1 b1) W2))
    (broadcastInDim S10000x16 ![0, 1] bcast_S1x16_S10000x16_0_1 (broadcastInDim S1x16 ![1] bcast_S16_S1x16_1 b2))

/-- Each row's maximum (a row of the transposed array is a column of the layer), broadcast back along the row. -/
def rowMaxArr (T : FVec F S16x10000 .f32) : FVec F S16x10000 .f32 :=
  broadcastInDim S16x10000 ![0, 1] bcast_S16x1_S16x10000_0_1 (broadcastInDim S16x1 ![0] bcast_S16_S16x1_0
    (maximumf (broadcastInDim S16 ![] bcast_S_S16 (constant S_ .f32 0xFF800000#32))
      (Host.reduce FloatOps.maximumf T (constant S_ .f32 0xFF800000#32) reducesTo_S16x10000_S16_d1 h_S_)))

/-- The log-softmax along each row of the transposed array, as the reference spells it. -/
def lsmArr (T : FVec F S16x10000 .f32) : FVec F S16x10000 .f32 :=
  subf (subf T (rowMaxArr T))
    (broadcastInDim S16x10000 ![0, 1] bcast_S16x1_S16x10000_0_1 (Host.log (broadcastInDim S16x1 ![0] bcast_S16_S16x1_0
      (Host.reduceAdd (Host.exp (subf T (rowMaxArr T))) (constant S_ .f32 0x00000000#32) reducesTo_S16x10000_S16_d1 h_S_))))

/-- Transpose, log-softmax along the rows, transpose back. -/
def outArr (H : FVec F S10000x16 .f32) : FVec F S10000x16 .f32 :=
  transpose S10000x16 [1, 0] (lsmArr (transpose S16x10000 [1, 0] H transposes_S10000x16_S16x10000_1_0))
    transposes_S16x10000_S10000x16_1_0

/-- The run's composed term is these pieces put together (the same term, its repeated sub-terms named). -/
theorem res_split (m : (ℓ : Loc nD τ sig) → Buf (Elt F) ℓ) (c : Dev nD) :
    Cert.ReferenceIdeal.ValueP.res_main_v13 (F := F) m c
      = outArr (h2arr (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))) := rfl

end Terms

/-! ## The two dense layers, read at an index -/

section Dense
variable (A : FVec Ideal S10000x10000 .f32) (X : FVec Ideal S10000x128 .f32) (W1 : FVec Ideal S128x16 .f32)
  (b1 : FVec Ideal S16 .f32) (W2 : FVec Ideal S16x16 .f32) (b2 : FVec Ideal S16 .f32)

/-- The first support: row `p` of the features against column `q` of the first weights. -/
theorem s1_apply (p : Fin 10000) (q : Fin 16) :
    Host.dotGeneral dot_S10000x128_S128x16_S10000x16_1_0_0_1_n_n none X W1 (ix2 p q) = GcnSpec.s1 X W1 p q :=
  RowOps.dotGeneral_plain_apply _ rfl none X W1 p q

/-- The hidden layer at `(p, q)`. -/
theorem h1arr_apply (p : Fin 10000) (q : Fin 16) : h1arr A X W1 b1 (ix2 p q) = GcnSpec.h1 A X W1 b1 p q := by
  unfold h1arr
  refine (RowOps.relu_host_apply _ _ bcast_S_S10000x16 p q).trans ?_
  unfold RowOps.relu GcnSpec.h1
  refine congrArg (fun z : EReal => max z (Ideal.ofBits .f32 0x00000000#32)) ?_
  refine (RowOps.dense_host_apply' _ rfl A _ b1 bcast_S16_S1x16_1 bcast_S1x16_S10000x16_0_1 p q).trans ?_
  unfold RowOps.dense
  refine congrArg (fun z : EReal => z + b1 (ix1 q)) ?_
  exact Finset.sum_congr rfl fun k _ => congrArg (fun z : EReal => A (ix2 p k) * z) (s1_apply X W1 k q)

/-- The second support: row `p` of the hidden layer against column `q` of the second weights. -/
theorem s2_apply (p : Fin 10000) (q : Fin 16) :
    Host.dotGeneral dot_S10000x16_S16x16_S10000x16_1_0_0_1_n_n none (h1arr A X W1 b1) W2 (ix2 p q)
      = GcnSpec.s2 A X W1 b1 W2 p q := by
  refine (RowOps.dotGeneral_plain_apply _ rfl none (h1arr A X W1 b1) W2 p q).trans ?_
  unfold GcnSpec.s2
  exact Finset.sum_congr rfl fun k _ => congrArg (fun z : EReal => z * W2 (ix2 k q)) (h1arr_apply A X W1 b1 p k)

/-- The output layer before the softmax at `(p, q)`. -/
theorem h2arr_apply (p : Fin 10000) (q : Fin 16) :
    h2arr A X W1 b1 W2 b2 (ix2 p q) = GcnSpec.h2 A X W1 b1 W2 b2 p q := by
  unfold h2arr
  refine (RowOps.dense_host_apply' _ rfl A _ b2 bcast_S16_S1x16_1 bcast_S1x16_S10000x16_0_1 p q).trans ?_
  unfold RowOps.dense GcnSpec.h2
  refine congrArg (fun z : EReal => z + b2 (ix1 q)) ?_
  exact Finset.sum_congr rfl fun k _ => congrArg (fun z : EReal => A (ix2 p k) * z) (s2_apply A X W1 b1 W2 k q)

end Dense

/-! ## A column broadcast along the rows, in the host's two steps -/

section ColBcast
variable {R C : ℕ} {α : Type}

/-- One column broadcast along the rows: at `(r, c)` the column's entry in row `r`. -/
theorem bcast_col_apply (w : (⟨2, ![R, 1]⟩ : Shape).Idx → α)
    (h2 : (⟨2, ![R, 1]⟩ : Shape).BroadcastsInDim ⟨2, ![R, C]⟩ ![0, 1]) (r : Fin R) (c : Fin C) :
    broadcastInDim ⟨2, ![R, C]⟩ ![0, 1] h2 w (ix2 r c) = w (ix2 r (0 : Fin 1)) :=
  broadcastInDim_apply ![0, 1] h2 w (ix2 r c) (ix2 r (0 : Fin 1)) (fun a => by
    match a with
    | ⟨0, _⟩ =>
      show r.val = if R = 1 then 0 else r.val
      split
      · have := r.isLt; omega
      · rfl
    | ⟨1, _⟩ => show 0 = if (1 : ℕ) = 1 then 0 else _; rw [if_pos rfl])

/-- A vector stood up as one column: at `(r, 0)` the vector's entry `r`. -/
theorem bcast_toCol_apply (v : (⟨1, ![R]⟩ : Shape).Idx → α)
    (h1 : (⟨1, ![R]⟩ : Shape).BroadcastsInDim ⟨2, ![R, 1]⟩ ![0]) (r : Fin R) :
    broadcastInDim ⟨2, ![R, 1]⟩ ![0] h1 v (ix2 r (0 : Fin 1)) = v (ix1 r) :=
  broadcastInDim_apply ![0] h1 v (ix2 r (0 : Fin 1)) (ix1 r) (fun a => by
    match a with
    | ⟨0, _⟩ =>
      show r.val = if R = 1 then 0 else r.val
      split
      · have := r.isLt; omega
      · rfl)

end ColBcast

/-! ## The log-softmax along the rows of the transposed array, read at an index -/

section Softmax
variable (T : FVec Ideal S16x10000 .f32)

/-- Dropping the second axis of a 16 × 10000 array leaves 16 entries. -/
theorem reduces_rows : S16x10000.Reduces [1] S16 := by decide

/-- The reduced index `q` with the position `k` along the row put back is `(q, k)`. -/
theorem lift_row (h : S16x10000.Reduces [1] S16) (q : Fin 16) (k : Fin (S16x10000.size 1)) :
    h.lift (ix1 q) k = ix2 q (⟨k.val, k.isLt⟩ : Fin 10000) := by
  funext a; apply Fin.ext
  match a with
  | ⟨0, _⟩ => rfl
  | ⟨1, _⟩ => rfl

/-- The maximum with a splat of −∞ changes nothing. -/
theorem max_negInf_apply (Y : FVec Ideal S16 .f32) (q : Fin 16) :
    maximumf (broadcastInDim S16 ![] bcast_S_S16 (constant (F := Ideal) S_ .f32 0xFF800000#32)) Y (ix1 q) = Y (ix1 q) := by
  show max (Ideal.ofBits .f32 0xFF800000#32) (Y (ix1 q)) = Y (ix1 q)
  rw [GcnSpec.negInf_eq_bot]
  exact max_bot_left _

/-- The row maximum at `(q, p)`: the maximum over row `q`, folded from −∞. -/
theorem rowMaxArr_apply (q : Fin 16) (p : Fin 10000) :
    rowMaxArr T (ix2 q p)
      = (Finset.univ : Finset (Fin 10000)).fold max (Ideal.ofBits .f32 0xFF800000#32) (fun k => T (ix2 q k)) := by
  unfold rowMaxArr
  refine (bcast_col_apply _ bcast_S16x1_S16x10000_0_1 q p).trans ?_
  refine (bcast_toCol_apply _ bcast_S16_S16x1_0 q).trans ?_
  refine (max_negInf_apply _ q).trans ?_
  refine (Host.reduce_eq_fold_single FloatOps.maximumf T _ reducesTo_S16x10000_S16_d1 reduces_rows h_S_ (ix1 q)).trans ?_
  have hf : (T ∘ reduces_rows.lift (ix1 q)) = fun k : Fin 10000 => T (ix2 q k) :=
    funext fun k => congrArg T (lift_row reduces_rows q k)
  exact congrArg (fun f => Finset.fold max (Ideal.ofBits .f32 0xFF800000#32) f (Finset.univ : Finset (Fin 10000))) hf

/-- The sum of the exponentials along row `q`, from the zero word. -/
theorem sumExp_apply (E : FVec Ideal S16x10000 .f32) (q : Fin 16) :
    Host.reduceAdd E (constant (F := Ideal) S_ .f32 0x00000000#32) reducesTo_S16x10000_S16_d1 h_S_ (ix1 q)
      = ∑ k : Fin 10000, E (ix2 q k) := by
  refine (hostReduceAdd_apply E _ reducesTo_S16x10000_S16_d1 h_S_ (ix1 q)).trans ?_
  refine (Ideal.hostReduceAdd_single reducesTo_S16x10000_S16_d1 reduces_rows E _ (ix1 q)).trans ?_
  have h0 : (constant (F := Ideal) S_ .f32 0x00000000#32) (Shape.Idx.first h_S_) = (0 : EReal) := Ideal.ofBits_zero_f32
  rw [h0, zero_add]
  exact Finset.sum_congr rfl fun k _ => congrArg E (lift_row reduces_rows q k)

/-- A difference of arrays is the difference entry by entry. -/
theorem subf_apply {s : Shape} (x y : FVec Ideal s .f32) (i : s.Idx) : subf x y i = x i - y i := rfl

/-- The host's logarithm of an array is the logarithm entry by entry. -/
theorem hostLog_apply {s : Shape} (x : FVec Ideal s .f32) (i : s.Idx) : Host.log x i = Ideal.log (x i) := rfl

/-- The host's exponential of an array is the exponential entry by entry. -/
theorem hostExp_apply {s : Shape} (x : FVec Ideal s .f32) (i : s.Idx) : Host.exp x i = Ideal.exp (x i) := rfl

/-- The row maximum at `(q, p)` is the maximum down column `q` of the table `h p q = T (q, p)`. -/
theorem rowMaxArr_colmax (q : Fin 16) (p : Fin 10000) :
    rowMaxArr T (ix2 q p) = GcnSpec.colmax (fun p q => T (ix2 q p)) q :=
  rowMaxArr_apply T q p

/-- The log-softmax along the rows at `(q, p)`, over the table `h p q = T (q, p)`. -/
theorem lsmArr_apply (q : Fin 16) (p : Fin 10000) :
    lsmArr T (ix2 q p) = GcnSpec.lsmR (fun p q => T (ix2 q p)) p q := by
  unfold lsmArr GcnSpec.lsmR
  refine (subf_apply _ _ _).trans ?_
  refine congrArg₂ (fun x y : EReal => x - y) ?_ ?_
  · refine (subf_apply _ _ _).trans ?_
    exact congrArg (fun z : EReal => T (ix2 q p) - z) (rowMaxArr_colmax T q p)
  · refine (bcast_col_apply _ bcast_S16x1_S16x10000_0_1 q p).trans ?_
    refine (hostLog_apply _ _).trans ?_
    refine congrArg Ideal.log ?_
    refine (bcast_toCol_apply _ bcast_S16_S16x1_0 q).trans ?_
    refine (sumExp_apply _ q).trans ?_
    refine Finset.sum_congr rfl fun k _ => ?_
    refine (hostExp_apply _ _).trans ?_
    refine congrArg Ideal.exp ?_
    refine (subf_apply _ _ _).trans ?_
    exact congrArg (fun z : EReal => T (ix2 q k) - z) (rowMaxArr_colmax T q k)

end Softmax

/-! ## The whole result -/

/-- Transposed, soft-maxed along the rows and transposed back, an array reads at `(p, q)` the log-softmax down
    column `q` of its own table. -/
theorem outArr_apply (H : FVec Ideal S10000x16 .f32) (p : Fin 10000) (q : Fin 16) :
    outArr H (ix2 p q) = GcnSpec.lsmR (fun p q => H (ix2 p q)) p q := by
  unfold outArr
  refine (transpose_ix2_apply _ transposes_S16x10000_S10000x16_1_0 p q).trans ?_
  refine (lsmArr_apply _ q p).trans ?_
  have hT : (fun (p : Fin 10000) (q : Fin 16) =>
        transpose S16x10000 [1, 0] H transposes_S10000x16_S16x10000_1_0 (ix2 q p)) = fun p q => H (ix2 p q) :=
    funext fun p => funext fun q => transpose_ix2_apply H transposes_S10000x16_S16x10000_1_0 q p
  rw [hT]

/-- The reference's pieces, put together, are the specification's array in the reference's spelling. -/
theorem outArr_h2arr (A : FVec Ideal S10000x10000 .f32) (X : FVec Ideal S10000x128 .f32) (W1 : FVec Ideal S128x16 .f32)
    (b1 : FVec Ideal S16 .f32) (W2 : FVec Ideal S16x16 .f32) (b2 : FVec Ideal S16 .f32) :
    outArr (h2arr A X W1 b1 W2 b2) = GcnSpec.outR A X W1 b1 W2 b2 := by
  funext i
  obtain ⟨p, q, rfl⟩ : ∃ (p : Fin 10000) (q : Fin 16), i = ix2 p q := ⟨i 0, i 1, eq_ix2 i⟩
  refine (outArr_apply _ p q).trans ?_
  have hh : (fun (p : Fin 10000) (q : Fin 16) => h2arr A X W1 b1 W2 b2 (ix2 p q)) = GcnSpec.h2 A X W1 b1 W2 b2 :=
    funext fun p => funext fun q => h2arr_apply A X W1 b1 W2 b2 p q
  rw [hh]
  rfl

/-- The specification's array in the reference's spelling, of the reference's argument arrays on core `c`. -/
def refOut (m : (ℓ : Loc nD τ sig) → Buf (Elt Ideal) ℓ) (c : Dev nD) : Buf (Elt Ideal) ((c.tc : Thread nD τ).loc main_v13) :=
  GcnSpec.outR (m ((c.tc : Thread nD τ).loc main_arg1)) (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))

/-- The run's composed term is that array. -/
theorem res_eq (m : (ℓ : Loc nD τ sig) → Buf (Elt Ideal) ℓ) (c : Dev nD) :
    Cert.ReferenceIdeal.ValueP.res_main_v13 (F := Ideal) m c = refOut m c :=
  (res_split m c).trans (outArr_h2arr _ _ _ _ _ _)

/-- Every weakly fair execution of the reference ends with its result at the specification's array and its
    arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨(h c).1.trans (res_eq m c), (h c).2⟩)
    (Cert.ReferenceIdeal.ValueP.run (F := Ideal) m ρ)

end Cert.ReferenceIdeal.RefValue

end
-- ==== Proof.FiniteIn.lean ====
/-
  The precondition read back: where the printed predicate "every entry of every input has absolute value below +∞"
  holds, every entry of each of the six inputs is a real number.
-/
import proofs.«137190_g652835029062_cont_sun_m_363_3_alg».proof.Pre_finite_inputs
import proofs.«137190_g652835029062_cont_sun_m_363_3_alg».proof.Proof.Spec
import Idealize.ShloMosaic.PureOps.Ideal
import Idealize.ShloMosaic.PureOps.Ideal.Laws
import Idealize.ShloMosaic.Lib.ReduceAll
import Idealize.ShloMosaic.Lib.ValueIdx

noncomputable section

namespace Cert.FiniteIn

open Idealize.ShloMosaic Idealize.ShloMosaic.ValueIdx

/-- The rank-0 shape has one index. -/
instance subsingleton_idx0 : Subsingleton (⟨0, ![]⟩ : Shape).Idx := ⟨fun _ _ => funext fun d => d.elim0⟩

/-- The pattern 0x7F800000 denotes +∞. -/
theorem ofBits_inf : Ideal.ofBits .f32 0x7F800000#32 = (⊤ : EReal) := by simp [Ideal.ofBits, Ideal.ieee]

/-- An extended real whose absolute value compares below +∞ is a real number. -/
theorem real_of_abs_lt (a : Ideal .f32)
    (h : FloatOps.cmpf .olt (FloatOps.hostAbsf a) (Ideal.ofBits .f32 0x7F800000#32) = 1#1) : ∃ r : ℝ, a = (r : EReal) := by
  rw [ofBits_inf, Ideal.hostAbsf_def, Ideal.cmpf_def, Ideal.absf_def] at h
  induction a using EReal.rec with
  | bot => simp [Ideal.cmp] at h
  | top => simp [Ideal.cmp] at h
  | coe r => exact ⟨r, rfl⟩

/-- Where the conjunction over all entries of "|x| < +∞" is true, every entry of `x` is a real number. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1) (j : (⟨0, ![]⟩ : Shape).Idx)
    (e : Host.reduce IntOp.andi
        (cmpf .olt (Host.absf x) (broadcastInDim s ![] hb (constant (F := Ideal) ⟨0, ![]⟩ .f32 0x7F800000#32))) init hr hu j = 1#1)
    (i : s.Idx) : ∃ r : ℝ, x i = (r : EReal) :=
  real_of_abs_lt (x i) (Host.reduce_andi_all _ init hr hu j e i)

/-- The conjunction of two one-bit arrays read at an index is 1 exactly where both are. -/
theorem andi_at {s : Shape} (a b : IVec s 1) (j : s.Idx) (h : andi a b j = 1#1) : a j = 1#1 ∧ b j = 1#1 :=
  IntOp.andi_eq_one.1 h

/-- Under the printed precondition at the ideal values every entry of every input is a real number. -/
theorem allReal_of_pre [hP : Cert.Pre_finite_inputs.Facts]
    (x0 : FVec Ideal Cert.Pre_finite_inputs.S10000x128 .f32) (x1 : FVec Ideal Cert.Pre_finite_inputs.S10000x10000 .f32)
    (x2 : FVec Ideal Cert.Pre_finite_inputs.S128x16 .f32) (x3 : FVec Ideal Cert.Pre_finite_inputs.S16 .f32)
    (x4 : FVec Ideal Cert.Pre_finite_inputs.S16x16 .f32) (x5 : FVec Ideal Cert.Pre_finite_inputs.S16 .f32)
    (h : Cert.Pre_finite_inputs.fn (F := Ideal) x0 x1 x2 x3 x4 x5 = fun _ => 1#1) :
    GcnSpec.AllReal (S := GcnSpec.SX) x0 ∧ GcnSpec.AllReal (S := GcnSpec.SA) x1 ∧ GcnSpec.AllReal (S := GcnSpec.SW1) x2
      ∧ GcnSpec.AllReal (S := GcnSpec.SB) x3 ∧ GcnSpec.AllReal (S := GcnSpec.SW2) x4 ∧ GcnSpec.AllReal (S := GcnSpec.SB) x5 := by
  have h0 := congrFun h ValueIdx.ix0
  dsimp only [Cert.Pre_finite_inputs.fn, Cert.Pre_finite_inputs.fn_part1] at h0
  obtain ⟨h0, e5⟩ := andi_at _ _ _ h0
  obtain ⟨h0, e4⟩ := andi_at _ _ _ h0
  obtain ⟨h0, e3⟩ := andi_at _ _ _ h0
  obtain ⟨h0, e2⟩ := andi_at _ _ _ h0
  obtain ⟨e0, e1⟩ := andi_at _ _ _ h0
  exact ⟨allReal_of_all x0 _ _ _ _ _ e0, allReal_of_all x1 _ _ _ _ _ e1, allReal_of_all x2 _ _ _ _ _ e2,
    allReal_of_all x3 _ _ _ _ _ e3, allReal_of_all x4 _ _ _ _ _ e4, allReal_of_all x5 _ _ _ _ _ e5⟩

end Cert.FiniteIn

end
-- ==== Proof.lean ====
/-
  A two-layer graph convolution over a dense 10000 × 10000 adjacency followed by a log-softmax over the nodes:
  the kernel program against its plain reference, over the extended reals.

  The kernel program runs two kernels.  The first walks a 3 × 50 grid: fifty points fill a scratch with `X·W1`, 200
  rows at a time; fifty more fill a second scratch with `relu(A·s1 + b1)·W2`, reading the first whole; the last
  fifty write the output layer `A·s2 + b2` band by band, reading the second whole.  Its frame is an invariant over
  the two scratches (the rows stored so far agree with their specification); its value is the output layer.  The
  second kernel takes the log-softmax of that array down each column in one step, subtracting `log Σ exp(h − m) + m`
  from `h`; the reference subtracts `log Σ exp(h − m)` from `h − m`.  Finite inputs give a finite output layer
  and a finite column maximum, on which the two spellings agree; everything before the softmax is the same sums in
  both programs.  The word-level kernel program has the same frame, its text being the same.
-/
import proofs.«137190_g652835029062_cont_sun_m_363_3_alg».proof.Defs
import proofs.«137190_g652835029062_cont_sun_m_363_3_alg».proof.Proof.Gen.Kernel
import proofs.«137190_g652835029062_cont_sun_m_363_3_alg».proof.Proof.Gen.KernelIdeal
import proofs.«137190_g652835029062_cont_sun_m_363_3_alg».proof.Proof.Gen.ReferenceIdeal
import proofs.«137190_g652835029062_cont_sun_m_363_3_alg».proof.Proof.Gen.Pre_finite_inputs
import proofs.«137190_g652835029062_cont_sun_m_363_3_alg».proof.Proof.Bits.Launch
import proofs.«137190_g652835029062_cont_sun_m_363_3_alg».proof.Proof.Launch
import proofs.«137190_g652835029062_cont_sun_m_363_3_alg».proof.Proof.KGlue
import proofs.«137190_g652835029062_cont_sun_m_363_3_alg».proof.Proof.RefValue
import proofs.«137190_g652835029062_cont_sun_m_363_3_alg».proof.Proof.FiniteIn
import proofs.«137190_g652835029062_cont_sun_m_363_3_alg».proof.Proof.Spec
import Idealize.ShloMosaic.Adequacy
import Idealize.ShloMosaic.Init

noncomputable section

namespace Cert.Proof

open Idealize.ShloMosaic Idealize.SL.Sem

/-- The word-level kernel program terminates, faults nowhere and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- So does the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.RefValue.run_spec m ρ)

/-- At the ideal values both programs end with the log-softmax of the output layer of the arguments: the kernel in its
    spelling, the reference in its own, equal because the precondition makes every input, hence the output layer, finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => GcnSpec.outK (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run (Cert.KernelIdeal.defs (F := Ideal)) _ _).mono
      (fun _ h c => ⟨(h c).1.trans (Cert.KernelIdeal.KGlue.result_eq m c), (h c).2⟩)
      (Cert.KernelIdeal.Hand.run_named (F := Ideal) m ρ)
  · refine (θ_run (Cert.ReferenceIdeal.defs (F := Ideal)) _ _).mono (fun _ h c => ⟨(h c).1.trans ?_, (h c).2⟩)
      (Cert.ReferenceIdeal.RefValue.run_spec m' ρ')
    obtain ⟨hX, hA, hW1, hb1, hW2, hb2⟩ := Cert.FiniteIn.allReal_of_pre (hP := Cert.Pre_finite_inputs.Gen.facts) _ _ _ _ _ _ (hpre c)
    unfold Cert.ReferenceIdeal.RefValue.refOut
    rw [(hagree c).1, (hagree c).2.1, (hagree c).2.2.1, (hagree c).2.2.2.1, (hagree c).2.2.2.2.1, (hagree c).2.2.2.2.2]
    exact (GcnSpec.outK_eq_outR _ _ _ _ _ _ hA hX hW1 hb1 hW2 hb2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
